-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40 : Shape := ⟨1, ![40]⟩
abbrev S4x3 : Shape := ⟨2, ![4, 3]⟩
abbrev S8 : Shape := ⟨1, ![8]⟩
abbrev S40x2 : Shape := ⟨2, ![40, 2]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel
  bcast_S_S4x3 : S_.BroadcastsInDim S4x3 (![] : Fin 0 → Fin S4x3.rank)
  reducesTo_S4x3_S_d0_1 : S4x3.ReducesTo [0, 1] S_
  bcast_S_S8 : S_.BroadcastsInDim S8 (![] : Fin 0 → Fin S8.rank)
  reducesTo_S8_S_d0 : S8.ReducesTo [0] S_
  bcast_S_S40x2 : S_.BroadcastsInDim S40x2 (![] : Fin 0 → Fin S40x2.rank)
  reducesTo_S40x2_S_d0_1 : S40x2.ReducesTo [0, 1] S_

variable [Facts]

def fn_part1 {F : FTy → Type} [FloatOps F] (main_arg4 : FVec F S40x2 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S40x2 .f32 := Host.absf main_arg4
  let main_cst_6 : FVec F S_ .f32 := constant S_ .f32 0x7F800000#32
  let main_v20 : FVec F S40x2 .f32 := broadcastInDim S40x2 ![] bcast_S_S40x2 main_cst_6
  let main_v21 : IVec S40x2 1 := cmpf .olt main_v19 main_v20
  let main_c_7 : IVec S_ 1 := constantI S_ 1 1#1
  let main_v22 : IVec S_ 1 := (fun x v => Host.reduce IntOp.andi x v reducesTo_S40x2_S_d0_1 h_S_) main_v21 main_c_7
  let main_v23 : IVec S_ 1 := andi main_v18 main_v22
  main_v23

def fn {F : FTy → Type} [FloatOps F] (main_arg0 : FVec F S40 .f32) (main_arg1 : FVec F S40 .f32) (main_arg2 : FVec F S4x3 .f32) (main_arg3 : FVec F S8 .f32) (main_arg4 : FVec F S40x2 .f32) : IVec S_ 1 :=
  let main_v0 : FVec F S40 .f32 := Host.absf main_arg0
  let main_cst : FVec F S_ .f32 := constant S_ .f32 0x7F800000#32
  let main_v1 : FVec F S40 .f32 := broadcastInDim S40 ![] bcast_S_S40 main_cst
  let main_v2 : IVec S40 1 := cmpf .olt main_v0 main_v1
  let main_c : IVec S_ 1 := constantI S_ 1 1#1
  let main_v3 : IVec S_ 1 := (fun x v => Host.reduce IntOp.andi x v reducesTo_S40_S_d0 h_S_) main_v2 main_c
  let main_v4 : FVec F S40 .f32 := Host.absf main_arg1
  let main_cst_0 : FVec F S_ .f32 := constant S_ .f32 0x7F800000#32
  let main_v5 : FVec F S40 .f32 := broadcastInDim S40 ![] bcast_S_S40 main_cst_0
  let main_v6 : IVec S40 1 := cmpf .olt main_v4 main_v5
  let main_c_1 : IVec S_ 1 := constantI S_ 1 1#1
  let main_v7 : IVec S_ 1 := (fun x v => Host.reduce IntOp.andi x v reducesTo_S40_S_d0 h_S_) main_v6 main_c_1
  let main_v8 : IVec S_ 1 := andi main_v3 main_v7
  let main_v9 : FVec F S4x3 .f32 := Host.absf main_arg2
  let main_cst_2 : FVec F S_ .f32 := constant S_ .f32 0x7F800000#32
  let main_v10 : FVec F S4x3 .f32 := broadcastInDim S4x3 ![] bcast_S_S4x3 main_cst_2
  let main_v11 : IVec S4x3 1 := cmpf .olt main_v9 main_v10
  let main_c_3 : IVec S_ 1 := constantI S_ 1 1#1
  let main_v12 : IVec S_ 1 := (fun x v => Host.reduce IntOp.andi x v reducesTo_S4x3_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_v13 main_v16
-- ==== Kernel.lean ====
abbrev S40 : Shape := ⟨1, ![40]⟩
abbrev S4x3 : Shape := ⟨2, ![4, 3]⟩
abbrev S8 : Shape := ⟨1, ![8]⟩
abbrev S40x2 : Shape := ⟨2, ![40, 2]⟩
abbrev S40x8 : Shape := ⟨2, ![40, 8]⟩
abbrev S40x1 : Shape := ⟨2, ![40, 1]⟩
abbrev S1x8 : Shape := ⟨2, ![1, 8]⟩
abbrev S3x4 : Shape := ⟨2, ![3, 4]⟩
abbrev S1x4 : Shape := ⟨2, ![1, 4]⟩
abbrev S142x2 : Shape := ⟨2, ![142, 2]⟩
abbrev S40x4 : Shape := ⟨2, ![40, 4]⟩
abbrev S22x1 : Shape := ⟨2, ![22, 1]⟩
abbrev S22x2 : Shape := ⟨2, ![22, 2]⟩

abbrev nBuf : Space → Nat
  | .hbm => 19
  | .vmem => 14
  | .smem => 0
  | _ => 0

abbrev bufTy : (tb : Table) → Fin (tcTables nBuf tb) → BufTy
  | .hbm, ⟨0, _⟩ => ⟨S40, .f32⟩
  | .hbm, ⟨1, _⟩ => ⟨S40, .f32⟩
  | .hbm, ⟨2, _⟩ => ⟨S4x3, .f32⟩
  | .hbm, ⟨3, _⟩ => ⟨S8, .f32⟩
  | .hbm, ⟨4, _⟩ => ⟨S40x2, .f32⟩
  | .hbm, ⟨5, _⟩ => ⟨S40x8, .f32⟩
  | .hbm, ⟨6, _⟩ => ⟨S40x8, .f32⟩
  | .hbm, ⟨7, _⟩ => ⟨S40x1, .f32⟩
  | .hbm, ⟨8, _⟩ => ⟨S40x1, .f32⟩
  | .hbm, ⟨9, _⟩ => ⟨S40x1, .f32⟩
  | .hbm, ⟨10, _⟩ => ⟨S40x1, .f32⟩
  | .hbm, ⟨11, _⟩ => ⟨S40x1, .f32⟩
  | .hbm, ⟨12, _⟩ => ⟨S40x1, .f32⟩
  | .hbm, ⟨13, _⟩ => ⟨S1x8, .f32⟩
  | .hbm, ⟨14, _⟩ => ⟨S3x4, .f32⟩
  | .hbm, ⟨15, _⟩ => ⟨S1x4, .f32⟩
  | .hbm, ⟨16, _⟩ => ⟨S1x4, .f32⟩
  | .hbm, ⟨17, _⟩ => ⟨S1x4, .f32⟩
  | .hbm, ⟨18, _⟩ => ⟨S142x2, .f32⟩
  | .local _ .vmem, ⟨0, _⟩ => ⟨S40x1, .f32⟩
  | .local _ .vmem, ⟨1, _⟩ => ⟨S40x1, .f32⟩
  | .local _ .vmem, ⟨2, _⟩ => ⟨S1x8, .f32⟩
  | .local _ .vmem, ⟨3, _⟩ => ⟨S40x2, .f32⟩
  | .local _ .vmem, ⟨4, _⟩ => ⟨S1x4, .f32⟩
  | .local _ .vmem, ⟨5, _⟩ => ⟨S1x4, .f32⟩
  | .local _ .vmem, ⟨6, _⟩ => ⟨S1x4, .f32⟩
  | .local _ .vmem, ⟨7, _⟩ => ⟨S40x8, .f32⟩
  | .local _ .vmem, ⟨8, _⟩ => ⟨S40x8, .f32⟩
  | .local _ .vmem, ⟨9, _⟩ => ⟨S40x1, .f32⟩
  | .local _ .vmem, ⟨10, _⟩ => ⟨S40x1, .f32⟩
  | .local _ .vmem, ⟨11, _⟩ => ⟨S40x1, .f32⟩
  | .local _ .vmem, ⟨12, _⟩ => ⟨S40x1, .f32⟩
  | .local _ .vmem, ⟨13, _⟩ => ⟨S142x2, .f32⟩
  | _, _ => ⟨S40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_cst_2 : Ref sig .tc := ⟨.hbm, 8, rfl⟩
abbrev main_cst_3 : Ref sig .tc := ⟨.hbm, 9, rfl⟩
abbrev main_cst_4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S40x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S40x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S40x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S40x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S40x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S40x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S40x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S40x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S142x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

class Facts₀ : Prop where
  shapeCasts_S40_S40x1 : S40.ShapeCasts S40x1
  shapeCasts_S8_S1x8 : S8.ShapeCasts S1x8
  transposes_S4x3_S3x4_1_0 : S4x3.Transposes [1, 0] S3x4
  slices_S3x4_S1x4_0_0 : S3x4.Slices ![0, 0] S1x4
  slices_S3x4_S1x4_1_0 : S3x4.Slices ![1, 0] S1x4
  slices_S3x4_S1x4_2_0 : S3x4.Slices ![2, 0] S1x4
  inb_S40x8_S40x8_0_0 : ∀ a, (![0, 0] : Fin 2 → Nat) a + S40x8.size a ≤ S40x8.size a
  h_S40x8 : 0 < S40x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S40x8 : S1x8.Broadcasts S40x8
  reduces_S40x8_S40 : S40x8.Reduces [1] S40
  inb_S40x1_S40x1_0_0 : ∀ a, (![0, 0] : Fin 2 → Nat) a + S40x1.size a ≤ S40x1.size a
  h_S40x1 : 0 < S40x1.numel
  shapeCasts_S40x1_S40x1 : S40x1.ShapeCasts S40x1
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S40x1_S40x4 : S40x1.Broadcasts S40x4
  broadcasts_S1x4_S40x4 : S1x4.Broadcasts S40x4
  inb_S40x2_S40x1_0_0 : ∀ a, (![0, 0] : Fin 2 → Nat) a + S40x1.size a ≤ S40x2.size a
  inb_S40x2_S40x1_0_1 : ∀ a, (![0, 1] : Fin 2 → Nat) a + S40x1.size a ≤ S40x2.size a
  slices_S40x4_o0_0_S40x1 : S40x4.Slices ![0, 0] S40x1
  concatenates_S40x1_S40x1_S40x2_d1 : Shape.Concatenates [S40x1, S40x1] S40x2 1
  inb_S142x2_S40x2_0_0 : ∀ a, (![0, 0] : Fin 2 → Nat) a + S40x2.size a ≤ S142x2.size a
  h_S40x2 : 0 < S40x2.numel
  slices_S40x4_o18_1_S22x1 : S40x4.Slices ![18, 1] S22x1
  concatenates_S22x1_S22x1_S22x2_d1 : Shape.Concatenates [S22x1, S22x1] S22x2 1
  inb_S142x2_S22x2_40_0 : ∀ a, (![40, 0] : Fin 2 → Nat) a + S22x2.size a ≤ S142x2.size a
  h_S22x2 : 0 < S22x2.numel
  slices_S40x4_o0_2_S40x1 : S40x4.Slices ![0, 2] S40x1
  inb_S142x2_S40x2_62_0 : ∀ a, (![62, 0] : Fin 2 → Nat) a + S40x2.size a ≤ S142x2.size a
  slices_S40x4_o0_3_S40x1 : S40x4.Slices ![0, 3] S40x1
  inb_S142x2_S40x2_102_0 : ∀ a, (![102, 0] : Fin 2 → Nat) a + S40x2.size a ≤ S142x2.size a
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S40x1.size a ≤ S40x1.size a
  hwx0_0 : ∀ i : grid0.Coords, EltTy.bits .f32 = 32 ∨ (Rect.block (s := S40x1) S40x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x1.size a ≤ S40x1.size a
  hwx0_1 : ∀ i : grid0.Coords, EltTy.bits .f32 = 32 ∨ (Rect.block (s := S40x1) S40x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S40x2.size a ≤ S40x2.size a
  hwx0_3 : ∀ i : grid0.Coords, EltTy.bits .f32 = 32 ∨ (Rect.block (s := S40x2) S40x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4.size a ≤ S1x4.size a
  hwx0_4 : ∀ i : grid0.Coords, EltTy.bits .f32 = 32 ∨ (Rect.block (s := S1x4) S1x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4.size a ≤ S1x4.size a
  hwx0_5 : ∀ i : grid0.Coords, EltTy.bits .f32 = 32 ∨ (Rect.block (s := S1x4) S1x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S40x8.size a ≤ S40x8.size a
  hwx0_7 : ∀ i : grid0.Coords, EltTy.bits .f32 = 32 ∨ (Rect.block (s := S40x8) S40x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S40x8.size a ≤ S40x8.size a
  hwx0_8 : ∀ i : grid0.Coords, EltTy.bits .f32 = 32 ∨ (Rect.block (s := S40x8) S40x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S40x1.size a ≤ S40x1.size a
  hwx0_9 : ∀ i : grid0.Coords, EltTy.bits .f32 = 32 ∨ (Rect.block (s := S40x1) S40x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S40x1.size a ≤ S40x1.size a
  hwx0_10 : ∀ i : grid0.Coords, EltTy.bits .f32 = 32 ∨ (Rect.block (s := S40x1) S40x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S40x1.size a ≤ S40x1.size a
  hwx0_11 : ∀ i : grid0.Coords, EltTy.bits .f32 = 32 ∨ (Rect.block (s := S40x1) S40x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S40x1.size a ≤ S40x1.size a
  hwx0_12 : ∀ i : grid0.Coords, EltTy.bits .f32 = 32 ∨ (Rect.block (s := S40x1) S40x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S142x2.size a ≤ S142x2.size a
  hwx0_13 : ∀ i : grid0.Coords, EltTy.bits .f32 = 32 ∨ (Rect.block (s := S142x2) S142x2.size (cc0_transform_13 i) (hinb0_13 i)).WholeWords (EltTy.packing .f32)

variable [Facts₀]

abbrev win0_0 : Pipeline.Window sig grid0 :=
  Pipeline.Window.ofSpec (Memref.whole main_v0) S40x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S40x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S40x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_cst) S40x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_cst_0) S40x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_cst_1) S40x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_cst_2) S40x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_cst_3) S40x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_cst_4) S40x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S142x2.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S40 : Shape := ⟨1, ![40]⟩
abbrev S4x3 : Shape := ⟨2, ![4, 3]⟩
abbrev S8 : Shape := ⟨1, ![8]⟩
abbrev S40x2 : Shape := ⟨2, ![40, 2]⟩
abbrev S142 : Shape := ⟨1, ![142]⟩
abbrev S_ : Shape := ⟨0, ![]⟩
abbrev S40x1 : Shape := ⟨2, ![40, 1]⟩
abbrev S40x1x2 : Shape := ⟨3, ![40, 1, 2]⟩
abbrev S40x2x2 : Shape := ⟨3, ![40, 2, 2]⟩
abbrev S40x3 : Shape := ⟨2, ![40, 3]⟩
abbrev S40x1x3 : Shape := ⟨3, ![40, 1, 3]⟩
abbrev S40x2x3 : Shape := ⟨3, ![40, 2, 3]⟩
abbrev S40x1x1 : Shape := ⟨3, ![40, 1, 1]⟩
abbrev S4x40x2 : Shape := ⟨3, ![4, 40, 2]⟩
abbrev S1x40x2 : Shape := ⟨3, ![1, 40, 2]⟩
abbrev S160x2 : Shape := ⟨2, ![160, 2]⟩
abbrev S142x1 : Shape := ⟨2, ![142, 1]⟩
abbrev S142x2 : Shape := ⟨2, ![142, 2]⟩

abbrev nBuf : Space → Nat
  | .hbm => 104
  | .vmem => 0
  | .smem => 0
  | _ => 0

abbrev bufTy : (tb : Table) → Fin (tcTables nBuf tb) → BufTy
  | .hbm, ⟨0, _⟩ => ⟨S40, .f32⟩
  | .hbm, ⟨1, _⟩ => ⟨S40, .f32⟩
  | .hbm, ⟨2, _⟩ => ⟨S4x3, .f32⟩
  | .hbm, ⟨3, _⟩ => ⟨S8, .f32⟩
  | .hbm, ⟨4, _⟩ => ⟨S40x2, .f32⟩
  | .hbm, ⟨5, _⟩ => ⟨S40, .i32⟩
  | .hbm, ⟨6, _⟩ => ⟨S40, .i1⟩
  | .hbm, ⟨7, _⟩ => ⟨S40, .i32⟩
  | .hbm, ⟨8, _⟩ => ⟨S40, .i1⟩
  | .hbm, ⟨9, _⟩ => ⟨S40, .f32⟩
  | .hbm, ⟨10, _⟩ => ⟨S40, .i1⟩
  | .hbm, ⟨11, _⟩ => ⟨S40, .i1⟩
  | .hbm, ⟨12, _⟩ => ⟨S142, .i32⟩
  | .hbm, ⟨13, _⟩ => ⟨S_, .i32⟩
  | .hbm, ⟨14, _⟩ => ⟨S40, .i32⟩
  | .hbm, ⟨15, _⟩ => ⟨S40, .i32⟩
  | .hbm, ⟨16, _⟩ => ⟨S40, .i32⟩
  | .hbm, ⟨17, _⟩ => ⟨S40x1, .i32⟩
  | .hbm, ⟨18, _⟩ => ⟨S40, .f32⟩
  | .hbm, ⟨19, _⟩ => ⟨S_, .i32⟩
  | .hbm, ⟨20, _⟩ => ⟨S40, .i32⟩
  | .hbm, ⟨21, _⟩ => ⟨S40, .i32⟩
  | .hbm, ⟨22, _⟩ => ⟨S40, .i32⟩
  | .hbm, ⟨23, _⟩ => ⟨S40x1, .i32⟩
  | .hbm, ⟨24, _⟩ => ⟨S40, .f32⟩
  | .hbm, ⟨25, _⟩ => ⟨S40, .f32⟩
  | .hbm, ⟨26, _⟩ => ⟨S40, .f32⟩
  | .hbm, ⟨27, _⟩ => ⟨S40, .f32⟩
  | .hbm, ⟨28, _⟩ => ⟨S_, .f32⟩
  | .hbm, ⟨29, _⟩ => ⟨S_, .f32⟩
  | .hbm, ⟨30, _⟩ => ⟨S40, .f32⟩
  | .hbm, ⟨31, _⟩ => ⟨S40, .f32⟩
  | .hbm, ⟨32, _⟩ => ⟨S40, .f32⟩
  | .hbm, ⟨33, _⟩ => ⟨S_, .f32⟩
  | .hbm, ⟨34, _⟩ => ⟨S40, .f32⟩
  | .hbm, ⟨35, _⟩ => ⟨S40, .f32⟩
  | .hbm, ⟨36, _⟩ => ⟨S_, .f32⟩
  | .hbm, ⟨37, _⟩ => ⟨S40, .f32⟩
  | .hbm, ⟨38, _⟩ => ⟨S40, .f32⟩
  | .hbm, ⟨39, _⟩ => ⟨S40, .f32⟩
  | .hbm, ⟨40, _⟩ => ⟨S40, .f32⟩
  | .hbm, ⟨41, _⟩ => ⟨S40, .f32⟩
  | .hbm, ⟨42, _⟩ => ⟨S40x1, .f32⟩
  | .hbm, ⟨43, _⟩ => ⟨S40x1, .f32⟩
  | .hbm, ⟨44, _⟩ => ⟨S40x2, .f32⟩
  | .hbm, ⟨45, _⟩ => ⟨S40x1, .f32⟩
  | .hbm, ⟨46, _⟩ => ⟨S40x1, .f32⟩
  | .hbm, ⟨47, _⟩ => ⟨S40x2, .f32⟩
  | .hbm, ⟨48, _⟩ => ⟨S40x1x2, .f32⟩
  | .hbm, ⟨49, _⟩ => ⟨S40x1x2, .f32⟩
  | .hbm, ⟨50, _⟩ => ⟨S40x2x2, .f32⟩
  | .hbm, ⟨51, _⟩ => ⟨S40, .f32⟩
  | .hbm, ⟨52, _⟩ => ⟨S40, .f32⟩
  | .hbm, ⟨53, _⟩ => ⟨S_, .f32⟩
  | .hbm, ⟨54, _⟩ => ⟨S40, .f32⟩
  | .hbm, ⟨55, _⟩ => ⟨S_, .f32⟩
  | .hbm, ⟨56, _⟩ => ⟨S40, .f32⟩
  | .hbm, ⟨57, _⟩ => ⟨S40x1, .f32⟩
  | .hbm, ⟨58, _⟩ => ⟨S40x1, .f32⟩
  | .hbm, ⟨59, _⟩ => ⟨S40x1, .f32⟩
  | .hbm, ⟨60, _⟩ => ⟨S40x3, .f32⟩
  | .hbm, ⟨61, _⟩ => ⟨S40x1, .f32⟩
  | .hbm, ⟨62, _⟩ => ⟨S40x1, .f32⟩
  | .hbm, ⟨63, _⟩ => ⟨S40x1, .f32⟩
  | .hbm, ⟨64, _⟩ => ⟨S40x3, .f32⟩
  | .hbm, ⟨65, _⟩ => ⟨S40x1x3, .f32⟩
  | .hbm, ⟨66, _⟩ => ⟨S40x1x3, .f32⟩
  | .hbm, ⟨67, _⟩ => ⟨S40x2x3, .f32⟩
  | .hbm, ⟨68, _⟩ => ⟨S40, .i32⟩
  | .hbm, ⟨69, _⟩ => ⟨S_, .i32⟩
  | .hbm, ⟨70, _⟩ => ⟨S40, .i32⟩
  | .hbm, ⟨71, _⟩ => ⟨S40, .i1⟩
  | .hbm, ⟨72, _⟩ => ⟨S_, .f32⟩
  | .hbm, ⟨73, _⟩ => ⟨S_, .f32⟩
  | .hbm, ⟨74, _⟩ => ⟨S40, .f32⟩
  | .hbm, ⟨75, _⟩ => ⟨S40, .f32⟩
  | .hbm, ⟨76, _⟩ => ⟨S40x1x1, .f32⟩
  | .hbm, ⟨77, _⟩ => ⟨S40x2x3, .f32⟩
  | .hbm, ⟨78, _⟩ => ⟨S40x2x3, .f32⟩
  | .hbm, ⟨79, _⟩ => ⟨S40x2x3, .f32⟩
  | .hbm, ⟨80, _⟩ => ⟨S40, .i32⟩
  | .hbm, ⟨81, _⟩ => ⟨S_, .i32⟩
  | .hbm, ⟨82, _⟩ => ⟨S40, .i32⟩
  | .hbm, ⟨83, _⟩ => ⟨S40, .i1⟩
  | .hbm, ⟨84, _⟩ => ⟨S40x1, .i1⟩
  | .hbm, ⟨85, _⟩ => ⟨S_, .f32⟩
  | .hbm, ⟨86, _⟩ => ⟨S_, .f32⟩
  | .hbm, ⟨87, _⟩ => ⟨S40x2, .i1⟩
  | .hbm, ⟨88, _⟩ => ⟨S40x2, .f32⟩
  | .hbm, ⟨89, _⟩ => ⟨S40x2, .f32⟩
  | .hbm, ⟨90, _⟩ => ⟨S4x40x2, .f32⟩
  | .hbm, ⟨91, _⟩ => ⟨S1x40x2, .f32⟩
  | .hbm, ⟨92, _⟩ => ⟨S4x40x2, .f32⟩
  | .hbm, ⟨93, _⟩ => ⟨S4x40x2, .f32⟩
  | .hbm, ⟨94, _⟩ => ⟨S160x2, .f32⟩
  | .hbm, ⟨95, _⟩ => ⟨S_, .i32⟩
  | .hbm, ⟨96, _⟩ => ⟨S142, .i32⟩
  | .hbm, ⟨97, _⟩ => ⟨S142, .i1⟩
  | .hbm, ⟨98, _⟩ => ⟨S_, .i32⟩
  | .hbm, ⟨99, _⟩ => ⟨S142, .i32⟩
  | .hbm, ⟨100, _⟩ => ⟨S142, .i32⟩
  | .hbm, ⟨101, _⟩ => ⟨S142, .i32⟩
  | .hbm, ⟨102, _⟩ => ⟨S142x1, .i32⟩
  | .hbm, ⟨103, _⟩ => ⟨S142x2, .f32⟩
  | _, _ => ⟨S40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_cst : Ref sig .tc := ⟨.hbm, 9, rfl⟩
abbrev main_c_3 : Ref sig .tc := ⟨.hbm, 10, rfl⟩
abbrev main_c_4 : Ref sig .tc := ⟨.hbm, 11, rfl⟩
abbrev main_c_5 : Ref sig .tc := ⟨.hbm, 12, rfl⟩
abbrev main_c_6 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_7 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_8 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_v14 : Ref sig .tc := ⟨.hbm, 32, rfl⟩
abbrev main_cst_9 : Ref sig .tc := ⟨.hbm, 33, rfl⟩
abbrev main_v15 : Ref sig .tc := ⟨.hbm, 34, rfl⟩
abbrev main_v16 : Ref sig .tc := ⟨.hbm, 35, rfl⟩
abbrev main_cst_10 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_11 : Ref sig .tc := ⟨.hbm, 53, rfl⟩
abbrev main_v33 : Ref sig .tc := ⟨.hbm, 54, rfl⟩
abbrev main_cst_12 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_13 : Ref sig .tc := ⟨.hbm, 69, rfl⟩
abbrev main_v47 : Ref sig .tc := ⟨.hbm, 70, rfl⟩
abbrev main_v48 : Ref sig .tc := ⟨.hbm, 71, rfl⟩
abbrev main_cst_14 : Ref sig .tc := ⟨.hbm, 72, rfl⟩
abbrev main_call2_v0 : Ref sig .tc := ⟨.hbm, 73, rfl⟩
abbrev main_call2_v1 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_15 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_16 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_17 : Ref sig .tc := ⟨.hbm, 95, rfl⟩
abbrev main_v64 : Ref sig .tc := ⟨.hbm, 96, rfl⟩
abbrev main_v65 : Ref sig .tc := ⟨.hbm, 97, rfl⟩
abbrev main_c_18 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩

abbrev nD : Nat := 1
abbrev τ : Topo := Topo.v7x

variable {F : FTy → Type} [FloatOps F]

class Facts₀ : Prop where
  bcast_S_S40 : S_.BroadcastsInDim S40 (![] : Fin 0 → Fin S40.rank)
  bcast_S40_S40x1_0 : S40.BroadcastsInDim S40x1 (![0] : Fin 1 → Fin S40x1.rank)
  concatenates_S40x1_S40x1_S40x2_d1 : Shape.Concatenates [S40x1, S40x1] S40x2 1
  bcast_S40x2_S40x1x2_0_2 : S40x2.BroadcastsInDim S40x1x2 (![0, 2] : Fin 2 → Fin S40x1x2.rank)
  concatenates_S40x1x2_S40x1x2_S40x2x2_d1 : Shape.Concatenates [S40x1x2, S40x1x2] S40x2x2 1
  concatenates_S40x1_S40x1_S40x1_S40x3_d1 : Shape.Concatenates [S40x1, S40x1, S40x1] S40x3 1
  bcast_S40x3_S40x1x3_0_2 : S40x3.BroadcastsInDim S40x1x3 (![0, 2] : Fin 2 → Fin S40x1x3.rank)
  concatenates_S40x1x3_S40x1x3_S40x2x3_d1 : Shape.Concatenates [S40x1x3, S40x1x3] S40x2x3 1
  bcast_S40_S40x1x1_0 : S40.BroadcastsInDim S40x1x1 (![0] : Fin 1 → Fin S40x1x1.rank)
  bcast_S40x1x1_S40x2x3_0_1_2 : S40x1x1.BroadcastsInDim S40x2x3 (![0, 1, 2] : Fin 3 → Fin S40x2x3.rank)
  bcast_S40x1_S40x2_0_1 : S40x1.BroadcastsInDim S40x2 (![0, 1] : Fin 2 → Fin S40x2.rank)
  bcast_S_S40x2 : S_.BroadcastsInDim S40x2 (![] : Fin 0 → Fin S40x2.rank)
  bcast_S40x2_S1x40x2_1_2 : S40x2.BroadcastsInDim S1x40x2 (![1, 2] : Fin 2 → Fin S1x40x2.rank)
  bcast_S1x40x2_S4x40x2_0_1_2 : S1x40x2.BroadcastsInDim S4x40x2 (![0, 1, 2] : Fin 3 → Fin S4x40x2.rank)
  shapeCasts_S4x40x2_S160x2 : S4x40x2.ShapeCasts S160x2
  bcast_S_S142 : S_.BroadcastsInDim S142 (![] : Fin 0 → Fin S142.rank)
  bcast_S142_S142x1_0 : S142.BroadcastsInDim S142x1 (![0] : Fin 1 → Fin S142x1.rank)
  gather_S8_S40x1_S40_n_0_n_n_0_1_1_wf : GatherDims.WF S8 S40x1 S40 [] [0] [] [0] [] 1 ![1]
  dot_S40x2x2_S40x2x3_S40x2x3_2_1_1_2_0_0_wf : DotDims.WF S40x2x2 S40x2x3 S40x2x3 [2] [1] [1] [2] [0] [0]
  dot_S4x3_S40x2x3_S4x40x2_1_2_0_01_n_n_wf : DotDims.WF S4x3 S40x2x3 S4x40x2 [1] [2] [0] [0, 1] [] []
  gather_S160x2_S142x1_S142x2_1_0_n_n_0_1_12_wf : GatherDims.WF S160x2 S142x1 S142x2 [1] [0] [] [0] [] 1 ![1, 2]

variable [Facts₀]

def gather_S8_S40x1_S40_n_0_n_n_0_1_1 : GatherDims S8 S40x1 S40 where
  offsetDims := []
  collapsedSliceDims := [0]
  operandBatchingDims := []
  startIndicesBatchingDims := []
  startIndexMap := [0]
  indexVectorDim := 1
  sliceSizes := ![1]
  wf := gather_S8_S40x1_S40_n_0_n_n_0_1_1_wf
def dot_S40x2x2_S40x2x3_S40x2x3_2_1_1_2_0_0 : DotDims S40x2x2 S40x2x3 S40x2x3 where
  lhsContracting := [2]
  rhsContracting := [1]
  lhsNonContracting := [1]
  rhsNonContracting := [2]
  lhsBatch := [0]
  rhsBatch := [0]
  wf := dot_S40x2x2_S40x2x3_S40x2x3_2_1_1_2_0_0_wf
def dot_S4x3_S40x2x3_S4x40x2_1_2_0_01_n_n : DotDims S4x3 S40x2x3 S4x40x2 where
  lhsContracting := [1]
  rhsContracting := [2]
  lhsNonContracting := [0]
  rhsNonContracting := [0, 1]
  lhsBatch := []
  rhsBatch := []
  wf := dot_S4x3_S40x2x3_S4x40x2_1_2_0_01_n_n_wf
def gather_S160x2_S142x1_S142x2_1_0_n_n_0_1_12 : GatherDims S160x2 S142x1 S142x2 where
  offsetDims := [1]
  collapsedSliceDims := [0]
  operandBatchingDims := []
  startIndicesBatchingDims := []
  startIndexMap := [0]
  indexVectorDim := 1
  sliceSizes := ![1, 2]
  wf := gather_S160x2_S142x1_S142x2_1_0_n_n_0_1_12_wf

class Facts : Prop extends Facts₀ where

variable [Facts]
-- ==== Proof.Spec.lean ====
/-
  What the program computes, as one function of its five argument arrays over the extended reals.

  Forty views; view v has a rotation angle rot v and a magnification mag v; eight tilt angles are given at the knot
  views 0, 3, 8, 20, 26, 32, 36, 39, and a view between two knots takes the straight-line interpolation of the two
  knots' angles (view 14 is the exception: it takes the fixed angle -15 degrees).  With phi = rot v in radians and
  theta = the view's tilt in radians, the view's 2 x 3 projection matrix is mag v times
      [ cos phi  -sin phi ]   [ cos theta  0  sin theta ]
      [ sin phi   cos phi ] . [ 0          1  0         ]
  (view 0 uses magnification 1 and offset 0), and marker mk, at xyz mk, is projected to matrix . xyz mk + off v.
  The result lists, marker by marker, the projected points of the views kept: all forty for markers 0, 2 and 3,
  the views 18 .. 39 for marker 1: 142 rows of two coordinates.

  The sums and products below are associated in one fixed way; both programs are compared against this text.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The knot at or below view `v`, as a position among the eight knots 0, 3, 8, 20, 26, 32, 36, 39. -/
def lo (v : Fin 40) : Fin 8 :=
  if v.val < 3 then 0 else if v.val < 8 then 1 else if v.val < 20 then 2 else if v.val < 26 then 3
  else if v.val < 32 then 4 else if v.val < 36 then 5 else if v.val < 39 then 6 else 7

/-- The next knot (the last knot is its own successor). -/
def hi (v : Fin 40) : Fin 8 :=
  if v.val < 3 then 1 else if v.val < 8 then 2 else if v.val < 20 then 3 else if v.val < 26 then 4
  else if v.val < 32 then 5 else if v.val < 36 then 6 else 7

/-- View `v` is itself a knot. -/
def isKnot (v : Fin 40) : Bool :=
  v.val == 0 || v.val == 3 || v.val == 8 || v.val == 20 || v.val == 26 || v.val == 32 || v.val == 36 || v.val == 39

/-- How far view `v` lies from its lower knot towards the next, as the single-precision word of the quotient. -/
def fracBits : Fin 40 → BitVec 32 := fun
  | 0 => 0x00000000#32 | 1 => 0x3EAAAAAB#32 | 2 => 0x3F2AAAAB#32 | 3 => 0x00000000#32 | 4 => 0x3E4CCCCD#32 | 5 => 0x3ECCCCCD#32 | 6 => 0x3F19999A#32 | 7 => 0x3F4CCCCD#32
  | 8 => 0x00000000#32 | 9 => 0x3DAAAAAB#32 | 10 => 0x3E2AAAAB#32 | 11 => 0x3E800000#32 | 12 => 0x3EAAAAAB#32 | 13 => 0x3ED55555#32 | 14 => 0x3F000000#32 | 15 => 0x3F155555#32
  | 16 => 0x3F2AAAAB#32 | 17 => 0x3F400000#32 | 18 => 0x3F555555#32 | 19 => 0x3F6AAAAB#32 | 20 => 0x00000000#32 | 21 => 0x3E2AAAAB#32 | 22 => 0x3EAAAAAB#32 | 23 => 0x3F000000#32
  | 24 => 0x3F2AAAAB#32 | 25 => 0x3F555555#32 | 26 => 0x00000000#32 | 27 => 0x3E2AAAAB#32 | 28 => 0x3EAAAAAB#32 | 29 => 0x3F000000#32 | 30 => 0x3F2AAAAB#32 | 31 => 0x3F555555#32
  | 32 => 0x00000000#32 | 33 => 0x3E800000#32 | 34 => 0x3F000000#32 | 35 => 0x3F400000#32 | 36 => 0x00000000#32 | 37 => 0x3EAAAAAB#32 | 38 => 0x3F2AAAAB#32 | 39 => 0x00000000#32
  | _ => 0#32

/-- The float 0, 1, -15 and the factor from degrees to radians, as the programs spell them. -/
abbrev zero : EReal := Ideal.ofBits .f32 0x00000000#32
abbrev one : EReal := Ideal.ofBits .f32 0x3F800000#32
abbrev minus15 : EReal := Ideal.ofBits .f32 0xC1700000#32
abbrev deg2rad : EReal := Ideal.ofBits .f32 0x3C8EFA35#32

section
variable (rot mag : (⟨1, ![40]⟩ : Shape).Idx → EReal) (xyz : (⟨2, ![4, 3]⟩ : Shape).Idx → EReal)
  (tilt : (⟨1, ![8]⟩ : Shape).Idx → EReal) (off : (⟨2, ![40, 2]⟩ : Shape).Idx → EReal)

/-- The tilt of view `v` in degrees: the knot's own angle at a knot, -15 at view 14, else interpolated. -/
def tiltDeg (v : Fin 40) : EReal :=
  if isKnot v = true then tilt (ix1 (lo v))
  else if v.val = 14 then minus15
  else tilt (ix1 (lo v)) + (tilt (ix1 (hi v)) - tilt (ix1 (lo v))) * Ideal.ofBits .f32 (fracBits v)

/-- The tilt and the rotation of view `v` in radians. -/
def theta (v : Fin 40) : EReal := tiltDeg tilt v * deg2rad
def phi (v : Fin 40) : EReal := rot (ix1 v) * deg2rad

/-- The magnification in effect: 1 at view 0. -/
def magE (v : Fin 40) : EReal := if v.val = 0 then one else mag (ix1 v)

/-- The offset in effect: 0 at view 0. -/
def offE (v : Fin 40) (p : Fin 2) : EReal := if v.val = 0 then zero else off (ix2 v p)

/-- Entry (p, k) of view `v`'s projection matrix. -/
def coef (v : Fin 40) (p : Fin 2) (k : Fin 3) : EReal :=
  match p, k with
  | 0, 0 => magE mag v * Ideal.cos (phi rot v) * Ideal.cos (theta tilt v)
  | 0, 1 => (zero - magE mag v) * Ideal.sin (phi rot v)
  | 0, 2 => magE mag v * Ideal.cos (phi rot v) * Ideal.sin (theta tilt v)
  | 1, 0 => magE mag v * Ideal.sin (phi rot v) * Ideal.cos (theta tilt v)
  | 1, 1 => magE mag v * Ideal.cos (phi rot v)
  | 1, 2 => magE mag v * Ideal.sin (phi rot v) * Ideal.sin (theta tilt v)

/-- Coordinate `p` of marker `mk` seen in view `v`. -/
def proj (v : Fin 40) (mk : Fin 4) (p : Fin 2) : EReal :=
  coef rot mag tilt v p 0 * xyz (ix2 mk 0) + coef rot mag tilt v p 1 * xyz (ix2 mk 1)
    + coef rot mag tilt v p 2 * xyz (ix2 mk 2) + offE off v p

end

/-- The marker of result row `r`: rows 0 .. 39, 40 .. 61, 62 .. 101, 102 .. 141. -/
def rowMk (r : Fin 142) : Fin 4 :=
  if r.val < 40 then 0 else if r.val < 62 then 1 else if r.val < 102 then 2 else 3

/-- The view of result row `r` (marker 1 starts at view 18). -/
def rowV (r : Fin 142) : Fin 40 :=
  if h0 : r.val < 40 then ⟨r.val, h0⟩
  else if h1 : r.val < 62 then ⟨r.val - 22, by omega⟩
  else if h2 : r.val < 102 then ⟨r.val - 62, by omega⟩
  else ⟨r.val - 102, by omega⟩

/-- THE RESULT: row `r`, coordinate `p`. -/
def out (rot mag : (⟨1, ![40]⟩ : Shape).Idx → EReal) (xyz : (⟨2, ![4, 3]⟩ : Shape).Idx → EReal)
    (tilt : (⟨1, ![8]⟩ : Shape).Idx → EReal) (off : (⟨2, ![40, 2]⟩ : Shape).Idx → EReal) :
    (⟨2, ![142, 2]⟩ : Shape).Idx → EReal :=
  fun j => proj rot mag xyz tilt off (rowV (j 0)) (rowMk (j 0)) (j 1)

/-- Every entry of an array is a real number (neither infinity). -/
def AllReal {S : Shape} (a : S.Idx → EReal) : Prop := ∀ i, ∃ r : ℝ, a i = (r : EReal)

end Cert.Spec

end
-- ==== Proof.RefTerm.lean ====
/-
  The reference program's arithmetic, stage by stage, as pure functions of arrays: the tilt and the rotation of each
  view in radians, the 2 x 2 rotation and the 2 x 3 tilt matrices stacked over the views, the magnification and the
  offset in effect, the projection of the four markers, and the rows kept.  `refOut` is their composition: what the
  reference's result buffer holds as a function of the five argument arrays.
-/
import proofs.«167565_j19318762897522_1_alg».proof.Proof.Gen.ReferenceIdeal

noncomputable section

namespace Cert.RefTerm

open Cert.ReferenceIdeal Cert.ReferenceIdeal.Gen Idealize.ShloMosaic

variable {F : FTy → Type} [FloatOps F]

/-- A table of knot positions (lower or upper) as the index column a gather takes; the negative-index wrap is
    switched off by a constant-false mask. -/
def idxCol (tbl : Fin 40 → BitVec 32) : IVec S40x1 32 :=
  broadcastInDim S40x1 ![0] bcast_S40_S40x1_0
    (select (constantI S40 1 0#1)
      (addi (fun i => tbl (S40.rowMajor i)) (broadcastInDim S40 ![] bcast_S_S40 (constantI S_ 32 8#32)))
      (fun i => tbl (S40.rowMajor i)))

/-- The tilt angles at the knots named by a table. -/
def atKnots (tbl : Fin 40 → BitVec 32) (tilt : FVec F S8 .f32) : FVec F S40 .f32 :=
  Host.gather gather_S8_S40x1_S40_n_0_n_n_0_1_1 tilt (idxCol tbl)

/-- Each view's tilt in degrees: interpolated between its two knots, -15 at view 14, the knot's own at a knot. -/
def tiltDeg (tilt : FVec F S8 .f32) : FVec F S40 .f32 :=
  select (fun i => lit3 (S40.rowMajor i)) (atKnots lit0 tilt)
    (select (fun i => lit4 (S40.rowMajor i))
      (broadcastInDim S40 ![] bcast_S_S40 (id (constant S_ .f32 0xC1700000#32)))
      (addf (atKnots lit0 tilt)
        (mulf (subf (atKnots lit1 tilt) (atKnots lit0 tilt)) (fun i => FloatOps.ofBits .f32 (lit2 (S40.rowMajor i))))))

/-- Degrees to radians, entry by entry. -/
def toRad (x : FVec F S40 .f32) : FVec F S40 .f32 :=
  mulf x (broadcastInDim S40 ![] bcast_S_S40 (constant S_ .f32 0x3C8EFA35#32))

/-- A length-40 vector as a 40 x 1 column. -/
def col (x : FVec F S40 .f32) : FVec F S40x1 .f32 := broadcastInDim S40x1 ![0] bcast_S40_S40x1_0 x

/-- The rotation matrices [[cos, -sin], [sin, cos]] of the angles `a`, stacked: [40, 2, 2]. -/
def rotMat (a : FVec F S40 .f32) : FVec F S40x2x2 .f32 :=
  concatenate S40x2x2 1
    [⟨S40x1x2, broadcastInDim S40x1x2 ![0, 2] bcast_S40x2_S40x1x2_0_2
        (concatenate S40x2 1 [⟨S40x1, col (Host.cos a)⟩, ⟨S40x1, col (Host.negf (Host.sin a))⟩] concatenates_S40x1_S40x1_S40x2_d1)⟩,
     ⟨S40x1x2, broadcastInDim S40x1x2 ![0, 2] bcast_S40x2_S40x1x2_0_2
        (concatenate S40x2 1 [⟨S40x1, col (Host.sin a)⟩, ⟨S40x1, col (Host.cos a)⟩] concatenates_S40x1_S40x1_S40x2_d1)⟩]
    concatenates_S40x1x2_S40x1x2_S40x2x2_d1

/-- The constant vectors 0 and 1. -/
def zeros : FVec F S40 .f32 := broadcastInDim S40 ![] bcast_S_S40 (constant S_ .f32 0x00000000#32)
def ones : FVec F S40 .f32 := broadcastInDim S40 ![] bcast_S_S40 (constant S_ .f32 0x3F800000#32)

/-- The tilt matrices [[cos, 0, sin], [0, 1, 0]] of the angles `a`, stacked: [40, 2, 3]. -/
def tiltMat (a : FVec F S40 .f32) : FVec F S40x2x3 .f32 :=
  concatenate S40x2x3 1
    [⟨S40x1x3, broadcastInDim S40x1x3 ![0, 2] bcast_S40x3_S40x1x3_0_2
        (concatenate S40x3 1 [⟨S40x1, col (Host.cos a)⟩, ⟨S40x1, col zeros⟩, ⟨S40x1, col (Host.sin a)⟩] concatenates_S40x1_S40x1_S40x1_S40x3_d1)⟩,
     ⟨S40x1x3, broadcastInDim S40x1x3 ![0, 2] bcast_S40x3_S40x1x3_0_2
        (concatenate S40x3 1 [⟨S40x1, col zeros⟩, ⟨S40x1, col ones⟩, ⟨S40x1, col zeros⟩] concatenates_S40x1_S40x1_S40x1_S40x3_d1)⟩]
    concatenates_S40x1x3_S40x1x3_S40x2x3_d1

/-- "This is view 0", entry by entry. -/
def isView0 : IVec S40 1 :=
  cmpi .eq (iotaInDim S40 32 0) (broadcastInDim S40 ![] bcast_S_S40 (constantI S_ 32 0#32))

/-- The magnification in effect: 1 at view 0. -/
def magEff (mag : FVec F S40 .f32) : FVec F S40 .f32 :=
  select isView0 (broadcastInDim S40 ![] bcast_S_S40 (id (constant S_ .f32 0x3F800000#32))) mag

/-- The offset in effect: 0 at view 0. -/
def offEff (off : FVec F S40x2 .f32) : FVec F S40x2 .f32 :=
  select (broadcastInDim S40x2 ![0, 1] bcast_S40x1_S40x2_0_1 (broadcastInDim S40x1 ![0] bcast_S40_S40x1_0 isView0))
    (broadcastInDim S40x2 ![] bcast_S_S40x2 (id (constant S_ .f32 0x00000000#32))) off

/-- The projection matrices: magnification times rotation times tilt, [40, 2, 3]. -/
def projMat (rot mag : FVec F S40 .f32) (tilt : FVec F S8 .f32) : FVec F S40x2x3 .f32 :=
  mulf (broadcastInDim S40x2x3 ![0, 1, 2] bcast_S40x1x1_S40x2x3_0_1_2 (broadcastInDim S40x1x1 ![0] bcast_S40_S40x1x1_0 (magEff mag)))
    (Host.dotGeneral dot_S40x2x2_S40x2x3_S40x2x3_2_1_1_2_0_0 none (rotMat (toRad rot)) (tiltMat (toRad (tiltDeg tilt))))

/-- Every marker seen in every view: [4, 40, 2]. -/
def projAll (xyz : FVec F S4x3 .f32) (A : FVec F S40x2x3 .f32) (offE : FVec F S40x2 .f32) : FVec F S4x40x2 .f32 :=
  addf (Host.dotGeneral dot_S4x3_S40x2x3_S4x40x2_1_2_0_01_n_n none xyz A)
    (broadcastInDim S4x40x2 ![0, 1, 2] bcast_S1x40x2_S4x40x2_0_1_2 (broadcastInDim S1x40x2 ![1, 2] bcast_S40x2_S1x40x2_1_2 offE))

/-- The rows kept, as the index column of the closing gather (the negative-index wrap never fires). -/
def keepIdx : IVec S142x1 32 :=
  broadcastInDim S142x1 ![0] bcast_S142_S142x1_0
    (select (cmpi .slt (fun i => lit5 (S142.rowMajor i)) (broadcastInDim S142 ![] bcast_S_S142 (constantI S_ 32 0#32)))
      (addi (fun i => lit5 (S142.rowMajor i)) (broadcastInDim S142 ![] bcast_S_S142 (constantI S_ 32 160#32)))
      (fun i => lit5 (S142.rowMajor i)))

/-- THE REFERENCE'S RESULT as a function of its five arguments. -/
def refOut (rot mag : FVec F S40 .f32) (xyz : FVec F S4x3 .f32) (tilt : FVec F S8 .f32) (off : FVec F S40x2 .f32) :
    FVec F S142x2 .f32 :=
  Host.gather gather_S160x2_S142x1_S142x2_1_0_n_n_0_1_12
    (shapeCast S160x2 (projAll xyz (projMat rot mag tilt) (offEff off)) shapeCasts_S4x40x2_S160x2)
    keepIdx

end Cert.RefTerm

end
-- ==== Proof.RefRun.lean ====
/-
  The reference program's run: every weakly fair execution of its @main terminates with the result buffer at
  `RefTerm.refOut` of the argument arrays, the arguments unchanged.
-/
import proofs.«167565_j19318762897522_1_alg».proof.Proof.RefTerm
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
/-- @main's operations in order, the four calls of the selection helpers unfolded at their call sites (three, one,
    three and four operations over the calls' own buffers). -/
abbrev ops : List (HloOp τ sig (Elt F)) :=
  [ StableHlo.nullary main_c (fun i => lit0 (S40.rowMajor i)),
    StableHlo.nullary main_c_0 (constantI S40 1 0#1),
    StableHlo.nullary main_c_1 (fun i => lit1 (S40.rowMajor i)),
    StableHlo.nullary main_c_2 (constantI S40 1 0#1),
    StableHlo.nullary main_cst (fun i => FloatOps.ofBits .f32 (lit2 (S40.rowMajor i))),
    StableHlo.nullary main_c_3 (fun i => lit3 (S40.rowMajor i)),
    StableHlo.nullary main_c_4 (fun i => lit4 (S40.rowMajor i)),
    StableHlo.nullary main_c_5 (fun i => lit5 (S142.rowMajor i)),
    StableHlo.nullary main_c_6 (constantI S_ 32 8#32),
    StableHlo.unary main_c_6 main_v0 (broadcastInDim S40 ![] bcast_S_S40 : (⟨S_, .i32⟩ : BufTy).Contents (Elt F) → (⟨S40, .i32⟩ : BufTy).Contents (Elt F)),
    StableHlo.binary main_c main_v0 main_v1 (addi : (⟨S40, .i32⟩ : BufTy).Contents (Elt F) → (⟨S40, .i32⟩ : BufTy).Contents (Elt F) → (⟨S40, .i32⟩ : BufTy).Contents (Elt F)),
    StableHlo.ternary main_c_0 main_v1 main_c main_v2 (select : (⟨S40, .i1⟩ : BufTy).Contents (Elt F) → (⟨S40, .i32⟩ : BufTy).Contents (Elt F) → (⟨S40, .i32⟩ : BufTy).Contents (Elt F) → (⟨S40, .i32⟩ : BufTy).Contents (Elt F)),
    StableHlo.unary main_v2 main_v3 (broadcastInDim S40x1 ![0] bcast_S40_S40x1_0 : (⟨S40, .i32⟩ : BufTy).Contents (Elt F) → (⟨S40x1, .i32⟩ : BufTy).Contents (Elt F)),
    StableHlo.binary main_arg3 main_v3 main_v4 ((fun x i => Host.gather gather_S8_S40x1_S40_n_0_n_n_0_1_1 x i) : (⟨S8, .f32⟩ : BufTy).Contents (Elt F) → (⟨S40x1, .i32⟩ : BufTy).Contents (Elt F) → (⟨S40, .f32⟩ : BufTy).Contents (Elt F)),
    StableHlo.nullary main_c_7 (constantI S_ 32 8#32),
    StableHlo.unary main_c_7 main_v5 (broadcastInDim S40 ![] bcast_S_S40 : (⟨S_, .i32⟩ : BufTy).Contents (Elt F) → (⟨S40, .i32⟩ : BufTy).Contents (Elt F)),
    StableHlo.binary main_c_1 main_v5 main_v6 (addi : (⟨S40, .i32⟩ : BufTy).Contents (Elt F) → (⟨S40, .i32⟩ : BufTy).Contents (Elt F) → (⟨S40, .i32⟩ : BufTy).Contents (Elt F)),
    StableHlo.ternary main_c_2 main_v6 main_c_1 main_v7 (select : (⟨S40, .i1⟩ : BufTy).Contents (Elt F) → (⟨S40, .i32⟩ : BufTy).Contents (Elt F) → (⟨S40, .i32⟩ : BufTy).Contents (Elt F) → (⟨S40, .i32⟩ : BufTy).Contents (Elt F)),
    StableHlo.unary main_v7 main_v8 (broadcastInDim S40x1 ![0] bcast_S40_S40x1_0 : (⟨S40, .i32⟩ : BufTy).Contents (Elt F) → (⟨S40x1, .i32⟩ : BufTy).Contents (Elt F)),
    StableHlo.binary main_arg3 main_v8 main_v9 ((fun x i => Host.gather gather_S8_S40x1_S40_n_0_n_n_0_1_1 x i) : (⟨S8, .f32⟩ : BufTy).Contents (Elt F) → (⟨S40x1, .i32⟩ : BufTy).Contents (Elt F) → (⟨S40, .f32⟩ : BufTy).Contents (Elt F)),
    StableHlo.binary main_v9 main_v4 main_v10 (subf : (⟨S40, .f32⟩ : BufTy).Contents (Elt F) → (⟨S40, .f32⟩ : BufTy).Contents (Elt F) → (⟨S40, .f32⟩ : BufTy).Contents (Elt F)),
    StableHlo.binary main_v10 main_cst main_v11 (mulf : (⟨S40, .f32⟩ : BufTy).Contents (Elt F) → (⟨S40, .f32⟩ : BufTy).Contents (Elt F) → (⟨S40, .f32⟩ : BufTy).Contents (Elt F)),
    StableHlo.binary main_v4 main_v11 main_v12 (addf : (⟨S40, .f32⟩ : BufTy).Contents (Elt F) → (⟨S40, .f32⟩ : BufTy).Contents (Elt F) → (⟨S40, .f32⟩ : BufTy).Contents (Elt F)),
    StableHlo.nullary main_cst_8 (constant S_ .f32 0xC1700000#32),
    TRef.unary (.of main_cst_8 : TRef sig ⟨S_, .f32⟩) main_call0.v0 id,
    TRef.unary main_call0.v0 main_call0.v1 (broadcastInDim S40 ![] bcast_S_S40),
    TRef.ternary (.of main_c_4 : TRef sig ⟨S40, .i1⟩) main_call0.v1 (.of main_v12 : TRef sig ⟨S40, .f32⟩) main_call0.v2 select,
    TRef.ternary (.of main_c_3 : TRef sig ⟨S40, .i1⟩) (.of main_v4 : TRef sig ⟨S40, .f32⟩) (.of main_v13 : TRef sig ⟨S40, .f32⟩) main_call1.v0 select,
    StableHlo.nullary main_cst_9 (constant S_ .f32 0x3C8EFA35#32),
    StableHlo.unary main_cst_9 main_v15 (broadcastInDim S40 ![] bcast_S_S40 : (⟨S_, .f32⟩ : BufTy).Contents (Elt F) → (⟨S40, .f32⟩ : BufTy).Contents (Elt F)),
    StableHlo.binary main_v14 main_v15 main_v16 (mulf : (⟨S40, .f32⟩ : BufTy).Contents (Elt F) → (⟨S40, .f32⟩ : BufTy).Contents (Elt F) → (⟨S40, .f32⟩ : BufTy).Contents (Elt F)),
    StableHlo.nullary main_cst_10 (constant S_ .f32 0x3C8EFA35#32),
    StableHlo.unary main_cst_10 main_v17 (broadcastInDim S40 ![] bcast_S_S40 : (⟨S_, .f32⟩ : BufTy).Contents (Elt F) → (⟨S40, .f32⟩ : BufTy).Contents (Elt F)),
    StableHlo.binary main_arg0 main_v17 main_v18 (mulf : (⟨S40, .f32⟩ : BufTy).Contents (Elt F) → (⟨S40, .f32⟩ : BufTy).Contents (Elt F) → (⟨S40, .f32⟩ : BufTy).Contents (Elt F)),
    StableHlo.unary main_v18 main_v19 (Host.cos : (⟨S40, .f32⟩ : BufTy).Contents (Elt F) → (⟨S40, .f32⟩ : BufTy).Contents (Elt F)),
    StableHlo.unary main_v18 main_v20 (Host.sin : (⟨S40, .f32⟩ : BufTy).Contents (Elt F) → (⟨S40, .f32⟩ : BufTy).Contents (Elt F)),
    StableHlo.unary main_v20 main_v21 (Host.negf : (⟨S40, .f32⟩ : BufTy).Contents (Elt F) → (⟨S40, .f32⟩ : BufTy).Contents (Elt F)),
    StableHlo.unary main_v19 main_v22 (broadcastInDim S40x1 ![0] bcast_S40_S40x1_0 : (⟨S40, .f32⟩ : BufTy).Contents (Elt F) → (⟨S40x1, .f32⟩ : BufTy).Contents (Elt F)),
    StableHlo.unary main_v21 main_v23 (broadcastInDim S40x1 ![0] bcast_S40_S40x1_0 : (⟨S40, .f32⟩ : BufTy).Contents (Elt F) → (⟨S40x1, .f32⟩ : BufTy).Contents (Elt F)),
    StableHlo.binary main_v22 main_v23 main_v24 ((fun a b => concatenate S40x2 1 [⟨S40x1, a⟩, ⟨S40x1, b⟩] concatenates_S40x1_S40x1_S40x2_d1) : (⟨S40x1, .f32⟩ : BufTy).Contents (Elt F) → (⟨S40x1, .f32⟩ : BufTy).Contents (Elt F) → (⟨S40x2, .f32⟩ : BufTy).Contents (Elt F)),
    StableHlo.unary main_v20 main_v25 (broadcastInDim S40x1 ![0] bcast_S40_S40x1_0 : (⟨S40, .f32⟩ : BufTy).Contents (Elt F) → (⟨S40x1, .f32⟩ : BufTy).Contents (Elt F)),
    StableHlo.unary main_v19 main_v26 (broadcastInDim S40x1 ![0] bcast_S40_S40x1_0 : (⟨S40, .f32⟩ : BufTy).Contents (Elt F) → (⟨S40x1, .f32⟩ : BufTy).Contents (Elt F)),
    StableHlo.binary main_v25 main_v26 main_v27 ((fun a b => concatenate S40x2 1 [⟨S40x1, a⟩, ⟨S40x1, b⟩] concatenates_S40x1_S40x1_S40x2_d1) : (⟨S40x1, .f32⟩ : BufTy).Contents (Elt F) → (⟨S40x1, .f32⟩ : BufTy).Contents (Elt F) → (⟨S40x2, .f32⟩ : BufTy).Contents (Elt F)),
    StableHlo.unary main_v24 main_v28 (broadcastInDim S40x1x2 ![0, 2] bcast_S40x2_S40x1x2_0_2 : (⟨S40x2, .f32⟩ : BufTy).Contents (Elt F) → (⟨S40x1x2, .f32⟩ : BufTy).Contents (Elt F)),
    StableHlo.unary main_v27 main_v29 (broadcastInDim S40x1x2 ![0, 2] bcast_S40x2_S40x1x2_0_2 : (⟨S40x2, .f32⟩ : BufTy).Contents (Elt F) → (⟨S40x1x2, .f32⟩ : BufTy).Contents (Elt F)),
    StableHlo.binary main_v28 main_v29 main_v30 ((fun a b => concatenate S40x2x2 1 [⟨S40x1x2, a⟩, ⟨S40x1x2, b⟩] concatenates_S40x1x2_S40x1x2_S40x2x2_d1) : (⟨S40x1x2, .f32⟩ : BufTy).Contents (Elt F) → (⟨S40x1x2, .f32⟩ : BufTy).Contents (Elt F) → (⟨S40x2x2, .f32⟩ : BufTy).Contents (Elt F)),
    StableHlo.unary main_v16 main_v31 (Host.cos : (⟨S40, .f32⟩ : BufTy).Contents (Elt F) → (⟨S40, .f32⟩ : BufTy).Contents (Elt F)),
    StableHlo.unary main_v16 main_v32 (Host.sin : (⟨S40, .f32⟩ : BufTy).Contents (Elt F) → (⟨S40, .f32⟩ : BufTy).Contents (Elt F)),
    StableHlo.nullary main_cst_11 (constant S_ .f32 0x00000000#32),
    StableHlo.unary main_cst_11 main_v33 (broadcastInDim S40 ![] bcast_S_S40 : (⟨S_, .f32⟩ : BufTy).Contents (Elt F) → (⟨S40, .f32⟩ : BufTy).Contents (Elt F)),
    StableHlo.nullary main_cst_12 (constant S_ .f32 0x3F800000#32),
    StableHlo.unary main_cst_12 main_v34 (broadcastInDim S40 ![] bcast_S_S40 : (⟨S_, .f32⟩ : BufTy).Contents (Elt F) → (⟨S40, .f32⟩ : BufTy).Contents (Elt F)),
    StableHlo.unary main_v31 main_v35 (broadcastInDim S40x1 ![0] bcast_S40_S40x1_0 : (⟨S40, .f32⟩ : BufTy).Contents (Elt F) → (⟨S40x1, .f32⟩ : BufTy).Contents (Elt F)),
    StableHlo.unary main_v33 main_v36 (broadcastInDim S40x1 ![0] bcast_S40_S40x1_0 : (⟨S40, .f32⟩ : BufTy).Contents (Elt F) → (⟨S40x1, .f32⟩ : BufTy).Contents (Elt F)),
    StableHlo.unary main_v32 main_v37 (broadcastInDim S40x1 ![0] bcast_S40_S40x1_0 : (⟨S40, .f32⟩ : BufTy).Contents (Elt F) → (⟨S40x1, .f32⟩ : BufTy).Contents (Elt F)),
    StableHlo.nary ![main_v35, main_v36, main_v37] main_v38 (fun u => concatenate S40x3 1 [⟨S40x1, u 0⟩, ⟨S40x1, u 1⟩, ⟨S40x1, u 2⟩] concatenates_S40x1_S40x1_S40x1_S40x3_d1),
    StableHlo.unary main_v33 main_v39 (broadcastInDim S40x1 ![0] bcast_S40_S40x1_0 : (⟨S40, .f32⟩ : BufTy).Contents (Elt F) → (⟨S40x1, .f32⟩ : BufTy).Contents (Elt F)),
    StableHlo.unary main_v34 main_v40 (broadcastInDim S40x1 ![0] bcast_S40_S40x1_0 : (⟨S40, .f32⟩ : BufTy).Contents (Elt F) → (⟨S40x1, .f32⟩ : BufTy).Contents (Elt F)),
    StableHlo.unary main_v33 main_v41 (broadcastInDim S40x1 ![0] bcast_S40_S40x1_0 : (⟨S40, .f32⟩ : BufTy).Contents (Elt F) → (⟨S40x1, .f32⟩ : BufTy).Contents (Elt F)),
    StableHlo.nary ![main_v39, main_v40, main_v41] main_v42 (fun u => concatenate S40x3 1 [⟨S40x1, u 0⟩, ⟨S40x1, u 1⟩, ⟨S40x1, u 2⟩] concatenates_S40x1_S40x1_S40x1_S40x3_d1),
    StableHlo.unary main_v38 main_v43 (broadcastInDim S40x1x3 ![0, 2] bcast_S40x3_S40x1x3_0_2 : (⟨S40x3, .f32⟩ : BufTy).Contents (Elt F) → (⟨S40x1x3, .f32⟩ : BufTy).Contents (Elt F)),
    StableHlo.unary main_v42 main_v44 (broadcastInDim S40x1x3 ![0, 2] bcast_S40x3_S40x1x3_0_2 : (⟨S40x3, .f32⟩ : BufTy).Contents (Elt F) → (⟨S40x1x3, .f32⟩ : BufTy).Contents (Elt F)),
    StableHlo.binary main_v43 main_v44 main_v45 ((fun a b => concatenate S40x2x3 1 [⟨S40x1x3, a⟩, ⟨S40x1x3, b⟩] concatenates_S40x1x3_S40x1x3_S40x2x3_d1) : (⟨S40x1x3, .f32⟩ : BufTy).Contents (Elt F) → (⟨S40x1x3, .f32⟩ : BufTy).Contents (Elt F) → (⟨S40x2x3, .f32⟩ : BufTy).Contents (Elt F)),
    StableHlo.nullary main_v46 (iotaInDim S40 32 0),
    StableHlo.nullary main_c_13 (constantI S_ 32 0#32),
    StableHlo.unary main_c_13 main_v47 (broadcastInDim S40 ![] bcast_S_S40 : (⟨S_, .i32⟩ : BufTy).Contents (Elt F) → (⟨S40, .i32⟩ : BufTy).Contents (Elt F)),
    StableHlo.binary main_v46 main_v47 main_v48 (cmpi .eq : (⟨S40, .i32⟩ : BufTy).Contents (Elt F) → (⟨S40, .i32⟩ : BufTy).Contents (Elt F) → (⟨S40, .i1⟩ : BufTy).Contents (Elt F)),
    StableHlo.nullary main_cst_14 (constant S_ .f32 0x3F800000#32),
    TRef.unary (.of main_cst_14 : TRef sig ⟨S_, .f32⟩) main_call2.v0 id,
    TRef.unary main_call2.v0 main_call2.v1 (broadcastInDim S40 ![] bcast_S_S40),
    TRef.ternary (.of main_v48 : TRef sig ⟨S40, .i1⟩) main_call2.v1 (.of main_arg1 : TRef sig ⟨S40, .f32⟩) main_call2.v2 select,
    StableHlo.unary main_v49 main_v50 (broadcastInDim S40x1x1 ![0] bcast_S40_S40x1x1_0 : (⟨S40, .f32⟩ : BufTy).Contents (Elt F) → (⟨S40x1x1, .f32⟩ : BufTy).Contents (Elt F)),
    StableHlo.binary main_v30 main_v45 main_v51 ((fun l r => Host.dotGeneral dot_S40x2x2_S40x2x3_S40x2x3_2_1_1_2_0_0 none l r) : (⟨S40x2x2, .f32⟩ : BufTy).Contents (Elt F) → (⟨S40x2x3, .f32⟩ : BufTy).Contents (Elt F) → (⟨S40x2x3, .f32⟩ : BufTy).Contents (Elt F)),
    StableHlo.unary main_v50 main_v52 (broadcastInDim S40x2x3 ![0, 1, 2] bcast_S40x1x1_S40x2x3_0_1_2 : (⟨S40x1x1, .f32⟩ : BufTy).Contents (Elt F) → (⟨S40x2x3, .f32⟩ : BufTy).Contents (Elt F)),
    StableHlo.binary main_v52 main_v51 main_v53 (mulf : (⟨S40x2x3, .f32⟩ : BufTy).Contents (Elt F) → (⟨S40x2x3, .f32⟩ : BufTy).Contents (Elt F) → (⟨S40x2x3, .f32⟩ : BufTy).Contents (Elt F)),
    StableHlo.nullary main_v54 (iotaInDim S40 32 0),
    StableHlo.nullary main_c_15 (constantI S_ 32 0#32),
    StableHlo.unary main_c_15 main_v55 (broadcastInDim S40 ![] bcast_S_S40 : (⟨S_, .i32⟩ : BufTy).Contents (Elt F) → (⟨S40, .i32⟩ : BufTy).Contents (Elt F)),
    StableHlo.binary main_v54 main_v55 main_v56 (cmpi .eq : (⟨S40, .i32⟩ : BufTy).Contents (Elt F) → (⟨S40, .i32⟩ : BufTy).Contents (Elt F) → (⟨S40, .i1⟩ : BufTy).Contents (Elt F)),
    StableHlo.unary main_v56 main_v57 (broadcastInDim S40x1 ![0] bcast_S40_S40x1_0 : (⟨S40, .i1⟩ : BufTy).Contents (Elt F) → (⟨S40x1, .i1⟩ : BufTy).Contents (Elt F)),
    StableHlo.nullary main_cst_16 (constant S_ .f32 0x00000000#32),
    TRef.unary (.of main_cst_16 : TRef sig ⟨S_, .f32⟩) main_call3.v0 id,
    TRef.unary (.of main_v57 : TRef sig ⟨S40x1, .i1⟩) main_call3.v1 (broadcastInDim S40x2 ![0, 1] bcast_S40x1_S40x2_0_1),
    TRef.unary main_call3.v0 main_call3.v2 (broadcastInDim S40x2 ![] bcast_S_S40x2),
    TRef.ternary main_call3.v1 main_call3.v2 (.of main_arg4 : TRef sig ⟨S40x2, .f32⟩) main_call3.v3 select,
    StableHlo.binary main_arg2 main_v53 main_v59 ((fun l r => Host.dotGeneral dot_S4x3_S40x2x3_S4x40x2_1_2_0_01_n_n none l r) : (⟨S4x3, .f32⟩ : BufTy).Contents (Elt F) → (⟨S40x2x3, .f32⟩ : BufTy).Contents (Elt F) → (⟨S4x40x2, .f32⟩ : BufTy).Contents (Elt F)),
    StableHlo.unary main_v58 main_v60 (broadcastInDim S1x40x2 ![1, 2] bcast_S40x2_S1x40x2_1_2 : (⟨S40x2, .f32⟩ : BufTy).Contents (Elt F) → (⟨S1x40x2, .f32⟩ : BufTy).Contents (Elt F)),
    StableHlo.unary main_v60 main_v61 (broadcastInDim S4x40x2 ![0, 1, 2] bcast_S1x40x2_S4x40x2_0_1_2 : (⟨S1x40x2, .f32⟩ : BufTy).Contents (Elt F) → (⟨S4x40x2, .f32⟩ : BufTy).Contents (Elt F)),
    StableHlo.binary main_v59 main_v61 main_v62 (addf : (⟨S4x40x2, .f32⟩ : BufTy).Contents (Elt F) → (⟨S4x40x2, .f32⟩ : BufTy).Contents (Elt F) → (⟨S4x40x2, .f32⟩ : BufTy).Contents (Elt F)),
    StableHlo.reshape main_v62 main_v63 rfl shapeCasts_S4x40x2_S160x2,
    StableHlo.nullary main_c_17 (constantI S_ 32 0#32),
    StableHlo.unary main_c_17 main_v64 (broadcastInDim S142 ![] bcast_S_S142 : (⟨S_, .i32⟩ : BufTy).Contents (Elt F) → (⟨S142, .i32⟩ : BufTy).Contents (Elt F)),
    StableHlo.binary main_c_5 main_v64 main_v65 (cmpi .slt : (⟨S142, .i32⟩ : BufTy).Contents (Elt F) → (⟨S142, .i32⟩ : BufTy).Contents (Elt F) → (⟨S142, .i1⟩ : BufTy).Contents (Elt F)),
    StableHlo.nullary main_c_18 (constantI S_ 32 160#32),
    StableHlo.unary main_c_18 main_v66 (broadcastInDim S142 ![] bcast_S_S142 : (⟨S_, .i32⟩ : BufTy).Contents (Elt F) → (⟨S142, .i32⟩ : BufTy).Contents (Elt F)),
    StableHlo.binary main_c_5 main_v66 main_v67 (addi : (⟨S142, .i32⟩ : BufTy).Contents (Elt F) → (⟨S142, .i32⟩ : BufTy).Contents (Elt F) → (⟨S142, .i32⟩ : BufTy).Contents (Elt F)),
    StableHlo.ternary main_v65 main_v67 main_c_5 main_v68 (select : (⟨S142, .i1⟩ : BufTy).Contents (Elt F) → (⟨S142, .i32⟩ : BufTy).Contents (Elt F) → (⟨S142, .i32⟩ : BufTy).Contents (Elt F) → (⟨S142, .i32⟩ : BufTy).Contents (Elt F)),
    StableHlo.unary main_v68 main_v69 (broadcastInDim S142x1 ![0] bcast_S142_S142x1_0 : (⟨S142, .i32⟩ : BufTy).Contents (Elt F) → (⟨S142x1, .i32⟩ : BufTy).Contents (Elt F)),
    StableHlo.binary main_v63 main_v69 main_v70 ((fun x i => Host.gather gather_S160x2_S142x1_S142x2_1_0_n_n_0_1_12 x i) : (⟨S160x2, .f32⟩ : BufTy).Contents (Elt F) → (⟨S142x1, .i32⟩ : BufTy).Contents (Elt F) → (⟨S142x2, .f32⟩ : BufTy).Contents (Elt F)) ]

-- about a hundred binds re-associated: the rewriting recurses once per statement
set_option maxRecDepth 4096 in
set_option maxHeartbeats 4000000 in
/-- @main is that straight line: the two windows and the helpers unfolded, sequencing re-associated. -/
theorem main_eq (c : Dev nD) : main (F := F) c = seq ops := by
  simp only [main, main_part0, main_part1, fn_where.body, fn_where_0.body, fn_where_1.body, fn_where_2.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., nullary_bufs_sub .., unary_bufs_sub .., unary_bufs_sub .., ternary_bufs_sub .., ternary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., nullary_bufs_sub .., unary_bufs_sub .., unary_bufs_sub .., unary_bufs_sub .., unary_bufs_sub .., nary_bufs_sub .., unary_bufs_sub .., unary_bufs_sub .., unary_bufs_sub .., nary_bufs_sub .., unary_bufs_sub .., unary_bufs_sub .., binary_bufs_sub .., nullary_bufs_sub .., nullary_bufs_sub .., unary_bufs_sub .., binary_bufs_sub .., nullary_bufs_sub .., unary_bufs_sub .., unary_bufs_sub .., ternary_bufs_sub .., unary_bufs_sub .., binary_bufs_sub .., unary_bufs_sub .., binary_bufs_sub .., nullary_bufs_sub .., nullary_bufs_sub .., unary_bufs_sub .., binary_bufs_sub .., unary_bufs_sub .., nullary_bufs_sub .., unary_bufs_sub .., unary_bufs_sub .., unary_bufs_sub .., ternary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩

/-- Every weakly fair execution of @main terminates with each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- A two-operand concatenate with its operands as arguments of their own: inside the operand list a rewriting pass
    cannot reach them (the shape fact's type mentions the list). -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem cat2_def {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

/-- The same for three operands. -/
def cat3 {α : Type} (t : Shape) (a : Fin t.rank) (s₁ s₂ s₃ : Shape) (h : Shape.Concatenates [s₁, s₂, s₃] t a)
    (x : s₁.Idx → α) (y : s₂.Idx → α) (z : s₃.Idx → α) : t.Idx → α :=
  concatenate t a [⟨s₁, x⟩, ⟨s₂, y⟩, ⟨s₃, z⟩] h

/-- The two three-operand concatenates of the program (the rows of the tilt matrix): the result with each operand's
    contents read at its own buffer. -/
theorem v38_result' (W : Valuation τ sig (Elt F)) :
    (StableHlo.nary ![main_v35, main_v36, main_v37] main_v38 (fun u => concatenate S40x3 1 [⟨S40x1, u 0⟩, ⟨S40x1, u 1⟩, ⟨S40x1, u 2⟩] concatenates_S40x1_S40x1_S40x1_S40x3_d1)).result W
        (no_index (Proc.devRef .tc main_v38))
      = cat3 S40x3 1 S40x1 S40x1 S40x1 concatenates_S40x1_S40x1_S40x1_S40x3_d1
          (W (Proc.devRef .tc main_v35)) (W (Proc.devRef .tc main_v36)) (W (Proc.devRef .tc main_v37)) := by
  rw [nary_result]; rfl

theorem v42_result' (W : Valuation τ sig (Elt F)) :
    (StableHlo.nary ![main_v39, main_v40, main_v41] main_v42 (fun u => concatenate S40x3 1 [⟨S40x1, u 0⟩, ⟨S40x1, u 1⟩, ⟨S40x1, u 2⟩] concatenates_S40x1_S40x1_S40x1_S40x3_d1)).result W
        (no_index (Proc.devRef .tc main_v42))
      = cat3 S40x3 1 S40x1 S40x1 S40x1 concatenates_S40x1_S40x1_S40x1_S40x3_d1
          (W (Proc.devRef .tc main_v39)) (W (Proc.devRef .tc main_v40)) (W (Proc.devRef .tc main_v41)) := by
  rw [nary_result]; rfl

/-! ## Reading the fold

The fold is read in ONE rewriting pass, outermost operation first: at the buffer an operation writes, its function of the
operands' contents; at any other buffer, what was there before. Two-operand concatenates are restated with their operands
as arguments (`cat2`) as soon as they appear, so that the pass goes on into them. -/

attribute [local irreducible] Host.gather in
set_option maxRecDepth 8192 in
set_option maxHeartbeats 4000000 in
/-- After the operations the result buffer holds `RefTerm.refOut` of the five arguments' contents: the pass leaves the
    operations' functions composed in the program's order, which is `refOut` stage by stage (the helpers' selections with
    their scalar broadcast, the typed references' transports the identity, a reshape the shape cast), by computation. The
    gathers are kept folded meanwhile: the equation never looks inside them. -/
theorem out_eq (V : Valuation τ sig (Elt F)) :
    after ops V (main_v70 : DevRef τ sig)
      = Cert.RefTerm.refOut (V (main_arg0 : DevRef τ sig)) (V (main_arg1 : DevRef τ sig)) (V (main_arg2 : DevRef τ sig))
          (V (main_arg3 : DevRef τ sig)) (V (main_arg4 : DevRef τ sig)) := by
  simp (disch := decide) only [after_cons, after_nil,
      nullary_result', unary_result', binary_result', ternary_result', reshape_result', v38_result', v42_result',
      nullary_result_ne', unary_result_ne', binary_result_ne', ternary_result_ne', reshape_result_ne',
      nary_result_ne', cat2_def]
  rfl

set_option maxRecDepth 8192 in
/-- No operation writes an argument's buffer. -/
theorem arg0_eq (V : Valuation τ sig (Elt F)) : after ops V (main_arg0 : DevRef τ sig) = V (main_arg0 : DevRef τ sig) := by
  after_results_simp
set_option maxRecDepth 8192 in
theorem arg1_eq (V : Valuation τ sig (Elt F)) : after ops V (main_arg1 : DevRef τ sig) = V (main_arg1 : DevRef τ sig) := by
  after_results_simp
set_option maxRecDepth 8192 in
theorem arg2_eq (V : Valuation τ sig (Elt F)) : after ops V (main_arg2 : DevRef τ sig) = V (main_arg2 : DevRef τ sig) := by
  after_results_simp
set_option maxRecDepth 8192 in
theorem arg3_eq (V : Valuation τ sig (Elt F)) : after ops V (main_arg3 : DevRef τ sig) = V (main_arg3 : DevRef τ sig) := by
  after_results_simp
set_option maxRecDepth 8192 in
theorem arg4_eq (V : Valuation τ sig (Elt F)) : after ops V (main_arg4 : DevRef τ sig) = V (main_arg4 : DevRef τ sig) := by
  after_results_simp

/-- On every device, for any float values, from any memory with zero counters: every weakly fair execution of @main
    terminates with the result buffer at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70)
        = Cert.RefTerm.refOut (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v70).trans (out_eq _), (h c main_arg0).trans (arg0_eq _),
      (h c main_arg1).trans (arg1_eq _), (h c main_arg2).trans (arg2_eq _), (h c main_arg3).trans (arg3_eq _),
      (h c main_arg4).trans (arg4_eq _)⟩)
    (run_all m ρ)

end Cert.RefRun

end
-- ==== Proof.RefEntry.lean ====
/-
  One entry of the reference's result in the reference's own arrangement: the rotation and tilt matrices written
  out entry by entry, their product as a sum over the two middle indices, the magnification applied to the product,
  the marker's three coordinates contracted against the matrix row, the offset added last.
-/
import proofs.«167565_j19318762897522_1_alg».proof.Proof.Spec

noncomputable section

namespace Cert.RefEntry

open Idealize.ShloMosaic Idealize.ShloMosaic.ValueIdx Cert.Spec

variable (rot mag : (⟨1, ![40]⟩ : Shape).Idx → EReal) (xyz : (⟨2, ![4, 3]⟩ : Shape).Idx → EReal)
  (tilt : (⟨1, ![8]⟩ : Shape).Idx → EReal) (off : (⟨2, ![40, 2]⟩ : Shape).Idx → EReal)

/-- Entry (i, j) of view `v`'s rotation matrix [[cos, -sin], [sin, cos]]. -/
def rotE (v : Fin 40) (i j : Fin 2) : EReal :=
  match i, j with
  | 0, 0 => Ideal.cos (phi rot v)
  | 0, 1 => -Ideal.sin (phi rot v)
  | 1, 0 => Ideal.sin (phi rot v)
  | 1, 1 => Ideal.cos (phi rot v)

/-- Entry (j, k) of view `v`'s tilt matrix [[cos, 0, sin], [0, 1, 0]]. -/
def tiltE (v : Fin 40) (j : Fin 2) (k : Fin 3) : EReal :=
  match j, k with
  | 0, 0 => Ideal.cos (theta tilt v)
  | 0, 1 => zero
  | 0, 2 => Ideal.sin (theta tilt v)
  | 1, 0 => zero
  | 1, 1 => one
  | 1, 2 => zero

/-- Entry (p, k) of view `v`'s projection matrix: the magnification times the matrix product's entry. -/
def matE (v : Fin 40) (p : Fin 2) (k : Fin 3) : EReal :=
  magE mag v * ∑ j : Fin 2, rotE rot v p j * tiltE tilt v j k

/-- Coordinate `p` of marker `mk` seen in view `v`, in the reference's arrangement. -/
def entry (v : Fin 40) (mk : Fin 4) (p : Fin 2) : EReal :=
  (∑ k : Fin 3, xyz (ix2 mk k) * matE rot mag tilt v p k) + offE off v p

end Cert.RefEntry

end
-- ==== Proof.LibScatter.lean ====
/-
  THE HOST'S ACCUMULATING SCATTERS AND INDEXED READS OF A GRAPH PROGRAM, READ AT ONE ELEMENT.

  Four shapes of `stablehlo.scatter` (with an `add` body) and `stablehlo.gather`, each over an index array held as
  `[E, c]` with the index vector on axis 1, generic in the extents and in the width of the index words:

  * `segment_sum(v, idx)` of a vector `v : [E]` into `[N]` (update_window_dims `[]`, inserted_window_dims `[0]`,
    scatter_dims_to_operand_dims `[0]`): element `i` of the result is the operand's plus the sum of the `v[e]` whose
    index, read signed, is `i` (`vecScatterAdd_apply_of`);
  * `A.at[rows, cols].add(v)` of a matrix `A : [N, M]` (inserted_window_dims `[0, 1]`, scatter_dims_to_operand_dims
    `[0, 1]`, the index array `[E, 2]`): entry `(i, j)` is the operand's plus the sum of the `v[e]` whose two index
    words, read signed, are `(i, j)` (`pointScatterAdd_apply_of`);
  * `table[idx]` of a vector table `[N]` (collapsed_slice_dims `[0]`, start_index_map `[0]`, slice_sizes `[1]`):
    element `e` is the table at the index read signed and clamped into `[0, N − 1]` (`vecGather_apply_of`);
  * `table[idx]` of a table of rows `[N, B]` (offset_dims `[1]`, collapsed_slice_dims `[0]`, start_index_map `[0]`,
    slice_sizes `[1, B]`): row `e` is the table's row at the clamped index (`rowGather_apply_of`).

  A scatter's index is NOT clamped: an update whose index is negative or past the extent lands nowhere. A gather's is.
-/
import Idealize.ShloMosaic.PureOps.Ideal
import Idealize.ShloMosaic.Lib.ValueIdx

noncomputable section

open scoped BigOperators

namespace Cert.LibScatter

open Idealize.ShloMosaic Idealize.ShloMosaic.ValueIdx

/-- A sum over a rank-1 index set is the sum over its coordinate range. -/
theorem sum_idx1 {M : Type*} [AddCommMonoid M] {n : Nat} (f : (⟨1, ![n]⟩ : Shape).Idx → M) :
    ∑ i, f i = ∑ a : Fin n, f (ix1 a) :=
  Fintype.sum_equiv
    (⟨fun i => i 0, ix1, fun i => (eq_ix1 i).symm, fun _ => rfl⟩ : (⟨1, ![n]⟩ : Shape).Idx ≃ Fin n)
    f (fun a => f (ix1 a)) (fun i => congrArg f (eq_ix1 i))

/-! ## The scatter-add of a vector of updates into a vector -/

/-- The dimension numbers of `segment_sum` of a vector: operand `[N]`, scatter indices `[E, 1]`, updates `[E]`;
    their conditions `wf` are decided on a program's literal shapes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecCoordinates

variable {N E w : Nat} (wf : ScatterDims.WF ⟨1, ![N]⟩ ⟨2, ![E, 1]⟩ ⟨1, ![E]⟩ [] [0] [0] 1)

/-- On the operand's one axis the window of update `e` starts at the scatter index `idx[e, 0]`, read signed. -/
theorem vec_start (j : (⟨1, ![E]⟩ : Shape).Idx) (idx : IVec ⟨2, ![E, 1]⟩ w) :
    (vecScatterDims N E wf).start j idx 0 = (idx (ix2 (j 0) ⟨0, Nat.one_pos⟩)).toInt := by
  unfold ScatterDims.start
  rw [dif_pos (show (0 : Fin 1) ∈ (vecScatterDims N E wf).scatterDimsToOperandDims from
    List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- The operand's axis is an inserted one: an update is a single element, with no window coordinate. -/
theorem vec_window (j : (⟨1, ![E]⟩ : Shape).Idx) : (vecScatterDims N E wf).window j 0 = 0 := by
  unfold ScatterDims.window
  rw [dif_neg (show (0 : Fin 1) ∉ (vecScatterDims N E wf).sKept by
    simp [ScatterDims.sKept, Shape.kept, List.mem_filter])]

/-- Update `e` lands on element `i` exactly when its scatter index, read signed, is `i` (an index outside
    `[0, N)` is no element, so such an update lands nowhere). -/
theorem vec_resultIdx?_eq_some_iff (j : (⟨1, ![E]⟩ : Shape).Idx) (idx : IVec ⟨2, ![E, 1]⟩ w)
    (i : (⟨1, ![N]⟩ : Shape).Idx) :
    (vecScatterDims N E wf).resultIdx? j idx = some i ↔
      (idx (ix2 (j 0) ⟨0, Nat.one_pos⟩)).toInt = ((i 0).val : Int) := by
  have hs0 := vec_start wf j idx
  have hw0 := vec_window wf j
  have hi0 : (i 0).val < N := (i 0).isLt
  unfold ScatterDims.resultIdx?
  by_cases hall : ∀ a, 0 ≤ (vecScatterDims N E wf).start j idx a + (vecScatterDims N E wf).window j a ∧
      (vecScatterDims N E wf).start j idx a + (vecScatterDims N E wf).window j a
        < (⟨1, ![N]⟩ : Shape).size a
  · rw [dif_pos hall]
    constructor
    · intro h
      have h' := Option.some.inj h
      have h0 : ((vecScatterDims N E wf).start j idx 0 + (vecScatterDims N E wf).window j 0).toNat
          = (i 0).val := congrArg (fun f => (f 0).val) h'
      have ha0 := (hall 0).1
      rw [hs0, hw0] at h0 ha0
      omega
    · intro h0
      congr 1
      funext a
      refine Fin.ext ?_
      match a with
      | ⟨0, _⟩ =>
        show ((vecScatterDims N E wf).start j idx 0 + (vecScatterDims N E wf).window j 0).toNat = (i 0).val
        rw [hs0, hw0, h0]; omega
  · rw [dif_neg hall]
    constructor
    · intro h; cases h
    · intro h0
      refine absurd ?_ hall
      intro a
      match a with
      | ⟨0, _⟩ =>
        show 0 ≤ (vecScatterDims N E wf).start j idx 0 + (vecScatterDims N E wf).window j 0 ∧
          (vecScatterDims N E wf).start j idx 0 + (vecScatterDims N E wf).window j 0 < (N : Int)
        rw [hs0, hw0, h0]; omega

end VecCoordinates

/-- segment_sum of a vector: element `i` of the result is `x i` plus the updates whose index word, read signed,
    is `i`. -/
theorem vecScatterAdd_apply_of {N E w : Nat} {wf : ScatterDims.WF ⟨1, ![N]⟩ ⟨2, ![E, 1]⟩ ⟨1, ![E]⟩ [] [0] [0] 1}
    (d : ScatterDims ⟨1, ![N]⟩ ⟨2, ![E, 1]⟩ ⟨1, ![E]⟩) (hd : d = vecScatterDims N E wf)
    (x : (⟨1, ![N]⟩ : Shape).Idx → EReal) (idx : IVec ⟨2, ![E, 1]⟩ w) (upd : (⟨1, ![E]⟩ : Shape).Idx → EReal)
    (i : Fin N) :
    Ideal.hostScatterAdd d x idx upd (ix1 i) =
      x (ix1 i) + ∑ e ∈ Finset.univ.filter (fun e : Fin E =>
        (idx (ix2 e ⟨0, Nat.one_pos⟩)).toInt = (i.val : Int)), upd (ix1 e) := by
  subst hd
  unfold Ideal.hostScatterAdd
  congr 1
  rw [Finset.sum_filter, sum_idx1, Finset.sum_filter]
  refine Finset.sum_congr rfl fun e _ => ?_
  have hiff := vec_resultIdx?_eq_some_iff wf (ix1 e) idx (ix1 i)
  by_cases h : (idx (ix2 e ⟨0, Nat.one_pos⟩)).toInt = (i.val : Int)
  · rw [if_pos h, if_pos (hiff.2 h)]
  · rw [if_neg h, if_neg (fun hr => h (hiff.1 hr))]

/-! ## The scatter-add of a vector of updates into the entries of a matrix -/

/-- The dimension numbers of `A.at[rows, cols].add(v)`: operand `[N, M]`, scatter indices `[E, 2]` (a row and a
    column per update), updates `[E]`. -/
abbrev pointScatterDims (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

section PointCoordinates

variable {N M E w : Nat} (wf : ScatterDims.WF ⟨2, ![N, M]⟩ ⟨2, ![E, 2]⟩ ⟨1, ![E]⟩ [] [0, 1] [0, 1] 1)

/-- On the row axis the window of update `e` starts at the first index word `idx[e, 0]`, read signed. -/
theorem point_start_row (j : (⟨1, ![E]⟩ : Shape).Idx) (idx : IVec ⟨2, ![E, 2]⟩ w) :
    (pointScatterDims N M E wf).start j idx 0 = (idx (ix2 (j 0) ⟨0, by omega⟩)).toInt := by
  unfold ScatterDims.start
  rw [dif_pos (show (0 : Fin 2) ∈ (pointScatterDims N M E wf).scatterDimsToOperandDims from
    List.mem_cons_self)]
  have hsi : (pointScatterDims N M E wf).siIdx j
      ⟨List.idxOf (0 : Fin 2) (pointScatterDims N M E wf).scatterDimsToOperandDims,
        List.idxOf_lt_length_iff.2 List.mem_cons_self⟩ = ix2 (j 0) ⟨0, by omega⟩ := by
    funext b; refine Fin.ext ?_
    match b with
    | ⟨0, _⟩ => rfl
    | ⟨1, _⟩ => rfl
  rw [hsi]
  rfl

/-- On the column axis it starts at the second index word `idx[e, 1]`, read signed. -/
theorem point_start_col (j : (⟨1, ![E]⟩ : Shape).Idx) (idx : IVec ⟨2, ![E, 2]⟩ w) :
    (pointScatterDims N M E wf).start j idx 1 = (idx (ix2 (j 0) ⟨1, by omega⟩)).toInt := by
  have hmem : (1 : Fin 2) ∈ (pointScatterDims N M E wf).scatterDimsToOperandDims :=
    List.mem_cons_of_mem _ (List.mem_singleton.mpr rfl)
  unfold ScatterDims.start
  rw [dif_pos hmem]
  have hsi : (pointScatterDims N M E wf).siIdx j
      ⟨List.idxOf (1 : Fin 2) (pointScatterDims N M E wf).scatterDimsToOperandDims,
        List.idxOf_lt_length_iff.2 hmem⟩ = ix2 (j 0) ⟨1, by omega⟩ := by
    funext b; refine Fin.ext ?_
    match b with
    | ⟨0, _⟩ => rfl
    | ⟨1, _⟩ => rfl
  rw [hsi]
  rfl

/-- Both operand axes are inserted ones: an update is a single entry, with no window coordinate. -/
theorem point_window (j : (⟨1, ![E]⟩ : Shape).Idx) (a : Fin 2) : (pointScatterDims N M E wf).window j a = 0 := by
  unfold ScatterDims.window
  rw [dif_neg (show a ∉ (pointScatterDims N M E wf).sKept by
    match a with
    | ⟨0, _⟩ => simp [ScatterDims.sKept, Shape.kept, List.mem_filter]
    | ⟨1, _⟩ => simp [ScatterDims.sKept, Shape.kept, List.mem_filter])]

/-- Update `e` lands on entry `i` exactly when its two index words, read signed, are `i`'s row and column (a word
    outside the extent names no row or column, so such an update lands nowhere). -/
theorem point_resultIdx?_eq_some_iff (j : (⟨1, ![E]⟩ : Shape).Idx) (idx : IVec ⟨2, ![E, 2]⟩ w)
    (i : (⟨2, ![N, M]⟩ : Shape).Idx) :
    (pointScatterDims N M E wf).resultIdx? j idx = some i ↔
      (idx (ix2 (j 0) ⟨0, by omega⟩)).toInt = ((i 0).val : Int) ∧
        (idx (ix2 (j 0) ⟨1, by omega⟩)).toInt = ((i 1).val : Int) := by
  have hs0 := point_start_row wf j idx
  have hs1 := point_start_col wf j idx
  have hw0 := point_window wf j 0
  have hw1 := point_window wf j 1
  have hi0 := idx2_lt0 i
  have hi1 := idx2_lt1 i
  unfold ScatterDims.resultIdx?
  by_cases hall : ∀ a, 0 ≤ (pointScatterDims N M E wf).start j idx a + (pointScatterDims N M E wf).window j a ∧
      (pointScatterDims N M E wf).start j idx a + (pointScatterDims N M E wf).window j a
        < (⟨2, ![N, M]⟩ : Shape).size a
  · rw [dif_pos hall]
    constructor
    · intro h
      have h' := Option.some.inj h
      have h0 : ((pointScatterDims N M E wf).start j idx 0 + (pointScatterDims N M E wf).window j 0).toNat
          = (i 0).val := congrArg (fun f => (f 0).val) h'
      have h1 : ((pointScatterDims N M E wf).start j idx 1 + (pointScatterDims N M E wf).window j 1).toNat
          = (i 1).val := congrArg (fun f => (f 1).val) h'
      have ha0 := (hall 0).1
      have ha1 := (hall 1).1
      rw [hs0, hw0] at h0 ha0
      rw [hs1, hw1] at h1 ha1
      refine ⟨by omega, by omega⟩
    · rintro ⟨h0, h1⟩
      congr 1
      funext a
      refine Fin.ext ?_
      match a with
      | ⟨0, _⟩ =>
        show ((pointScatterDims N M E wf).start j idx 0 + (pointScatterDims N M E wf).window j 0).toNat = (i 0).val
        rw [hs0, hw0, h0]; omega
      | ⟨1, _⟩ =>
        show ((pointScatterDims N M E wf).start j idx 1 + (pointScatterDims N M E wf).window j 1).toNat = (i 1).val
        rw [hs1, hw1, h1]; omega
  · rw [dif_neg hall]
    constructor
    · intro h; cases h
    · rintro ⟨h0, h1⟩
      refine absurd ?_ hall
      intro a
      match a with
      | ⟨0, _⟩ =>
        show 0 ≤ (pointScatterDims N M E wf).start j idx 0 + (pointScatterDims N M E wf).window j 0 ∧
          (pointScatterDims N M E wf).start j idx 0 + (pointScatterDims N M E wf).window j 0 < (N : Int)
        rw [hs0, hw0, h0]; omega
      | ⟨1, _⟩ =>
        show 0 ≤ (pointScatterDims N M E wf).start j idx 1 + (pointScatterDims N M E wf).window j 1 ∧
          (pointScatterDims N M E wf).start j idx 1 + (pointScatterDims N M E wf).window j 1 < (M : Int)
        rw [hs1, hw1, h1]; omega

end PointCoordinates

/-- A.at[rows, cols].add(v): entry `(i, j)` is `x (i, j)` plus the updates whose two index words, read signed,
    are `(i, j)`. -/
theorem pointScatterAdd_apply_of {N M E w : Nat}
    {wf : ScatterDims.WF ⟨2, ![N, M]⟩ ⟨2, ![E, 2]⟩ ⟨1, ![E]⟩ [] [0, 1] [0, 1] 1}
    (d : ScatterDims ⟨2, ![N, M]⟩ ⟨2, ![E, 2]⟩ ⟨1, ![E]⟩) (hd : d = pointScatterDims N M E wf)
    (x : (⟨2, ![N, M]⟩ : Shape).Idx → EReal) (idx : IVec ⟨2, ![E, 2]⟩ w) (upd : (⟨1, ![E]⟩ : Shape).Idx → EReal)
    (i : Fin N) (j : Fin M) :
    Ideal.hostScatterAdd d x idx upd (ix2 i j) =
      x (ix2 i j) + ∑ e ∈ Finset.univ.filter (fun e : Fin E =>
        (idx (ix2 e ⟨0, by omega⟩)).toInt = (i.val : Int) ∧ (idx (ix2 e ⟨1, by omega⟩)).toInt = (j.val : Int)),
        upd (ix1 e) := by
  subst hd
  unfold Ideal.hostScatterAdd
  congr 1
  rw [Finset.sum_filter, sum_idx1, Finset.sum_filter]
  refine Finset.sum_congr rfl fun e _ => ?_
  have hiff := point_resultIdx?_eq_some_iff wf (ix1 e) idx (ix2 i j)
  by_cases h : (idx (ix2 e ⟨0, by omega⟩)).toInt = (i.val : Int) ∧ (idx (ix2 e ⟨1, by omega⟩)).toInt = (j.val : Int)
  · rw [if_pos h, if_pos (hiff.2 h)]
  · rw [if_neg h, if_neg (fun hr => h (hiff.1 hr))]

/-! ## The indexed read of a vector table -/

/-- The dimension numbers of `table[idx]` for a vector table: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- table[idx] for a vector table: the start index, read signed, is clamped into the table. -/
theorem vecGather_apply_of {α : Type} {N E w : Nat} (hN : 0 < N)
    {wf : GatherDims.WF ⟨1, ![N]⟩ ⟨2, ![E, 1]⟩ ⟨1, ![E]⟩ [] [0] [] [0] [] 1 ![1]}
    (d : GatherDims ⟨1, ![N]⟩ ⟨2, ![E, 1]⟩ ⟨1, ![E]⟩) (hd : d = vecGatherDims N E wf)
    (x : (⟨1, ![N]⟩ : Shape).Idx → α) (idx : IVec ⟨2, ![E, 1]⟩ w) (e : Fin E) :
    Host.gather d x idx (ix1 e) =
      x (ix1 ⟨min (idx (ix2 e ⟨0, Nat.one_pos⟩)).toInt.toNat (N - 1), by omega⟩) := by
  subst hd
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-! ## The indexed read of a table of rows -/

/-- The dimension numbers of `table[idx]` for a table of rows: operand `[N, B]`, start indices `[E, 1]`, result
    `[E, B]`, a whole row per start index. -/
abbrev rowGatherDims (N E B : Nat)
    (wf : GatherDims.WF ⟨2, ![N, B]⟩ ⟨2, ![E, 1]⟩ ⟨2, ![E, B]⟩ [1] [0] [] [0] [] 1 ![1, B]) :
    GatherDims ⟨2, ![N, B]⟩ ⟨2, ![E, 1]⟩ ⟨2, ![E, B]⟩ where
  offsetDims := [1]
  collapsedSliceDims := [0]
  operandBatchingDims := []
  startIndicesBatchingDims := []
  startIndexMap := [0]
  indexVectorDim := 1
  sliceSizes := ![1, B]
  wf := wf

/-- table[idx] for a table of rows `[N, B]`: row `e` of the result is the table's row at the clamped index. -/
theorem rowGather_apply_of {α : Type} {N E B w : Nat} (hN : 0 < N)
    {wf : GatherDims.WF ⟨2, ![N, B]⟩ ⟨2, ![E, 1]⟩ ⟨2, ![E, B]⟩ [1] [0] [] [0] [] 1 ![1, B]}
    (d : GatherDims ⟨2, ![N, B]⟩ ⟨2, ![E, 1]⟩ ⟨2, ![E, B]⟩) (hd : d = rowGatherDims N E B wf)
    (x : (⟨2, ![N, B]⟩ : Shape).Idx → α) (idx : IVec ⟨2, ![E, 1]⟩ w) (e : Fin E) (b : Fin B) :
    Host.gather d x idx (ix2 e b) =
      x (ix2 ⟨min (idx (ix2 e ⟨0, Nat.one_pos⟩)).toInt.toNat (N - 1), by omega⟩ b) := by
  subst hd
  unfold Host.gather
  congr 1
  funext a
  refine Fin.ext ?_
  match a with
  | ⟨0, _⟩ =>
    -- the row axis: collapsed and start-indexed, the clamped start alone
    show (rowGatherDims N E B wf).start (ix2 e b) idx 0 + (rowGatherDims N E B wf).batchCoord (ix2 e b) 0
      + (rowGatherDims N E B wf).offCoord (ix2 e b) 0 = min (idx (ix2 e ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E B wf).startIndexMap from List.mem_singleton.mpr rfl)]
    have hsi : (rowGatherDims N E B wf).siIdx (ix2 e b) ⟨List.idxOf (0 : Fin 2) (rowGatherDims N E B wf).startIndexMap,
        List.idxOf_lt_length_iff.2 (List.mem_singleton.mpr rfl)⟩ = ix2 e ⟨0, Nat.one_pos⟩ := by
      funext c; refine Fin.ext ?_
      match c with
      | ⟨0, _⟩ => rfl
      | ⟨1, _⟩ => rfl
    rw [hsi]
    rfl
  | ⟨1, _⟩ =>
    -- the column axis: an offset axis, the result's own column coordinate
    show (rowGatherDims N E B wf).start (ix2 e b) idx 1 + (rowGatherDims N E B wf).batchCoord (ix2 e b) 1
      + (rowGatherDims N E B wf).offCoord (ix2 e b) 1 = b.val
    have hst : (rowGatherDims N E B wf).start (ix2 e b) idx 1 = 0 := by
      unfold GatherDims.start
      rw [dif_neg (show (1 : Fin 2) ∉ (rowGatherDims N E B wf).startIndexMap from
        (by decide : (1 : Fin 2) ∉ ([0] : List (Fin 2))))]
    have hoff : (rowGatherDims N E B wf).offCoord (ix2 e b) 1 = b.val := by
      unfold GatherDims.offCoord
      rw [dif_pos (show (1 : Fin 2) ∈ (rowGatherDims N E B wf).sKept by
        simp [GatherDims.sKept, Shape.kept, List.mem_filter])]
      rfl
    rw [hst, hoff, GatherDims.batchCoord_eq_zero _ _ _ List.not_mem_nil]
    omega

end Cert.LibScatter

end
-- ==== Proof.RefRead.lean ====
/-
  The reference's result read at one entry: row r, coordinate p of `RefTerm.refOut` is `RefEntry.entry` at the
  row's view and marker.  Reading only: the closing row gather, the recast of [4, 40, 2] as [160, 2], the two
  contractions as sums over their one contracted index, the joined pieces of the two matrices, the gathers of the
  knots' tilt angles, the constant tables.
-/
import proofs.«167565_j19318762897522_1_alg».proof.Proof.RefTerm
import proofs.«167565_j19318762897522_1_alg».proof.Proof.RefEntry
import proofs.«167565_j19318762897522_1_alg».proof.Proof.LibScatter
import Idealize.ShloMosaic.Lib.Pipeline.Value
import Idealize.ShloMosaic.Lib.StackMember

noncomputable section

namespace Cert.RefRead

open Cert.ReferenceIdeal Cert.ReferenceIdeal.Gen Idealize.ShloMosaic Idealize.ShloMosaic.ValueIdx

/-! ## Broadcasts read at an index -/

section Layout
variable {α : Type}

/-- A scalar broadcast to any shape reads the scalar everywhere. -/
theorem bscalar_apply {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- A vector of 40 (or 142) entries as a column: entry (v, 0) is entry v. -/
theorem bcol_apply {n : Nat} (h : (⟨1, ![n]⟩ : Shape).BroadcastsInDim ⟨2, ![n, 1]⟩ ![0])
    (x : (⟨1, ![n]⟩ : Shape).Idx → α) (v : Fin n) (u : Fin 1) :
    broadcastInDim ⟨2, ![n, 1]⟩ ![0] h x (ix2 v u) = x (ix1 v) := by
  refine broadcastInDim_apply _ h x _ _ (fun a => ?_)
  match a with
  | ⟨0, _⟩ =>
    show v.val = if n = 1 then 0 else v.val
    split
    · have := v.isLt; omega
    · rfl

/-- A [40, c] array with a unit axis put in the middle: entry (v, 0, j) is entry (v, j). -/
theorem bmid_apply {c : Nat} (hc : c ≠ 1) (h : (⟨2, ![40, c]⟩ : Shape).BroadcastsInDim ⟨3, ![40, 1, c]⟩ ![0, 2])
    (x : (⟨2, ![40, c]⟩ : Shape).Idx → α) (v : Fin 40) (u : Fin 1) (j : Fin c) :
    broadcastInDim ⟨3, ![40, 1, c]⟩ ![0, 2] h x (ix3 v u j) = x (ix2 v j) := by
  refine broadcastInDim_apply _ h x _ _ (fun a => ?_)
  match a with
  | ⟨0, _⟩ => rfl
  | ⟨1, _⟩ =>
    show j.val = if c = 1 then 0 else j.val
    rw [if_neg hc]

/-- A vector of 40 entries as a [40, 1, 1] array: entry (v, 0, 0) is entry v. -/
theorem bv11_apply (h : S40.BroadcastsInDim S40x1x1 ![0]) (x : S40.Idx → α) (v : Fin 40) (u u' : Fin 1) :
    broadcastInDim S40x1x1 ![0] h x (ix3 v u u') = x (ix1 v) := by
  refine broadcastInDim_apply _ h x _ _ (fun a => ?_)
  match a with
  | ⟨0, _⟩ => rfl

/-- A [40, 1, 1] array repeated over a [40, 2, 3] array: entry (v, p, k) is entry (v, 0, 0). -/
theorem b11_apply (h : S40x1x1.BroadcastsInDim S40x2x3 ![0, 1, 2]) (x : S40x1x1.Idx → α) (v : Fin 40) (p : Fin 2) (k : Fin 3) :
    broadcastInDim S40x2x3 ![0, 1, 2] h x (ix3 v p k) = x (ix3 v 0 0) := by
  refine broadcastInDim_apply _ h x _ _ (fun a => ?_)
  match a with
  | ⟨0, _⟩ => rfl
  | ⟨1, _⟩ => rfl
  | ⟨2, _⟩ => rfl

/-- A [40, 1] column repeated along the rows of a [40, 2] array: entry (v, p) is entry (v, 0). -/
theorem bc2_apply (h : S40x1.BroadcastsInDim S40x2 ![0, 1]) (x : S40x1.Idx → α) (v : Fin 40) (p : Fin 2) :
    broadcastInDim S40x2 ![0, 1] h x (ix2 v p) = x (ix2 v 0) := by
  refine broadcastInDim_apply _ h x _ _ (fun a => ?_)
  match a with
  | ⟨0, _⟩ => rfl
  | ⟨1, _⟩ => rfl

/-- A [40, 2] array under a new leading unit axis: entry (0, v, p) is entry (v, p). -/
theorem blead_apply (h : S40x2.BroadcastsInDim S1x40x2 ![1, 2]) (x : S40x2.Idx → α) (u : Fin 1) (v : Fin 40) (p : Fin 2) :
    broadcastInDim S1x40x2 ![1, 2] h x (ix3 u v p) = x (ix2 v p) := by
  refine broadcastInDim_apply _ h x _ _ (fun a => ?_)
  match a with
  | ⟨0, _⟩ => rfl
  | ⟨1, _⟩ => rfl

/-- A [1, 40, 2] array repeated four times along the leading axis: entry (mk, v, p) is entry (0, v, p). -/
theorem b4_apply (h : S1x40x2.BroadcastsInDim S4x40x2 ![0, 1, 2]) (x : S1x40x2.Idx → α) (mk : Fin 4) (v : Fin 40) (p : Fin 2) :
    broadcastInDim S4x40x2 ![0, 1, 2] h x (ix3 mk v p) = x (ix3 0 v p) := by
  refine broadcastInDim_apply _ h x _ _ (fun a => ?_)
  match a with
  | ⟨0, _⟩ => rfl
  | ⟨1, _⟩ => rfl
  | ⟨2, _⟩ => rfl

end Layout

/-! ## Joined pieces read at an index -/

section Join
variable {α : Type}

/-- Two columns joined side by side: column 0 is the first column. -/
theorem join2_0 (h : Shape.Concatenates [S40x1, S40x1] S40x2 1) (x y : S40x1.Idx → α) (v : Fin 40) :
    concatenate S40x2 1 [⟨S40x1, x⟩, ⟨S40x1, y⟩] h (ix2 v 0) = x (ix2 v 0) :=
  concatenate_pair_apply_left 1 x y h (ix2 v 0) rfl (ix2 v 0) (fun b => by
    match b with
    | ⟨0, _⟩ => rfl
    | ⟨1, _⟩ => rfl)

/-- Two columns joined side by side: column 1 is the second column. -/
theorem join2_1 (h : Shape.Concatenates [S40x1, S40x1] S40x2 1) (x y : S40x1.Idx → α) (v : Fin 40) :
    concatenate S40x2 1 [⟨S40x1, x⟩, ⟨S40x1, y⟩] h (ix2 v 1) = y (ix2 v 0) :=
  concatenate_pair_apply_right 1 x y h (ix2 v 1) rfl rfl (ix2 v 0) (fun b hb => by
    match b with
    | ⟨0, _⟩ => rfl
    | ⟨1, _⟩ => exact absurd rfl hb) rfl

/-- Three columns joined side by side: column 0 is the first column. -/
theorem join3_0 (h : Shape.Concatenates [S40x1, S40x1, S40x1] S40x3 1) (x y z : S40x1.Idx → α) (v : Fin 40) :
    concatenate S40x3 1 [⟨S40x1, x⟩, ⟨S40x1, y⟩, ⟨S40x1, z⟩] h (ix2 v 0) = x (ix2 v 0) :=
  concatenate_apply_piece (t := S40x3) 1 [⟨S40x1, x⟩, ⟨S40x1, y⟩, ⟨S40x1, z⟩] h (ix2 v 0) 0 (by simp) S40x1 x rfl rfl 0 rfl (ix2 v 0) (fun b hb => by
    match b with
    | ⟨0, _⟩ => rfl
    | ⟨1, _⟩ => exact absurd rfl hb) rfl

/-- Three columns joined side by side: column 1 is the second column. -/
theorem join3_1 (h : Shape.Concatenates [S40x1, S40x1, S40x1] S40x3 1) (x y z : S40x1.Idx → α) (v : Fin 40) :
    concatenate S40x3 1 [⟨S40x1, x⟩, ⟨S40x1, y⟩, ⟨S40x1, z⟩] h (ix2 v 1) = y (ix2 v 0) :=
  concatenate_apply_piece (t := S40x3) 1 [⟨S40x1, x⟩, ⟨S40x1, y⟩, ⟨S40x1, z⟩] h (ix2 v 1) 1 (by simp) S40x1 y rfl rfl 1 rfl (ix2 v 0) (fun b hb => by
    match b with
    | ⟨0, _⟩ => rfl
    | ⟨1, _⟩ => exact absurd rfl hb) rfl

/-- Three columns joined side by side: column 2 is the third column. -/
theorem join3_2 (h : Shape.Concatenates [S40x1, S40x1, S40x1] S40x3 1) (x y z : S40x1.Idx → α) (v : Fin 40) :
    concatenate S40x3 1 [⟨S40x1, x⟩, ⟨S40x1, y⟩, ⟨S40x1, z⟩] h (ix2 v 2) = z (ix2 v 0) :=
  concatenate_apply_piece (t := S40x3) 1 [⟨S40x1, x⟩, ⟨S40x1, y⟩, ⟨S40x1, z⟩] h (ix2 v 2) 2 (by simp) S40x1 z rfl rfl 2 rfl (ix2 v 0) (fun b hb => by
    match b with
    | ⟨0, _⟩ => rfl
    | ⟨1, _⟩ => exact absurd rfl hb) rfl

/-- Two one-row matrices per view stacked into two rows: row 0 is the first piece's row. -/
theorem stack2_0 {c : Nat} (h : Shape.Concatenates [(⟨3, ![40, 1, c]⟩ : Shape), ⟨3, ![40, 1, c]⟩] ⟨3, ![40, 2, c]⟩ 1)
    (x y : (⟨3, ![40, 1, c]⟩ : Shape).Idx → α) (v : Fin 40) (j : Fin c) :
    concatenate ⟨3, ![40, 2, c]⟩ 1 [⟨⟨3, ![40, 1, c]⟩, x⟩, ⟨⟨3, ![40, 1, c]⟩, y⟩] h (ix3 v 0 j) = x (ix3 v 0 j) :=
  concatenate_pair_apply_left 1 x y h (ix3 v 0 j) rfl (ix3 v 0 j) (fun b => by
    match b with
    | ⟨0, _⟩ => rfl
    | ⟨1, _⟩ => rfl
    | ⟨2, _⟩ => rfl)

/-- Two one-row matrices per view stacked into two rows: row 1 is the second piece's row. -/
theorem stack2_1 {c : Nat} (h : Shape.Concatenates [(⟨3, ![40, 1, c]⟩ : Shape), ⟨3, ![40, 1, c]⟩] ⟨3, ![40, 2, c]⟩ 1)
    (x y : (⟨3, ![40, 1, c]⟩ : Shape).Idx → α) (v : Fin 40) (j : Fin c) :
    concatenate ⟨3, ![40, 2, c]⟩ 1 [⟨⟨3, ![40, 1, c]⟩, x⟩, ⟨⟨3, ![40, 1, c]⟩, y⟩] h (ix3 v 1 j) = y (ix3 v 0 j) :=
  concatenate_pair_apply_right 1 x y h (ix3 v 1 j) rfl rfl (ix3 v 0 j) (fun b hb => by
    match b with
    | ⟨0, _⟩ => rfl
    | ⟨1, _⟩ => exact absurd rfl hb
    | ⟨2, _⟩ => rfl) rfl

end Join

/-! ## The constant tables -/

/-- A rank-1 index's row-major position is its coordinate. -/
theorem rm1 {n : Nat} (v : Fin n) : ((⟨1, ![n]⟩ : Shape).rowMajor (ix1 v)).val = v.val := Shape.rowMajor_val_one _

/-- The lower-knot table holds the lower knot's position (already inside the eight knots, so the clamp is idle). -/
theorem lo_tbl : ∀ v : Fin 40, min (lit0 v).toInt.toNat 7 = (Cert.Spec.lo v).val := by decide
/-- The upper-knot table holds the next knot's position. -/
theorem hi_tbl : ∀ v : Fin 40, min (lit1 v).toInt.toNat 7 = (Cert.Spec.hi v).val := by decide
/-- The table of quotients. -/
theorem frac_tbl : ∀ v : Fin 40, lit2 v = Cert.Spec.fracBits v := by decide
/-- The knot mask. -/
theorem knot_tbl : ∀ v : Fin 40, lit3 v = 1 ↔ Cert.Spec.isKnot v = true := by decide
/-- The mask of view 14. -/
theorem v14_tbl : ∀ v : Fin 40, lit4 v = 1 ↔ v.val = 14 := by decide
/-- "The view number, as a 32-bit word, equals zero" holds at view 0 only. -/
theorem view0_tbl : ∀ v : Fin 40, IntOp.cmpi .eq (BitVec.ofNat 32 v.val) 0#32 = 1 ↔ v.val = 0 := by decide
/-- The table of rows kept: never negative (the wrap is idle), inside the 160 rows (the clamp is idle), and row
    r of the result is row marker * 40 + view of the full table. -/
theorem keep_tbl : ∀ r : Fin 142,
    min (Scalar.select (IntOp.cmpi .slt (lit5 r) 0#32) (IntOp.addi (lit5 r) 160#32) (lit5 r)).toInt.toNat 159
      = (Cert.Spec.rowMk r).val * 40 + (Cert.Spec.rowV r).val := by decide +kernel

/-! ## The tilt and rotation angles -/

/-- The index column of a knot table holds the table's word at each view (the wrap is masked off). -/
theorem idxCol_apply (tbl : Fin 40 → BitVec 32) (v : Fin 40) (u : Fin 1) : Cert.RefTerm.idxCol tbl (ix2 v u) = tbl v := by
  unfold Cert.RefTerm.idxCol
  rw [bcol_apply, select_apply]
  show Scalar.select 0#1 _ (tbl (S40.rowMajor (ix1 v))) = _
  rw [select_zero]
  exact congrArg tbl (Fin.ext (rm1 v))

/-- The gather of the tilt angles at a knot table reads, at view v, the tilt at the table's knot. -/
theorem atKnots_apply (tbl : Fin 40 → BitVec 32) (tilt : FVec Ideal S8 .f32) (v : Fin 40) (k : Fin 8)
    (hk : min (tbl v).toInt.toNat 7 = k.val) :
    Cert.RefTerm.atKnots (F := Ideal) tbl tilt (ix1 v) = tilt (ix1 k) := by
  unfold Cert.RefTerm.atKnots
  rw [Cert.LibScatter.vecGather_apply_of (by decide) gather_S8_S40x1_S40_n_0_n_n_0_1_1 rfl]
  refine congrArg tilt (congrArg ix1 (Fin.ext ?_))
  show min (Cert.RefTerm.idxCol tbl (ix2 v ⟨0, Nat.one_pos⟩)).toInt.toNat (8 - 1) = k.val
  rw [idxCol_apply]
  exact hk

/-- The tilt in degrees, view by view. -/
theorem tiltDeg_apply (tilt : FVec Ideal S8 .f32) (v : Fin 40) :
    Cert.RefTerm.tiltDeg (F := Ideal) tilt (ix1 v) = Cert.Spec.tiltDeg tilt v := by
  have hrm : S40.rowMajor (ix1 v) = v := Fin.ext (rm1 v)
  unfold Cert.RefTerm.tiltDeg Cert.Spec.tiltDeg
  rw [select_apply, select_apply, addf_apply, mulf_apply, subf_apply, bscalar_apply,
    atKnots_apply lit0 tilt v (Cert.Spec.lo v) (lo_tbl v), atKnots_apply lit1 tilt v (Cert.Spec.hi v) (hi_tbl v), hrm,
    frac_tbl v]
  unfold Scalar.select
  by_cases h3 : Cert.Spec.isKnot v = true
  · rw [if_pos ((knot_tbl v).mpr h3), if_pos h3]
  · rw [if_neg (fun h => h3 ((knot_tbl v).mp h)), if_neg h3]
    by_cases h4 : v.val = 14
    · rw [if_pos ((v14_tbl v).mpr h4), if_pos h4]
      rfl
    · rw [if_neg (fun h => h4 ((v14_tbl v).mp h)), if_neg h4]
      rfl

/-- Degrees to radians at one view. -/
theorem toRad_apply (x : FVec Ideal S40 .f32) (v : Fin 40) :
    Cert.RefTerm.toRad (F := Ideal) x (ix1 v) = x (ix1 v) * Cert.Spec.deg2rad := by
  unfold Cert.RefTerm.toRad
  rw [mulf_apply, bscalar_apply]
  rfl

/-! ## The magnification and the offset in effect -/

/-- The view-0 mask at view v is the word comparison of v with 0. -/
theorem isView0_apply (v : Fin 40) :
    Cert.RefTerm.isView0 (ix1 v) = IntOp.cmpi .eq (BitVec.ofNat 32 v.val) 0#32 := by
  unfold Cert.RefTerm.isView0
  show IntOp.cmpi .eq (BitVec.ofNat 32 v.val) (broadcastInDim S40 ![] _ (constantI S_ 32 0#32) (ix1 v)) = _
  rw [bscalar_apply]
  rfl

/-- The magnification in effect. -/
theorem magEff_apply (mag : FVec Ideal S40 .f32) (v : Fin 40) :
    Cert.RefTerm.magEff (F := Ideal) mag (ix1 v) = Cert.Spec.magE mag v := by
  unfold Cert.RefTerm.magEff Cert.Spec.magE
  rw [select_apply, isView0_apply, bscalar_apply]
  unfold Scalar.select
  by_cases h0 : v.val = 0
  · rw [if_pos ((view0_tbl v).mpr h0), if_pos h0]
    rfl
  · rw [if_neg (fun h => h0 ((view0_tbl v).mp h)), if_neg h0]

/-- The offset in effect. -/
theorem offEff_apply (off : FVec Ideal S40x2 .f32) (v : Fin 40) (p : Fin 2) :
    Cert.RefTerm.offEff (F := Ideal) off (ix2 v p) = Cert.Spec.offE off v p := by
  unfold Cert.RefTerm.offEff Cert.Spec.offE
  rw [select_apply, bc2_apply, bcol_apply, isView0_apply, bscalar_apply]
  unfold Scalar.select
  by_cases h0 : v.val = 0
  · rw [if_pos ((view0_tbl v).mpr h0), if_pos h0]
    rfl
  · rw [if_neg (fun h => h0 ((view0_tbl v).mp h)), if_neg h0]

/-! ## The rotation and tilt matrices, entry by entry -/

/-- A vector as a column, read at (v, 0). -/
theorem col_apply (x : FVec Ideal S40 .f32) (v : Fin 40) (u : Fin 1) :
    Cert.RefTerm.col (F := Ideal) x (ix2 v u) = x (ix1 v) := by
  unfold Cert.RefTerm.col
  exact bcol_apply _ x v u

/-- The constant vectors read the floats 0 and 1. -/
theorem zeros_apply (v : Fin 40) : Cert.RefTerm.zeros (F := Ideal) (ix1 v) = Cert.Spec.zero := by
  unfold Cert.RefTerm.zeros
  exact bscalar_apply _ _ _
theorem ones_apply (v : Fin 40) : Cert.RefTerm.ones (F := Ideal) (ix1 v) = Cert.Spec.one := by
  unfold Cert.RefTerm.ones
  exact bscalar_apply _ _ _

theorem rotMat_00 (a : FVec Ideal S40 .f32) (v : Fin 40) :
    Cert.RefTerm.rotMat (F := Ideal) a (ix3 v 0 0) = Ideal.cos (a (ix1 v)) := by
  unfold Cert.RefTerm.rotMat
  rw [stack2_0, bmid_apply (by decide), join2_0, col_apply]
  rfl
theorem rotMat_01 (a : FVec Ideal S40 .f32) (v : Fin 40) :
    Cert.RefTerm.rotMat (F := Ideal) a (ix3 v 0 1) = -Ideal.sin (a (ix1 v)) := by
  unfold Cert.RefTerm.rotMat
  rw [stack2_0, bmid_apply (by decide), join2_1, col_apply]
  rfl
theorem rotMat_10 (a : FVec Ideal S40 .f32) (v : Fin 40) :
    Cert.RefTerm.rotMat (F := Ideal) a (ix3 v 1 0) = Ideal.sin (a (ix1 v)) := by
  unfold Cert.RefTerm.rotMat
  rw [stack2_1, bmid_apply (by decide), join2_0, col_apply]
  rfl
theorem rotMat_11 (a : FVec Ideal S40 .f32) (v : Fin 40) :
    Cert.RefTerm.rotMat (F := Ideal) a (ix3 v 1 1) = Ideal.cos (a (ix1 v)) := by
  unfold Cert.RefTerm.rotMat
  rw [stack2_1, bmid_apply (by decide), join2_1, col_apply]
  rfl

theorem tiltMat_00 (a : FVec Ideal S40 .f32) (v : Fin 40) :
    Cert.RefTerm.tiltMat (F := Ideal) a (ix3 v 0 0) = Ideal.cos (a (ix1 v)) := by
  unfold Cert.RefTerm.tiltMat
  rw [stack2_0, bmid_apply (by decide), join3_0, col_apply]
  rfl
theorem tiltMat_01 (a : FVec Ideal S40 .f32) (v : Fin 40) :
    Cert.RefTerm.tiltMat (F := Ideal) a (ix3 v 0 1) = Cert.Spec.zero := by
  unfold Cert.RefTerm.tiltMat
  rw [stack2_0, bmid_apply (by decide), join3_1, col_apply, zeros_apply]
theorem tiltMat_02 (a : FVec Ideal S40 .f32) (v : Fin 40) :
    Cert.RefTerm.tiltMat (F := Ideal) a (ix3 v 0 2) = Ideal.sin (a (ix1 v)) := by
  unfold Cert.RefTerm.tiltMat
  rw [stack2_0, bmid_apply (by decide), join3_2, col_apply]
  rfl
theorem tiltMat_10 (a : FVec Ideal S40 .f32) (v : Fin 40) :
    Cert.RefTerm.tiltMat (F := Ideal) a (ix3 v 1 0) = Cert.Spec.zero := by
  unfold Cert.RefTerm.tiltMat
  rw [stack2_1, bmid_apply (by decide), join3_0, col_apply, zeros_apply]
theorem tiltMat_11 (a : FVec Ideal S40 .f32) (v : Fin 40) :
    Cert.RefTerm.tiltMat (F := Ideal) a (ix3 v 1 1) = Cert.Spec.one := by
  unfold Cert.RefTerm.tiltMat
  rw [stack2_1, bmid_apply (by decide), join3_1, col_apply, ones_apply]
theorem tiltMat_12 (a : FVec Ideal S40 .f32) (v : Fin 40) :
    Cert.RefTerm.tiltMat (F := Ideal) a (ix3 v 1 2) = Cert.Spec.zero := by
  unfold Cert.RefTerm.tiltMat
  rw [stack2_1, bmid_apply (by decide), join3_2, col_apply, zeros_apply]

/-- The rotation angle in radians. -/
theorem phi_apply (rot : FVec Ideal S40 .f32) (v : Fin 40) :
    Cert.RefTerm.toRad (F := Ideal) rot (ix1 v) = Cert.Spec.phi rot v := toRad_apply rot v

/-- The tilt angle in radians. -/
theorem theta_apply (tilt : FVec Ideal S8 .f32) (v : Fin 40) :
    Cert.RefTerm.toRad (F := Ideal) (Cert.RefTerm.tiltDeg tilt) (ix1 v) = Cert.Spec.theta tilt v :=
  (toRad_apply _ v).trans (congrArg (· * Cert.Spec.deg2rad) (tiltDeg_apply tilt v))

/-- The stacked rotation matrices read the entries of each view's rotation matrix. -/
theorem rotMat_apply (rot : FVec Ideal S40 .f32) (v : Fin 40) (i j : Fin 2) :
    Cert.RefTerm.rotMat (F := Ideal) (Cert.RefTerm.toRad rot) (ix3 v i j) = Cert.RefEntry.rotE rot v i j :=
  match i, j with
  | 0, 0 => (rotMat_00 _ v).trans (congrArg Ideal.cos (phi_apply rot v))
  | 0, 1 => (rotMat_01 _ v).trans (congrArg (fun t => -Ideal.sin t) (phi_apply rot v))
  | 1, 0 => (rotMat_10 _ v).trans (congrArg Ideal.sin (phi_apply rot v))
  | 1, 1 => (rotMat_11 _ v).trans (congrArg Ideal.cos (phi_apply rot v))

/-- The stacked tilt matrices read the entries of each view's tilt matrix. -/
theorem tiltMat_apply (tilt : FVec Ideal S8 .f32) (v : Fin 40) (j : Fin 2) (k : Fin 3) :
    Cert.RefTerm.tiltMat (F := Ideal) (Cert.RefTerm.toRad (Cert.RefTerm.tiltDeg tilt)) (ix3 v j k)
      = Cert.RefEntry.tiltE tilt v j k :=
  match j, k with
  | 0, 0 => (tiltMat_00 _ v).trans (congrArg Ideal.cos (theta_apply tilt v))
  | 0, 1 => tiltMat_01 _ v
  | 0, 2 => (tiltMat_02 _ v).trans (congrArg Ideal.sin (theta_apply tilt v))
  | 1, 0 => tiltMat_10 _ v
  | 1, 1 => tiltMat_11 _ v
  | 1, 2 => tiltMat_12 _ v

/-! ## The two contractions -/

/-- The batched product of the stacked 2 x 2 and 2 x 3 matrices, entry by entry: the sum over the middle index. -/
theorem dot1_apply (A : FVec Ideal S40x2x2 .f32) (B : FVec Ideal S40x2x3 .f32) (v : Fin 40) (p : Fin 2) (k : Fin 3) :
    Host.dotGeneral dot_S40x2x2_S40x2x3_S40x2x3_2_1_1_2_0_0 none A B (ix3 v p k)
      = ∑ j : Fin 2, A (ix3 v p j) * B (ix3 v j k) :=
  StackMember.dotGeneral_stack_apply (G := 40) (m := 2) (n := 3) (k := 2) _ none A B v p k

/-- The product of the markers' coordinates with every view's matrix, entry by entry: the sum over the three
    coordinates. -/
theorem dot2_apply (X : FVec Ideal S4x3 .f32) (A : FVec Ideal S40x2x3 .f32) (mk : Fin 4) (v : Fin 40) (p : Fin 2) :
    Host.dotGeneral dot_S4x3_S40x2x3_S4x40x2_1_2_0_01_n_n none X A (ix3 mk v p)
      = ∑ k : Fin 3, X (ix2 mk k) * A (ix3 v p k) := by
  show FloatOps.dotGeneral _ none _ X A (ix3 mk v p) = _
  rw [Ideal.dotGeneral_apply, ← Equiv.sum_comp (contrEquiv1 dot_S4x3_S40x2x3_S4x40x2_1_2_0_01_n_n 3 rfl rfl).symm]
  refine Finset.sum_congr rfl fun c _ => ?_
  have c3 := contrEquiv1_symm_val dot_S4x3_S40x2x3_S4x40x2_1_2_0_01_n_n 3 rfl rfl c
  have l3 : dot_S4x3_S40x2x3_S4x40x2_1_2_0_01_n_n.lhsIdx (ix3 mk v p) ((contrEquiv1 _ 3 rfl rfl).symm c) = ix2 mk c := by
    funext ax; apply Fin.ext
    match ax with
    | ⟨0, _⟩ => simp [DotDims.lhsIdx, dot_S4x3_S40x2x3_S4x40x2_1_2_0_01_n_n]; rfl
    | ⟨1, _⟩ => simp [DotDims.lhsIdx, dot_S4x3_S40x2x3_S4x40x2_1_2_0_01_n_n]; exact c3
  have r3 : dot_S4x3_S40x2x3_S4x40x2_1_2_0_01_n_n.rhsIdx (ix3 mk v p) ((contrEquiv1 _ 3 rfl rfl).symm c) = ix3 v p c := by
    funext ax; apply Fin.ext
    match ax with
    | ⟨0, _⟩ => simp [DotDims.rhsIdx, dot_S4x3_S40x2x3_S4x40x2_1_2_0_01_n_n]; rfl
    | ⟨1, _⟩ => simp [DotDims.rhsIdx, dot_S4x3_S40x2x3_S4x40x2_1_2_0_01_n_n]; rfl
    | ⟨2, _⟩ => simp [DotDims.rhsIdx, dot_S4x3_S40x2x3_S4x40x2_1_2_0_01_n_n]; exact c3
  rw [l3, r3]

/-! ## The projection and the rows kept -/

/-- The stacked projection matrices read each view's projection matrix. -/
theorem projMat_apply (rot mag : FVec Ideal S40 .f32) (tilt : FVec Ideal S8 .f32) (v : Fin 40) (p : Fin 2) (k : Fin 3) :
    Cert.RefTerm.projMat (F := Ideal) rot mag tilt (ix3 v p k) = Cert.RefEntry.matE rot mag tilt v p k := by
  unfold Cert.RefTerm.projMat Cert.RefEntry.matE
  rw [mulf_apply, b11_apply, bv11_apply, magEff_apply, dot1_apply]
  refine congrArg (Cert.Spec.magE mag v * ·) (Finset.sum_congr rfl fun j _ => ?_)
  rw [rotMat_apply, tiltMat_apply]

/-- Every marker seen in every view: the contraction with the marker's coordinates, the offset added. -/
theorem projAll_apply (rot mag : FVec Ideal S40 .f32) (xyz : FVec Ideal S4x3 .f32) (tilt : FVec Ideal S8 .f32)
    (off : FVec Ideal S40x2 .f32) (mk : Fin 4) (v : Fin 40) (p : Fin 2) :
    Cert.RefTerm.projAll (F := Ideal) xyz (Cert.RefTerm.projMat rot mag tilt) (Cert.RefTerm.offEff off) (ix3 mk v p)
      = Cert.RefEntry.entry rot mag xyz tilt off v mk p := by
  unfold Cert.RefTerm.projAll Cert.RefEntry.entry
  rw [addf_apply, dot2_apply, b4_apply, blead_apply, offEff_apply]
  refine congrArg (· + Cert.Spec.offE off v p) (Finset.sum_congr rfl fun k _ => ?_)
  rw [projMat_apply]

/-- The index column of the closing gather holds, at row r, the table's word under the (idle) wrap. -/
theorem keepIdx_apply (r : Fin 142) (u : Fin 1) :
    Cert.RefTerm.keepIdx (ix2 r u)
      = Scalar.select (IntOp.cmpi .slt (lit5 r) 0#32) (IntOp.addi (lit5 r) 160#32) (lit5 r) := by
  have hrm : S142.rowMajor (ix1 r) = r := Fin.ext (rm1 r)
  unfold Cert.RefTerm.keepIdx
  rw [bcol_apply, select_apply]
  show Scalar.select
      (IntOp.cmpi .slt (lit5 (S142.rowMajor (ix1 r))) (broadcastInDim S142 ![] _ (constantI S_ 32 0#32) (ix1 r)))
      (IntOp.addi (lit5 (S142.rowMajor (ix1 r))) (broadcastInDim S142 ![] _ (constantI S_ 32 160#32) (ix1 r)))
      (lit5 (S142.rowMajor (ix1 r))) = _
  rw [bscalar_apply, bscalar_apply, hrm]
  rfl

theorem refOut_apply (rot mag : FVec Ideal S40 .f32) (xyz : FVec Ideal S4x3 .f32) (tilt : FVec Ideal S8 .f32) (off : FVec Ideal S40x2 .f32)
    (r : Fin 142) (p : Fin 2) :
    Cert.RefTerm.refOut (F := Ideal) rot mag xyz tilt off (ix2 r p)
      = Cert.RefEntry.entry rot mag xyz tilt off (Cert.Spec.rowV r) (Cert.Spec.rowMk r) p := by
  -- the row the gather takes: the table's word, neither wrapped nor clamped, is marker * 40 + view
  have hrow : min (Cert.RefTerm.keepIdx (ix2 r ⟨0, Nat.one_pos⟩)).toInt.toNat (160 - 1)
      = (Cert.Spec.rowMk r).val * 40 + (Cert.Spec.rowV r).val := by
    rw [keepIdx_apply]
    exact keep_tbl r
  unfold Cert.RefTerm.refOut
  rw [Cert.LibScatter.rowGather_apply_of (by decide) gather_S160x2_S142x1_S142x2_1_0_n_n_0_1_12 rfl]
  -- row marker * 40 + view of the [160, 2] table is entry (marker, view) of the [4, 40, 2] array
  refine (shapeCast_apply _ _ _ (ix3 (Cert.Spec.rowMk r) (Cert.Spec.rowV r) p) ?_).trans
    (projAll_apply rot mag xyz tilt off (Cert.Spec.rowMk r) (Cert.Spec.rowV r) p)
  rw [Shape.rowMajor_val_three, Shape.rowMajor_val_two]
  show ((Cert.Spec.rowMk r).val * 40 + (Cert.Spec.rowV r).val) * 2 + p.val
    = min (Cert.RefTerm.keepIdx (ix2 r ⟨0, Nat.one_pos⟩)).toInt.toNat (160 - 1) * 2 + p.val
  rw [hrow]

end Cert.RefRead

end
-- ==== Proof.RefMath.lean ====
/-
  The reference's arrangement of one entry and the specification's are the same number when every argument entry is
  a real number: the matrix product's zero terms drop, the factor one drops, products re-associate and commute, the
  magnification distributes into the sum.
-/
import proofs.«167565_j19318762897522_1_alg».proof.Proof.RefEntry
import Mathlib.Data.EReal.Operations
import Mathlib.Algebra.BigOperators.Fin
import Mathlib.Tactic.Ring
import Mathlib.Tactic.FinCases
import Mathlib.Tactic.NormNum.Basic

noncomputable section

namespace Cert.RefMath

open Idealize.ShloMosaic Idealize.ShloMosaic.ValueIdx Cert.Spec

/-! ## Real numbers among the extended reals

  In the extended reals the distributive law fails at the infinities, so the comparison is made in the reals: every
  quantity in sight is shown to be (the image of) a real number, and the identity is then one of the real field. -/

/-- An extended real that is a real number: neither infinity. -/
def IsReal (a : EReal) : Prop := ∃ r : ℝ, a = (r : EReal)

theorem IsReal.mul {a b : EReal} (ha : IsReal a) (hb : IsReal b) : IsReal (a * b) := by
  obtain ⟨r, rfl⟩ := ha
  obtain ⟨t, rfl⟩ := hb
  exact ⟨r * t, (EReal.coe_mul r t).symm⟩

theorem IsReal.add {a b : EReal} (ha : IsReal a) (hb : IsReal b) : IsReal (a + b) := by
  obtain ⟨r, rfl⟩ := ha
  obtain ⟨t, rfl⟩ := hb
  exact ⟨r + t, (EReal.coe_add r t).symm⟩

theorem IsReal.sub {a b : EReal} (ha : IsReal a) (hb : IsReal b) : IsReal (a - b) := by
  obtain ⟨r, rfl⟩ := ha
  obtain ⟨t, rfl⟩ := hb
  exact ⟨r - t, (EReal.coe_sub r t).symm⟩

/-- The cosine of a real number is a real number. -/
theorem IsReal.cos {a : EReal} (ha : IsReal a) : IsReal (Ideal.cos a) := by
  obtain ⟨r, rfl⟩ := ha
  exact ⟨Real.cos r, Ideal.cos_coe r⟩

/-- The sine of a real number is a real number. -/
theorem IsReal.sin {a : EReal} (ha : IsReal a) : IsReal (Ideal.sin a) := by
  obtain ⟨r, rfl⟩ := ha
  exact ⟨Real.sin r, Ideal.sin_coe r⟩

/-! ## The float words are real numbers -/

/-- A single-precision word whose exponent field is not all ones denotes a real number: it is a zero, a subnormal or
    a normal number, never an infinity and never a NaN. -/
theorem ofBits_f32_isReal (b : BitVec 32) (h : (b.extractLsb' 23 8).toNat ≠ 2 ^ 8 - 1) :
    IsReal (Ideal.ofBits .f32 b) := by
  show ∃ r : ℝ, Ideal.ieee 8 23 b = (r : EReal)
  unfold Ideal.ieee
  simp only [if_neg h]
  split_ifs <;> exact ⟨_, rfl⟩

/-- The word of `+0.0` denotes the real number 0. -/
theorem zero_eq : Spec.zero = ((0 : ℝ) : EReal) := by
  rw [EReal.coe_zero]; exact Ideal.ofBits_zero_f32

/-- The word of `1.0` (biased exponent 127, significand 1) denotes the real number 1. -/
theorem one_eq : Spec.one = ((1 : ℝ) : EReal) := by
  simp [Ideal.ofBits, Ideal.ieee, -EReal.coe_mul]; norm_num

theorem minus15_isReal : IsReal Spec.minus15 := ofBits_f32_isReal _ (by decide)

theorem deg2rad_isReal : IsReal Spec.deg2rad := ofBits_f32_isReal _ (by decide)

theorem frac_isReal (v : Fin 40) : IsReal (Ideal.ofBits .f32 (fracBits v)) :=
  ofBits_f32_isReal _ ((by decide : ∀ v : Fin 40, ((fracBits v).extractLsb' 23 8).toNat ≠ 2 ^ 8 - 1) v)

/-! ## The quantities of one view are real numbers -/

section
variable (rot mag : (⟨1, ![40]⟩ : Shape).Idx → EReal) (xyz : (⟨2, ![4, 3]⟩ : Shape).Idx → EReal)
  (tilt : (⟨1, ![8]⟩ : Shape).Idx → EReal) (off : (⟨2, ![40, 2]⟩ : Shape).Idx → EReal)

/-- A view's tilt in degrees is a knot's angle, the fixed angle, or a real combination of two knots' angles. -/
theorem tiltDeg_isReal (htilt : AllReal tilt) (v : Fin 40) : IsReal (tiltDeg tilt v) := by
  unfold tiltDeg
  split_ifs
  · exact htilt _
  · exact minus15_isReal
  · exact IsReal.add (htilt _) (IsReal.mul (IsReal.sub (htilt _) (htilt _)) (frac_isReal v))

theorem theta_isReal (htilt : AllReal tilt) (v : Fin 40) : IsReal (theta tilt v) :=
  (tiltDeg_isReal tilt htilt v).mul deg2rad_isReal

theorem phi_isReal (hrot : AllReal rot) (v : Fin 40) : IsReal (phi rot v) :=
  IsReal.mul (hrot _) deg2rad_isReal

theorem magE_isReal (hmag : AllReal mag) (v : Fin 40) : IsReal (magE mag v) := by
  unfold magE
  split_ifs
  · exact ⟨1, one_eq⟩
  · exact hmag _

theorem offE_isReal (hoff : AllReal off) (v : Fin 40) (p : Fin 2) : IsReal (offE off v p) := by
  unfold offE
  split_ifs
  · exact ⟨0, zero_eq⟩
  · exact hoff _

end

/-! ## The identity -/

theorem entry_eq (rot mag : (⟨1, ![40]⟩ : Shape).Idx → EReal) (xyz : (⟨2, ![4, 3]⟩ : Shape).Idx → EReal)
    (tilt : (⟨1, ![8]⟩ : Shape).Idx → EReal) (off : (⟨2, ![40, 2]⟩ : Shape).Idx → EReal)
    (hrot : AllReal rot) (hmag : AllReal mag) (hxyz : AllReal xyz) (htilt : AllReal tilt) (hoff : AllReal off)
    (v : Fin 40) (mk : Fin 4) (p : Fin 2) :
    Cert.RefEntry.entry rot mag xyz tilt off v mk p = Cert.Spec.proj rot mag xyz tilt off v mk p := by
  obtain ⟨m, hm⟩ := magE_isReal mag hmag v
  obtain ⟨o, ho⟩ := offE_isReal off hoff v p
  obtain ⟨c, hc⟩ := (phi_isReal rot hrot v).cos
  obtain ⟨s, hs⟩ := (phi_isReal rot hrot v).sin
  obtain ⟨ct, hct⟩ := (theta_isReal tilt htilt v).cos
  obtain ⟨st, hst⟩ := (theta_isReal tilt htilt v).sin
  obtain ⟨x0, hx0⟩ := hxyz (ix2 mk 0)
  obtain ⟨x1, hx1⟩ := hxyz (ix2 mk 1)
  obtain ⟨x2, hx2⟩ := hxyz (ix2 mk 2)
  have hp : p = 0 ∨ p = 1 := by fin_cases p <;> simp
  unfold Cert.RefEntry.entry Cert.Spec.proj Cert.RefEntry.matE
  rw [Fin.sum_univ_three]
  simp only [Fin.sum_univ_two]
  rcases hp with rfl | rfl
  · simp only [Cert.RefEntry.rotE, Cert.RefEntry.tiltE, Cert.Spec.coef]
    rw [hm, ho, hc, hs, hct, hst, hx0, hx1, hx2, zero_eq, one_eq]
    simp only [← EReal.coe_mul, ← EReal.coe_add, ← EReal.coe_sub, ← EReal.coe_neg]
    rw [EReal.coe_eq_coe_iff]
    ring
  · simp only [Cert.RefEntry.rotE, Cert.RefEntry.tiltE, Cert.Spec.coef]
    rw [hm, ho, hc, hs, hct, hst, hx0, hx1, hx2, zero_eq, one_eq]
    simp only [← EReal.coe_mul, ← EReal.coe_add, ← EReal.coe_sub, ← EReal.coe_neg]
    rw [EReal.coe_eq_coe_iff]
    ring

end Cert.RefMath

end
-- ==== Proof.RefAlg.lean ====
/-
  The reference's result, read entry by entry, is the specification's, when every argument entry is a real number:
  the reading (`RefRead.refOut_apply`) followed by the arithmetic (`RefMath.entry_eq`).
-/
import proofs.«167565_j19318762897522_1_alg».proof.Proof.RefRead
import proofs.«167565_j19318762897522_1_alg».proof.Proof.RefMath

noncomputable section

namespace Cert.RefAlg

open Cert.ReferenceIdeal Cert.ReferenceIdeal.Gen Idealize.ShloMosaic Idealize.ShloMosaic.ValueIdx

theorem refOut_eq (rot mag : FVec Ideal S40 .f32) (xyz : FVec Ideal S4x3 .f32) (tilt : FVec Ideal S8 .f32) (off : FVec Ideal S40x2 .f32)
    (hrot : Cert.Spec.AllReal rot) (hmag : Cert.Spec.AllReal mag) (hxyz : Cert.Spec.AllReal xyz)
    (htilt : Cert.Spec.AllReal tilt) (hoff : Cert.Spec.AllReal off) :
    Cert.RefTerm.refOut (F := Ideal) rot mag xyz tilt off = Cert.Spec.out rot mag xyz tilt off := by
  funext j
  obtain ⟨r, p, rfl⟩ : ∃ (r : Fin 142) (p : Fin 2), j = ix2 r p := ⟨j 0, j 1, eq_ix2 j⟩
  rw [Cert.RefRead.refOut_apply, Cert.RefMath.entry_eq rot mag xyz tilt off hrot hmag hxyz htilt hoff]
  rfl

end Cert.RefAlg

end
-- ==== Proof.LibColumn.lean ====
/-
  A column kept beside a matrix. A vector of a entries reshaped to an a x 1 column holds entry p at (p, 0): the
  column's row-major position p * 1 + 0 is the vector's index p. An a x 1 column broadcast to a x b repeats each
  row's one entry along the row: entry (p, c) of the result is entry (p, 0) of the column, since the column's
  second axis has length one and its first axis is carried over unchanged.
-/
import Idealize.ShloMosaic.Lib.Pipeline.Value
import Idealize.ShloMosaic.Lib.ValueIdx

namespace Cert.Proof.Column

open Idealize.ShloMosaic Idealize.ShloMosaic.ValueIdx

variable {α : Type}

/-- A vector of `a` entries as an `a x 1` column reads, at `(p, u)`, entry `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a x 1` column broadcast to `a x b` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Proof.Column
-- ==== Proof.KerBody.lean ====
/-
  The kernel body's two [40, 4] results, read at view v and marker mk: they are the two coordinates of the
  specification's projection.  The body's thirteen input blocks enter as variables, each described entry by entry
  in terms of the five argument arrays (the angle and magnification columns, the tilt row, the three marker rows, the
  two offset columns) or of the constant tables (the two one-hot knot selectors, the interpolation fractions, the
  three 0/1 flags).

  The road: the float words 0, 1 and 1/2 are evaluated once, so that a 0/1 flag compared against 1/2 is its condition's
  bit and a select on it is the `if`; a one-hot selector row times the tilt row, summed along the row, is the selected
  knot's tilt (one term survives, the others are 0 times an extended real); each intermediate column of the body is
  then read at (v, 0) in the specification's words, and the three coefficient-times-coordinate products at (v, mk).
  No law of arithmetic beyond 1 * x = x, 0 * x = 0 and a sum with one non-zero term is used: the specification
  associates its sums and products as the body does.
-/
import proofs.«167565_j19318762897522_1_alg».proof.Proof.Gen.KernelIdeal.Skeleton
import proofs.«167565_j19318762897522_1_alg».proof.Proof.Spec
import proofs.«167565_j19318762897522_1_alg».proof.Proof.LibColumn
import Idealize.ShloMosaic.Lib.ValueLayout
import Idealize.ShloMosaic.PureOps.Ideal.Laws

noncomputable section

namespace Cert.KerBody

open Cert.KernelIdeal Cert.KernelIdeal.Gen Idealize.ShloMosaic Idealize.ShloMosaic.ValueIdx Cert.Spec Cert.Proof.Column

/-- The float word of 1 is the extended real 1. -/
theorem one_eq : (one : EReal) = 1 := by
  simp [one, Ideal.ofBits, Ideal.ieee, -EReal.coe_mul]; norm_num

/-- The float word of 0 is the extended real 0. -/
theorem zero_eq : (zero : EReal) = 0 := Ideal.ofBits_zero_f32

/-- The float word the flags are compared against is the real 1/2. -/
theorem half_eq : Ideal.ofBits .f32 0x3F000000#32 = (((1 : ℝ) / 2 : ℝ) : EReal) := by
  simp [Ideal.ofBits, Ideal.ieee, -EReal.coe_mul]; norm_num

/-- One is above one half: the comparison's bit is set. -/
theorem cmp_one : Ideal.cmp .ogt one (Ideal.ofBits .f32 0x3F000000#32) = 1#1 := by
  rw [one_eq, half_eq]
  have h : (((1 : ℝ) / 2 : ℝ) : EReal) < 1 := by exact_mod_cast (by norm_num : ((1 : ℝ) / 2) < 1)
  show BitVec.ofBool (decide (_ < _)) = 1#1
  rw [decide_eq_true h]; rfl

/-- Zero is not above one half: the comparison's bit is clear. -/
theorem cmp_zero : Ideal.cmp .ogt zero (Ideal.ofBits .f32 0x3F000000#32) = 0#1 := by
  rw [zero_eq, half_eq]
  have h : ¬ (((1 : ℝ) / 2 : ℝ) : EReal) < 0 := not_lt.mpr (by exact_mod_cast (by norm_num : (0 : ℝ) ≤ (1 : ℝ) / 2))
  show BitVec.ofBool (decide (_ < _)) = 0#1
  rw [decide_eq_false h]; rfl

/-- A 0/1 flag column compared against one half, read at view `v`: the bit of the flag's condition. -/
theorem flag_apply (x : FVec Ideal S40x1 .f32) (v : Fin 40) (c : Prop) [Decidable c]
    (hx : x (ix2 v (0 : Fin 1)) = if c then one else zero) :
    cmpf (F := Ideal) .ogt x (broadcast S40x1 (Scalar.ofBits .f32 0x3F000000#32)) (ix2 v (0 : Fin 1)) = if c then 1#1 else 0#1 := by
  show Ideal.cmp .ogt (x (ix2 v (0 : Fin 1))) (Ideal.ofBits .f32 0x3F000000#32) = _
  rw [hx]; split
  · exact cmp_one
  · exact cmp_zero

/-- A select on such a flag, read at view `v`, is the `if` on the flag's condition. -/
theorem select_flag (x : FVec Ideal S40x1 .f32) (a b : FVec Ideal S40x1 .f32) (v : Fin 40) (c : Prop) [Decidable c]
    (hx : x (ix2 v (0 : Fin 1)) = if c then one else zero) :
    select (cmpf (F := Ideal) .ogt x (broadcast S40x1 (Scalar.ofBits .f32 0x3F000000#32))) a b (ix2 v (0 : Fin 1))
      = if c then a (ix2 v (0 : Fin 1)) else b (ix2 v (0 : Fin 1)) := by
  rw [select_apply, flag_apply x v c hx]
  split
  · exact select_one _ _
  · exact select_zero _ _

/-- The index a row sum reads: row `v` with the summed coordinate put back. -/
theorem lift_eq (v : Fin 40) (k : Fin 8) : reduces_S40x8_S40.lift (ix1 v) k = ix2 v k := by
  funext a
  match a with
  | ⟨0, _⟩ => exact Fin.ext rfl
  | ⟨1, _⟩ => exact Fin.ext rfl

/-- A one-hot row against the tilt row, summed along the row and kept as a column: the tilt of the selected knot.
    The other seven terms are 0 times an extended real, which is 0 whatever the factor. -/
theorem onehot_sum (sel : FVec Ideal S40x8 .f32) (row : FVec Ideal S1x8 .f32) (tilt : (⟨1, ![8]⟩ : Shape).Idx → EReal)
    (v : Fin 40) (k : Fin 8)
    (hsel : ∀ j : Fin 8, sel (ix2 v j) = if j = k then one else zero)
    (hrow : ∀ j : Fin 8, row (ix2 (0 : Fin 1) j) = tilt (ix1 j)) :
    shapeCast S40x1 (multiReduction (F := Ideal) .add [1] S40
        (mulf sel (broadcastTo S40x8 (shapeCast S1x8 row shapeCasts_S1x8_S1x8) broadcasts_S1x8_S40x8))
        0x00000000#32 reduces_S40x8_S40 (.inl rfl) rfl) shapeCasts_S40_S40x1 (ix2 v (0 : Fin 1)) = tilt (ix1 k) := by
  refine (shapeCast_a_a1_apply _ _ v 0).trans ?_
  refine (Ideal.multiReduction_add_single _ _ _ _ _ (ix1 v)).trans ?_
  show ∑ j : Fin 8, mulf sel (broadcastTo S40x8 (shapeCast S1x8 row shapeCasts_S1x8_S1x8) broadcasts_S1x8_S40x8)
      (reduces_S40x8_S40.lift (ix1 v) j) = _
  rw [Finset.sum_eq_single k]
  · rw [lift_eq, mulf_apply, hsel, if_pos rfl, one_eq, one_mul, broadcastTo_1b_ab_apply, shapeCast_self, hrow]
  · intro j _ hj
    rw [lift_eq, mulf_apply, hsel, if_neg hj, zero_eq, zero_mul]
  · intro hk; exact absurd (Finset.mem_univ k) hk

/-- The rotation in radians at view `v`. -/
theorem pay7_apply (x0 : FVec Ideal S40x1 .f32) (rot : (⟨1, ![40]⟩ : Shape).Idx → EReal) (v : Fin 40)
    (h0 : x0 (ix2 v (0 : Fin 1)) = rot (ix1 v)) :
    k0_pay7 (F := Ideal) x0 (ix2 v (0 : Fin 1)) = phi rot v := by
  show mulf (F := Ideal) (shapeCast S40x1 x0 shapeCasts_S40x1_S40x1) (broadcast S40x1 (Scalar.ofBits .f32 0x3C8EFA35#32))
    (ix2 v (0 : Fin 1)) = _
  rw [mulf_apply, shapeCast_self, h0]
  rfl

/-- The magnification in effect at view `v`. -/
theorem pay14_apply (x12 x1 : FVec Ideal S40x1 .f32) (mag : (⟨1, ![40]⟩ : Shape).Idx → EReal) (v : Fin 40)
    (h12 : x12 (ix2 v (0 : Fin 1)) = if v.val = 0 then one else zero)
    (h1 : x1 (ix2 v (0 : Fin 1)) = mag (ix1 v)) :
    k0_pay14 (F := Ideal) x12 x1 (ix2 v (0 : Fin 1)) = magE mag v := by
  show select (cmpf (F := Ideal) .ogt x12 (broadcast S40x1 (Scalar.ofBits .f32 0x3F000000#32)))
    (broadcast S40x1 (Scalar.ofBits .f32 0x3F800000#32)) (shapeCast S40x1 x1 shapeCasts_S40x1_S40x1) (ix2 v (0 : Fin 1)) = _
  rw [select_flag x12 _ _ v _ h12, shapeCast_self, h1]
  rfl

/-- The tilt's arithmetic on two columns `a` (the lower knot's angle) and `b` (the upper knot's), read at view `v`. -/
theorem tilt_core (a b fr kn f14 : FVec Ideal S40x1 .f32) (v : Fin 40) (ck c14 : Prop) [Decidable ck] [Decidable c14]
    (hk : kn (ix2 v (0 : Fin 1)) = if ck then one else zero)
    (h14 : f14 (ix2 v (0 : Fin 1)) = if c14 then one else zero) :
    mulf (F := Ideal) (select (cmpf (F := Ideal) .ogt kn (broadcast S40x1 (Scalar.ofBits .f32 0x3F000000#32))) a
        (select (cmpf (F := Ideal) .ogt f14 (broadcast S40x1 (Scalar.ofBits .f32 0x3F000000#32)))
          (broadcast S40x1 (Scalar.ofBits .f32 0xC1700000#32)) (addf a (mulf (subf b a) fr))))
      (broadcast S40x1 (Scalar.ofBits .f32 0x3C8EFA35#32)) (ix2 v (0 : Fin 1))
    = (if ck then a (ix2 v (0 : Fin 1)) else if c14 then minus15
        else a (ix2 v (0 : Fin 1)) + (b (ix2 v (0 : Fin 1)) - a (ix2 v (0 : Fin 1))) * fr (ix2 v (0 : Fin 1))) * deg2rad := by
  rw [mulf_apply, select_flag kn _ _ v ck hk, select_flag f14 _ _ v c14 h14]
  rfl

/-- The tilt in radians at view `v`. -/
theorem pay8_apply (x7 x8 : FVec Ideal S40x8 .f32) (x2 : FVec Ideal S1x8 .f32) (x9 x10 x11 : FVec Ideal S40x1 .f32)
    (tilt : (⟨1, ![8]⟩ : Shape).Idx → EReal) (v : Fin 40)
    (htilt : ∀ j : Fin 8, x2 (ix2 (0 : Fin 1) j) = tilt (ix1 j))
    (hsel1 : ∀ j : Fin 8, x7 (ix2 v j) = if j = lo v then one else zero)
    (hsel2 : ∀ j : Fin 8, x8 (ix2 v j) = if j = hi v then one else zero)
    (hfrac : x9 (ix2 v (0 : Fin 1)) = Ideal.ofBits .f32 (fracBits v))
    (hknot : x10 (ix2 v (0 : Fin 1)) = if isKnot v = true then one else zero)
    (h14 : x11 (ix2 v (0 : Fin 1)) = if v.val = 14 then one else zero) :
    k0_pay8 (F := Ideal) x7 x2 x8 x2 x9 x10 x11 (ix2 v (0 : Fin 1)) = theta tilt v := by
  unfold k0_pay8
  refine (tilt_core _ _ x9 x10 x11 v _ _ hknot h14).trans ?_
  rw [onehot_sum x7 x2 tilt v (lo v) hsel1 htilt, onehot_sum x8 x2 tilt v (hi v) hsel2 htilt, hfrac]
  rfl

/-- A column times a row, both spread over the 40 x 4 block, read at view `v` and marker `mk`. -/
theorem col_row_apply (c : FVec Ideal S40x1 .f32) (r : FVec Ideal S1x4 .f32) (v : Fin 40) (mk : Fin 4) :
    mulf (F := Ideal) (broadcastTo S40x4 c broadcasts_S40x1_S40x4)
      (broadcastTo S40x4 (shapeCast S1x4 r shapeCasts_S1x4_S1x4) broadcasts_S1x4_S40x4) (ix2 v mk)
    = c (ix2 v (0 : Fin 1)) * r (ix2 (0 : Fin 1) mk) := by
  rw [mulf_apply, broadcastTo_a1_ab_apply, broadcastTo_1b_ab_apply, shapeCast_self]

/-- The first coordinate's three products, summed, at view `v` and marker `mk`. -/
theorem pay18_apply (t c s ct x12 x1 : FVec Ideal S40x1 .f32) (x4 x5 x6 : FVec Ideal S1x4 .f32) (v : Fin 40) (mk : Fin 4) :
    k0_pay18 (F := Ideal) t c s ct x12 x1 x4 x5 x6 (ix2 v mk)
      = k0_pay14 (F := Ideal) x12 x1 (ix2 v (0 : Fin 1)) * c (ix2 v (0 : Fin 1)) * ct (ix2 v (0 : Fin 1)) * x4 (ix2 (0 : Fin 1) mk)
        + (zero - k0_pay14 (F := Ideal) x12 x1 (ix2 v (0 : Fin 1))) * s (ix2 v (0 : Fin 1)) * x5 (ix2 (0 : Fin 1) mk)
        + k0_pay14 (F := Ideal) x12 x1 (ix2 v (0 : Fin 1)) * c (ix2 v (0 : Fin 1)) * k0_pay12 (F := Ideal) t (ix2 v (0 : Fin 1))
            * x6 (ix2 (0 : Fin 1) mk) := by
  show addf (F := Ideal) (addf
      (mulf (broadcastTo S40x4 (mulf (mulf (k0_pay14 x12 x1) c) ct) broadcasts_S40x1_S40x4)
        (broadcastTo S40x4 (shapeCast S1x4 x4 shapeCasts_S1x4_S1x4) broadcasts_S1x4_S40x4))
      (mulf (broadcastTo S40x4 (mulf (subf (broadcast S40x1 (Scalar.ofBits .f32 0x00000000#32)) (k0_pay14 x12 x1)) s) broadcasts_S40x1_S40x4)
        (broadcastTo S40x4 (shapeCast S1x4 x5 shapeCasts_S1x4_S1x4) broadcasts_S1x4_S40x4)))
      (mulf (broadcastTo S40x4 (mulf (mulf (k0_pay14 x12 x1) c) (k0_pay12 t)) broadcasts_S40x1_S40x4)
        (broadcastTo S40x4 (shapeCast S1x4 x6 shapeCasts_S1x4_S1x4) broadcasts_S1x4_S40x4)) (ix2 v mk) = _
  rw [addf_apply, addf_apply, col_row_apply, col_row_apply, col_row_apply]
  rfl

/-- The second coordinate's first two products, summed. -/
theorem pay19_apply (c s ct x12 x1 : FVec Ideal S40x1 .f32) (x4 x5 : FVec Ideal S1x4 .f32) (v : Fin 40) (mk : Fin 4) :
    k0_pay19 (F := Ideal) c s ct x12 x1 x4 x5 (ix2 v mk)
      = k0_pay14 (F := Ideal) x12 x1 (ix2 v (0 : Fin 1)) * s (ix2 v (0 : Fin 1)) * ct (ix2 v (0 : Fin 1)) * x4 (ix2 (0 : Fin 1) mk)
        + k0_pay14 (F := Ideal) x12 x1 (ix2 v (0 : Fin 1)) * c (ix2 v (0 : Fin 1)) * x5 (ix2 (0 : Fin 1) mk) := by
  show addf (F := Ideal)
      (mulf (broadcastTo S40x4 (mulf (mulf (k0_pay14 x12 x1) s) ct) broadcasts_S40x1_S40x4)
        (broadcastTo S40x4 (shapeCast S1x4 x4 shapeCasts_S1x4_S1x4) broadcasts_S1x4_S40x4))
      (mulf (broadcastTo S40x4 (mulf (k0_pay14 x12 x1) c) broadcasts_S40x1_S40x4)
        (broadcastTo S40x4 (shapeCast S1x4 x5 shapeCasts_S1x4_S1x4) broadcasts_S1x4_S40x4)) (ix2 v mk) = _
  rw [addf_apply, col_row_apply, col_row_apply]
  rfl

/-- The second coordinate's third product. -/
theorem pay20_apply (t s x12 x1 : FVec Ideal S40x1 .f32) (x6 : FVec Ideal S1x4 .f32) (v : Fin 40) (mk : Fin 4) :
    k0_pay20 (F := Ideal) t s x12 x1 x6 (ix2 v mk)
      = k0_pay14 (F := Ideal) x12 x1 (ix2 v (0 : Fin 1)) * s (ix2 v (0 : Fin 1)) * k0_pay12 (F := Ideal) t (ix2 v (0 : Fin 1))
          * x6 (ix2 (0 : Fin 1) mk) := by
  show mulf (F := Ideal) (broadcastTo S40x4 (mulf (mulf (k0_pay14 x12 x1) s) (k0_pay12 t)) broadcasts_S40x1_S40x4)
        (broadcastTo S40x4 (shapeCast S1x4 x6 shapeCasts_S1x4_S1x4) broadcasts_S1x4_S40x4) (ix2 v mk) = _
  rw [col_row_apply]
  rfl

/-- The first result: the summed products plus the offset in effect (0 at view 0). -/
theorem pay1_apply (x12 : FVec Ideal S40x1 .f32) (a : FVec Ideal S40x4 .f32) (c0 : FVec Ideal S40x1 .f32) (v : Fin 40) (mk : Fin 4)
    (h12 : x12 (ix2 v (0 : Fin 1)) = if v.val = 0 then one else zero) :
    k0_pay1 (F := Ideal) (k0_pay13 (F := Ideal) x12) a c0 (ix2 v mk)
      = a (ix2 v mk) + (if v.val = 0 then zero else c0 (ix2 v (0 : Fin 1))) := by
  show addf (F := Ideal) a (broadcastTo S40x4 (select (cmpf (F := Ideal) .ogt x12 (broadcast S40x1 (Scalar.ofBits .f32 0x3F000000#32)))
      (broadcast S40x1 (Scalar.ofBits .f32 0x00000000#32)) c0) broadcasts_S40x1_S40x4) (ix2 v mk) = _
  rw [addf_apply, broadcastTo_a1_ab_apply, select_flag x12 _ _ v _ h12]
  rfl

/-- The second result likewise. -/
theorem pay2_apply (x12 : FVec Ideal S40x1 .f32) (a b : FVec Ideal S40x4 .f32) (c1 : FVec Ideal S40x1 .f32) (v : Fin 40) (mk : Fin 4)
    (h12 : x12 (ix2 v (0 : Fin 1)) = if v.val = 0 then one else zero) :
    k0_pay2 (F := Ideal) (k0_pay13 (F := Ideal) x12) a b c1 (ix2 v mk)
      = a (ix2 v mk) + b (ix2 v mk) + (if v.val = 0 then zero else c1 (ix2 v (0 : Fin 1))) := by
  show addf (F := Ideal) (addf a b) (broadcastTo S40x4 (select (cmpf (F := Ideal) .ogt x12 (broadcast S40x1 (Scalar.ofBits .f32 0x3F000000#32)))
      (broadcast S40x1 (Scalar.ofBits .f32 0x00000000#32)) c1) broadcasts_S40x1_S40x4) (ix2 v mk) = _
  rw [addf_apply, addf_apply, broadcastTo_a1_ab_apply, select_flag x12 _ _ v _ h12]
  rfl

section
variable (x0 x1 : Vec Ideal S40x1 .f32) (x2 : Vec Ideal S1x8 .f32) (c0 c1 : Vec Ideal S40x1 .f32)
  (x4 x5 x6 : Vec Ideal S1x4 .f32) (x7 x8 : Vec Ideal S40x8 .f32) (x9 x10 x11 x12 : Vec Ideal S40x1 .f32)
  (rot mag : (⟨1, ![40]⟩ : Shape).Idx → EReal) (xyz : (⟨2, ![4, 3]⟩ : Shape).Idx → EReal)
  (tilt : (⟨1, ![8]⟩ : Shape).Idx → EReal) (off : (⟨2, ![40, 2]⟩ : Shape).Idx → EReal)

/-- What the body's input blocks hold, entry by entry. -/
structure Blocks : Prop where
  rot : ∀ v : Fin 40, x0 (ix2 v (0 : Fin 1)) = rot (ix1 v)
  mag : ∀ v : Fin 40, x1 (ix2 v (0 : Fin 1)) = mag (ix1 v)
  tilt : ∀ j : Fin 8, x2 (ix2 (0 : Fin 1) j) = tilt (ix1 j)
  off0 : ∀ v : Fin 40, c0 (ix2 v (0 : Fin 1)) = off (ix2 v (0 : Fin 2))
  off1 : ∀ v : Fin 40, c1 (ix2 v (0 : Fin 1)) = off (ix2 v (1 : Fin 2))
  xs0 : ∀ mk : Fin 4, x4 (ix2 (0 : Fin 1) mk) = xyz (ix2 mk (0 : Fin 3))
  xs1 : ∀ mk : Fin 4, x5 (ix2 (0 : Fin 1) mk) = xyz (ix2 mk (1 : Fin 3))
  xs2 : ∀ mk : Fin 4, x6 (ix2 (0 : Fin 1) mk) = xyz (ix2 mk (2 : Fin 3))
  sel1 : ∀ (v : Fin 40) (j : Fin 8), x7 (ix2 v j) = if j = lo v then one else zero
  sel2 : ∀ (v : Fin 40) (j : Fin 8), x8 (ix2 v j) = if j = hi v then one else zero
  frac : ∀ v : Fin 40, x9 (ix2 v (0 : Fin 1)) = Ideal.ofBits .f32 (fracBits v)
  knot : ∀ v : Fin 40, x10 (ix2 v (0 : Fin 1)) = if isKnot v = true then one else zero
  is14 : ∀ v : Fin 40, x11 (ix2 v (0 : Fin 1)) = if v.val = 14 then one else zero
  is0 : ∀ v : Fin 40, x12 (ix2 v (0 : Fin 1)) = if v.val = 0 then one else zero

/-- The first coordinates: the body's `%91`. -/
theorem payU_apply (h : Blocks x0 x1 x2 c0 c1 x4 x5 x6 x7 x8 x9 x10 x11 x12 rot mag xyz tilt off) (v : Fin 40) (mk : Fin 4) :
    k0_pay1 (F := Ideal) (k0_pay13 x12)
        (k0_pay18 (k0_pay8 x7 x2 x8 x2 x9 x10 x11) (k0_pay9 x0) (k0_pay10 x0) (k0_pay11 x7 x2 x8 x2 x9 x10 x11) x12 x1 x4 x5 x6)
        c0 (ix2 v mk)
      = proj rot mag xyz tilt off v mk 0 := by
  have hth := pay8_apply x7 x8 x2 x9 x10 x11 tilt v h.tilt (h.sel1 v) (h.sel2 v) (h.frac v) (h.knot v) (h.is14 v)
  have hph := pay7_apply x0 rot v (h.rot v)
  have hM := pay14_apply x12 x1 mag v (h.is0 v) (h.mag v)
  have h9 : k0_pay9 (F := Ideal) x0 (ix2 v (0 : Fin 1)) = Ideal.cos (phi rot v) := congrArg Ideal.cos hph
  have h10 : k0_pay10 (F := Ideal) x0 (ix2 v (0 : Fin 1)) = Ideal.sin (phi rot v) := congrArg Ideal.sin hph
  have h11 : k0_pay11 (F := Ideal) x7 x2 x8 x2 x9 x10 x11 (ix2 v (0 : Fin 1)) = Ideal.cos (theta tilt v) := congrArg Ideal.cos hth
  have h12 : k0_pay12 (F := Ideal) (k0_pay8 x7 x2 x8 x2 x9 x10 x11) (ix2 v (0 : Fin 1)) = Ideal.sin (theta tilt v) :=
    congrArg Ideal.sin hth
  rw [pay1_apply x12 _ c0 v mk (h.is0 v), pay18_apply, hM, h9, h10, h11, h12, h.xs0, h.xs1, h.xs2, h.off0]
  rfl

/-- The second coordinates: the body's `%93`. -/
theorem payV_apply (h : Blocks x0 x1 x2 c0 c1 x4 x5 x6 x7 x8 x9 x10 x11 x12 rot mag xyz tilt off) (v : Fin 40) (mk : Fin 4) :
    k0_pay2 (F := Ideal) (k0_pay13 x12)
        (k0_pay19 (k0_pay9 x0) (k0_pay10 x0) (k0_pay11 x7 x2 x8 x2 x9 x10 x11) x12 x1 x4 x5)
        (k0_pay20 (k0_pay8 x7 x2 x8 x2 x9 x10 x11) (k0_pay10 x0) x12 x1 x6)
        c1 (ix2 v mk)
      = proj rot mag xyz tilt off v mk 1 := by
  have hth := pay8_apply x7 x8 x2 x9 x10 x11 tilt v h.tilt (h.sel1 v) (h.sel2 v) (h.frac v) (h.knot v) (h.is14 v)
  have hph := pay7_apply x0 rot v (h.rot v)
  have hM := pay14_apply x12 x1 mag v (h.is0 v) (h.mag v)
  have h9 : k0_pay9 (F := Ideal) x0 (ix2 v (0 : Fin 1)) = Ideal.cos (phi rot v) := congrArg Ideal.cos hph
  have h10 : k0_pay10 (F := Ideal) x0 (ix2 v (0 : Fin 1)) = Ideal.sin (phi rot v) := congrArg Ideal.sin hph
  have h11 : k0_pay11 (F := Ideal) x7 x2 x8 x2 x9 x10 x11 (ix2 v (0 : Fin 1)) = Ideal.cos (theta tilt v) := congrArg Ideal.cos hth
  have h12 : k0_pay12 (F := Ideal) (k0_pay8 x7 x2 x8 x2 x9 x10 x11) (ix2 v (0 : Fin 1)) = Ideal.sin (theta tilt v) :=
    congrArg Ideal.sin hth
  rw [pay2_apply x12 _ _ c1 v mk (h.is0 v), pay19_apply, pay20_apply, hM, h9, h10, h11, h12, h.xs0, h.xs1, h.xs2, h.off1]
  rfl

end

end Cert.KerBody

end
-- ==== Proof.KerValue.lean ====
/-
  The kernel program's run: every weakly fair execution terminates with the result buffer at the specification's
  function of the argument arrays, the arguments unchanged.

  The kernel has one grid point and every window's block is its whole array.  The body stores four row blocks into
  the [142, 2] result: rows 0 .. 39 (marker 0), 40 .. 61 (marker 1, views 18 .. 39), 62 .. 101 (marker 2) and
  102 .. 141 (marker 3); each stored block is column mk of the [40, 4] array of first coordinates beside column mk of
  the array of second coordinates.  So each stored block is a block of ONE function of the result's index, the
  specification's, and the four blocks tile the result.
-/
import proofs.«167565_j19318762897522_1_alg».proof.Proof.Gen.KernelIdeal.Value
import proofs.«167565_j19318762897522_1_alg».proof.Proof.Spec
import proofs.«167565_j19318762897522_1_alg».proof.Proof.KerBody
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KerValue

open Cert.KernelIdeal Cert.KernelIdeal.Gen Idealize.ShloMosaic Idealize.ShloMosaic.TcCoe Idealize.SL.Sem
open Idealize.ShloMosaic.ValueIdx
open Idealize.ShloMosaic.Pipeline (Dat)

/-! ## Two columns side by side -/

/-- Rows `ro .. ro + n - 1` of column `co` of `U` set beside the same rows of the same column of `W`, read at row `r` and
    side `p`. -/
theorem join_apply {α : Type} (n ro co : ℕ) (hro : ro + n ≤ 40) (hco : co < 4)
    (U W : (⟨2, ![40, 4]⟩ : Shape).Idx → α)
    (hs : (⟨2, ![40, 4]⟩ : Shape).Slices ![ro, co] ⟨2, ![n, 1]⟩)
    (hc : Shape.Concatenates [(⟨2, ![n, 1]⟩ : Shape), ⟨2, ![n, 1]⟩] ⟨2, ![n, 2]⟩ 1) (r : Fin n) (p : Fin 2) :
    concatenate ⟨2, ![n, 2]⟩ 1
        [⟨⟨2, ![n, 1]⟩, extractStridedSlice ⟨2, ![n, 1]⟩ ![ro, co] U hs⟩,
         ⟨⟨2, ![n, 1]⟩, extractStridedSlice ⟨2, ![n, 1]⟩ ![ro, co] W hs⟩] hc (ix2 r p)
      = if p.val = 0 then U (ix2 (⟨ro + r.val, by omega⟩ : Fin 40) (⟨co, hco⟩ : Fin 4))
        else W (ix2 (⟨ro + r.val, by omega⟩ : Fin 40) (⟨co, hco⟩ : Fin 4)) := by
  have hr := r.isLt
  match p with
  | ⟨0, _⟩ =>
    rw [if_pos rfl]
    refine (concatenate_pair_apply_left (t := ⟨2, ![n, 2]⟩) (s₁ := ⟨2, ![n, 1]⟩) (s₂ := ⟨2, ![n, 1]⟩) (1 : Fin 2) _ _ hc (ix2 r (0 : Fin 2)) rfl (ix2 r (0 : Fin 1)) ?_).trans ?_
    · intro b; match b with | ⟨0, _⟩ => rfl | ⟨1, _⟩ => rfl
    · refine extractStridedSlice_apply _ U hs _ _ ?_
      intro a; match a with | ⟨0, _⟩ => rfl | ⟨1, _⟩ => rfl
  | ⟨1, _⟩ =>
    rw [if_neg (show ¬ (1 : ℕ) = 0 by decide)]
    refine (concatenate_pair_apply_right (t := ⟨2, ![n, 2]⟩) (s₁ := ⟨2, ![n, 1]⟩) (s₂ := ⟨2, ![n, 1]⟩) (1 : Fin 2) _ _ hc (ix2 r (1 : Fin 2)) rfl rfl (ix2 r (0 : Fin 1)) ?_ ?_).trans ?_
    · intro b hb; match b with | ⟨0, _⟩ => rfl | ⟨1, _⟩ => exact absurd rfl hb
    · rfl
    · refine extractStridedSlice_apply _ W hs _ _ ?_
      intro a; match a with | ⟨0, _⟩ => rfl | ⟨1, _⟩ => rfl

/-! ## What the body leaves in the result's staging buffer -/

theorem hz2 : (![0, 0] : Fin 2 → Nat) = fun _ => 0 := funext fun a => by fin_cases a <;> rfl

section Pieces
variable (rot mag : (⟨1, ![40]⟩ : Shape).Idx → EReal) (xyz : (⟨2, ![4, 3]⟩ : Shape).Idx → EReal)
  (tilt : (⟨1, ![8]⟩ : Shape).Idx → EReal) (off : (⟨2, ![40, 2]⟩ : Shape).Idx → EReal)

/-- One stored block: rows `base .. base + n - 1` of the result hold, for marker `co`, the views `ro .. ro + n - 1`;
    the block stored there is column `co` of the first coordinates `U` beside column `co` of the second coordinates `W`,
    rows `ro ..`: it is the specification's function at those rows. -/
theorem piece_eq (n ro co base : ℕ) (hro : ro + n ≤ 40) (hco : co < 4) (hb : base + n ≤ 142)
    (hV : ∀ (r : ℕ) (h : r < n), Cert.Spec.rowV ⟨base + r, by omega⟩ = ⟨ro + r, by omega⟩)
    (hM : ∀ (r : ℕ) (h : r < n), Cert.Spec.rowMk ⟨base + r, by omega⟩ = ⟨co, hco⟩)
    (U W : (⟨2, ![40, 4]⟩ : Shape).Idx → EReal)
    (hU : ∀ (v : Fin 40) (mk : Fin 4), U (ix2 v mk) = Cert.Spec.proj rot mag xyz tilt off v mk 0)
    (hW : ∀ (v : Fin 40) (mk : Fin 4), W (ix2 v mk) = Cert.Spec.proj rot mag xyz tilt off v mk 1)
    (hs : (⟨2, ![40, 4]⟩ : Shape).Slices ![ro, co] ⟨2, ![n, 1]⟩)
    (hc : Shape.Concatenates [(⟨2, ![n, 1]⟩ : Shape), ⟨2, ![n, 1]⟩] ⟨2, ![n, 2]⟩ 1)
    (inb : ∀ a, (![base, 0] : Fin 2 → ℕ) a + (![n, 2] : Fin 2 → ℕ) a ≤ (⟨2, ![142, 2]⟩ : Shape).size a)
    (x : (Rect.unit (s := ⟨2, ![142, 2]⟩) ![base, 0] ![n, 2] inb).shape.Idx) :
    concatenate ⟨2, ![n, 2]⟩ 1
        [⟨⟨2, ![n, 1]⟩, extractStridedSlice ⟨2, ![n, 1]⟩ ![ro, co] U hs⟩,
         ⟨⟨2, ![n, 1]⟩, extractStridedSlice ⟨2, ![n, 1]⟩ ![ro, co] W hs⟩] hc x
      = Cert.Spec.out rot mag xyz tilt off ((Rect.unit (s := ⟨2, ![142, 2]⟩) ![base, 0] ![n, 2] inb).emb x) := by
  obtain ⟨r, p, rfl⟩ : ∃ (r : Fin n) (p : Fin 2), x = ix2 r p := ⟨x 0, x 1, eq_ix2 x⟩
  have hr := r.isLt
  have he : (Rect.unit (s := ⟨2, ![142, 2]⟩) ![base, 0] ![n, 2] inb).emb (ix2 r p)
      = ix2 (⟨base + r.val, by omega⟩ : Fin 142) p := by
    funext a
    apply Fin.ext
    match a with
    | ⟨0, _⟩ => show base + 1 * r.val = base + r.val; omega
    | ⟨1, _⟩ => show 0 + 1 * p.val = p.val; omega
  rw [he, join_apply n ro co hro hco U W hs hc r p]
  show _ = Cert.Spec.proj rot mag xyz tilt off (Cert.Spec.rowV ⟨base + r.val, _⟩) (Cert.Spec.rowMk ⟨base + r.val, _⟩) p
  rw [hV r.val hr, hM r.val hr, hU, hW]
  match p with
  | ⟨0, _⟩ => rfl
  | ⟨1, _⟩ => rfl

theorem out_A_eq (c : Dev nD) (i : grid0.Coords) (arg1 : Memref sig .tc .vmem S40x1 .f32) (harg1 : arg1.IsWhole) (arg2 : Memref sig .tc .vmem S40x1 .f32) (harg2 : arg2.IsWhole) (arg3 : Memref sig .tc .vmem S1x8 .f32) (harg3 : arg3.IsWhole) (arg4 : Memref sig .tc .vmem S40x2 .f32) (harg4 : arg4.IsWhole) (arg5 : Memref sig .tc .vmem S1x4 .f32) (harg5 : arg5.IsWhole) (arg6 : Memref sig .tc .vmem S1x4 .f32) (harg6 : arg6.IsWhole) (arg7 : Memref sig .tc .vmem S1x4 .f32) (harg7 : arg7.IsWhole) (arg8 : Memref sig .tc .vmem S40x8 .f32) (harg8 : arg8.IsWhole) (arg9 : Memref sig .tc .vmem S40x8 .f32) (harg9 : arg9.IsWhole) (arg10 : Memref sig .tc .vmem S40x1 .f32) (harg10 : arg10.IsWhole) (arg11 : Memref sig .tc .vmem S40x1 .f32) (harg11 : arg11.IsWhole) (arg12 : Memref sig .tc .vmem S40x1 .f32) (harg12 : arg12.IsWhole) (arg13 : Memref sig .tc .vmem S40x1 .f32) (harg13 : arg13.IsWhole) (arg14 : Memref sig .tc .vmem S142x2 .f32) (harg14 : arg14.IsWhole)
    (x0 : Vec Ideal S40x1 .f32) (x1 : Vec Ideal S40x1 .f32) (x2 : Vec Ideal S1x8 .f32) (x3 : Vec Ideal S40x2 .f32) (x4 : Vec Ideal S1x4 .f32) (x5 : Vec Ideal S1x4 .f32) (x6 : Vec Ideal S1x4 .f32) (x7 : Vec Ideal S40x8 .f32) (x8 : Vec Ideal S40x8 .f32) (x9 : Vec Ideal S40x1 .f32) (x10 : Vec Ideal S40x1 .f32) (x11 : Vec Ideal S40x1 .f32) (x12 : Vec Ideal S40x1 .f32)
    (hB : Cert.KerBody.Blocks x0 x1 x2 (View.ld x3 (Rect.unit ![0, 0] ![40, 1] inb_S40x2_S40x1_0_0))
      (View.ld x3 (Rect.unit ![0, 1] ![40, 1] inb_S40x2_S40x1_0_1)) x4 x5 x6 x7 x8 x9 x10 x11 x12 rot mag xyz tilt off) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 = Cert.Spec.out rot mag xyz tilt off := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12)]
  funext y
  refine View.canon_apply_of_pieces (Cert.Spec.out rot mag xyz tilt off) _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 y)
  unfold kernelRun0_A
  dsimp only
  sl_unfold_words
  simp only [View.readAt_eq_ld, harg1.read_unread, harg2.read_unread, harg3.read_unread, harg4.read_unread, harg5.read_unread,
    harg6.read_unread, harg7.read_unread, harg8.read_unread, harg9.read_unread, harg10.read_unread, harg11.read_unread,
    harg12.read_unread, harg13.read_unread,
    View.ld_unit_zero (S := S40x1) hz2, View.ld_unit_zero (S := S1x8) hz2, View.ld_unit_zero (S := S1x4) hz2,
    View.ld_unit_zero (S := S40x8) hz2]
  have hU := Cert.KerBody.payU_apply _ _ _ _ _ _ _ _ _ _ _ _ _ _ rot mag xyz tilt off hB
  have hW := Cert.KerBody.payV_apply _ _ _ _ _ _ _ _ _ _ _ _ _ _ rot mag xyz tilt off hB
  intro p hp
  simp only [List.mem_cons, List.mem_nil_iff, or_false] at hp
  rcases hp with rfl | rfl | rfl | rfl
  · intro x
    unfold k0_pay6
    exact piece_eq rot mag xyz tilt off 40 0 3 102 (by omega) (by omega) (by omega)
      (fun r h => by
        unfold Cert.Spec.rowV
        rw [dif_neg (show ¬ 102 + r < 40 by omega), dif_neg (show ¬ 102 + r < 62 by omega), dif_neg (show ¬ 102 + r < 102 by omega)]
        exact Fin.ext (show 102 + r - 102 = 0 + r by omega))
      (fun r h => by
        unfold Cert.Spec.rowMk
        rw [if_neg (show ¬ 102 + r < 40 by omega), if_neg (show ¬ 102 + r < 62 by omega), if_neg (show ¬ 102 + r < 102 by omega)]
        rfl)
      _ _ hU hW slices_S40x4_o0_3_S40x1 concatenates_S40x1_S40x1_S40x2_d1 inb_S142x2_S40x2_102_0 x
  · intro x
    unfold k0_pay5
    exact piece_eq rot mag xyz tilt off 40 0 2 62 (by omega) (by omega) (by omega)
      (fun r h => by
        unfold Cert.Spec.rowV
        rw [dif_neg (show ¬ 62 + r < 40 by omega), dif_neg (show ¬ 62 + r < 62 by omega), dif_pos (show 62 + r < 102 by omega)]
        exact Fin.ext (show 62 + r - 62 = 0 + r by omega))
      (fun r h => by
        unfold Cert.Spec.rowMk
        rw [if_neg (show ¬ 62 + r < 40 by omega), if_neg (show ¬ 62 + r < 62 by omega), if_pos (show 62 + r < 102 by omega)]
        rfl)
      _ _ hU hW slices_S40x4_o0_2_S40x1 concatenates_S40x1_S40x1_S40x2_d1 inb_S142x2_S40x2_62_0 x
  · intro x
    unfold k0_pay4
    exact piece_eq rot mag xyz tilt off 22 18 1 40 (by omega) (by omega) (by omega)
      (fun r h => by
        unfold Cert.Spec.rowV
        rw [dif_neg (show ¬ 40 + r < 40 by omega), dif_pos (show 40 + r < 62 by omega)]
        exact Fin.ext (show 40 + r - 22 = 18 + r by omega))
      (fun r h => by
        unfold Cert.Spec.rowMk
        rw [if_neg (show ¬ 40 + r < 40 by omega), if_pos (show 40 + r < 62 by omega)]
        rfl)
      _ _ hU hW slices_S40x4_o18_1_S22x1 concatenates_S22x1_S22x1_S22x2_d1 inb_S142x2_S22x2_40_0 x
  · intro x
    unfold k0_pay3
    exact piece_eq rot mag xyz tilt off 40 0 0 0 (by omega) (by omega) (by omega)
      (fun r h => by
        unfold Cert.Spec.rowV
        rw [dif_pos (show 0 + r < 40 by omega)])
      (fun r h => by
        unfold Cert.Spec.rowMk
        rw [if_pos (show 0 + r < 40 by omega)]
        rfl)
      _ _ hU hW slices_S40x4_o0_0_S40x1 concatenates_S40x1_S40x1_S40x2_d1 inb_S142x2_S40x2_0_0 x

end Pieces

/-! ## The blocks the body is called with

The grid has one point and every window's block is its whole array: a block's entry is the array's entry at the same
coordinates.  The arrays the region finds are the arguments re-laid by the host operations before it (two vectors as
columns, one as a row, the three rows of the transposed marker table) and six constant tables. -/

section Blocks
variable (m : (ℓ : Loc nD τ sig) → Buf (Elt Ideal) ℓ)

/-- The rotation angles as a 40 x 1 column. -/
theorem V_v0 (c : Dev nD) : (V m c main_v0 : S40x1.Idx → EReal)
    = shapeCast S40x1 (m ((c : Thread nD τ).loc main_arg0)) shapeCasts_S40_S40x1 := by
  dsimp only [V, hostOps0]
  after_results
  rfl

/-- The magnifications as a 40 x 1 column. -/
theorem V_v1 (c : Dev nD) : (V m c main_v1 : S40x1.Idx → EReal)
    = shapeCast S40x1 (m ((c : Thread nD τ).loc main_arg1)) shapeCasts_S40_S40x1 := by
  dsimp only [V, hostOps0]
  after_results
  rfl

/-- The knots' tilt angles as a 1 x 8 row. -/
theorem V_v2 (c : Dev nD) : (V m c main_v2 : S1x8.Idx → EReal)
    = shapeCast S1x8 (m ((c : Thread nD τ).loc main_arg3)) shapeCasts_S8_S1x8 := by
  dsimp only [V, hostOps0]
  after_results
  rfl

/-- Row `k` of the transposed marker table, k = 0, 1, 2. -/
theorem V_v4 (c : Dev nD) : (V m c main_v4 : S1x4.Idx → EReal)
    = extractStridedSlice S1x4 ![0, 0] (transpose S3x4 [1, 0] (m ((c : Thread nD τ).loc main_arg2)) transposes_S4x3_S3x4_1_0) slices_S3x4_S1x4_0_0 := by
  dsimp only [V, hostOps0]
  after_results
theorem V_v5 (c : Dev nD) : (V m c main_v5 : S1x4.Idx → EReal)
    = extractStridedSlice S1x4 ![1, 0] (transpose S3x4 [1, 0] (m ((c : Thread nD τ).loc main_arg2)) transposes_S4x3_S3x4_1_0) slices_S3x4_S1x4_1_0 := by
  dsimp only [V, hostOps0]
  after_results
theorem V_v6 (c : Dev nD) : (V m c main_v6 : S1x4.Idx → EReal)
    = extractStridedSlice S1x4 ![2, 0] (transpose S3x4 [1, 0] (m ((c : Thread nD τ).loc main_arg2)) transposes_S4x3_S3x4_1_0) slices_S3x4_S1x4_2_0 := by
  dsimp only [V, hostOps0]
  after_results

/-- The six constant tables. -/
theorem V_cst (c : Dev nD) : (V m c main_cst : S40x8.Idx → EReal) = fun i => Ideal.ofBits .f32 (lit0 (S40x8.rowMajor i)) := by
  dsimp only [V, hostOps0]
  after_results
  rfl
theorem V_cst_0 (c : Dev nD) : (V m c main_cst_0 : S40x8.Idx → EReal) = fun i => Ideal.ofBits .f32 (lit1 (S40x8.rowMajor i)) := by
  dsimp only [V, hostOps0]
  after_results
  rfl
theorem V_cst_1 (c : Dev nD) : (V m c main_cst_1 : S40x1.Idx → EReal) = fun i => Ideal.ofBits .f32 (lit2 (S40x1.rowMajor i)) := by
  dsimp only [V, hostOps0]
  after_results
  rfl
theorem V_cst_2 (c : Dev nD) : (V m c main_cst_2 : S40x1.Idx → EReal) = fun i => Ideal.ofBits .f32 (lit3 (S40x1.rowMajor i)) := by
  dsimp only [V, hostOps0]
  after_results
  rfl
theorem V_cst_3 (c : Dev nD) : (V m c main_cst_3 : S40x1.Idx → EReal) = fun i => Ideal.ofBits .f32 (lit4 (S40x1.rowMajor i)) := by
  dsimp only [V, hostOps0]
  after_results
  rfl
theorem V_cst_4 (c : Dev nD) : (V m c main_cst_4 : S40x1.Idx → EReal) = fun i => Ideal.ofBits .f32 (lit5 (S40x1.rowMajor i)) := by
  dsimp only [V, hostOps0]
  after_results
  rfl

theorem blk0 (c : Dev nD) (t : Fin cfg0.N) (v : Fin 40) :
    (iblk m c 0 t : Vec Ideal S40x1 .f32) (ix2 v (0 : Fin 1)) = m ((c : Thread nD τ).loc main_arg0) (ix1 v) := by
  obtain rfl := fin_N0 t
  unfold iblk
  rw [View.read_apply]
  show (V m c main_v0 : S40x1.Idx → EReal) _ = _
  rw [V_v0]
  refine shapeCast_apply _ _ _ (ix1 v) ?_
  rw [Shape.rowMajor_val_one, Shape.rowMajor_val_two]
  show v.val = (win0_0.index t0_0 0 * 40 + 1 * v.val) * 1 + (win0_0.index t0_0 1 * 1 + 1 * 0)
  have h0 : win0_0.index t0_0 0 = 0 := by decide
  have h1 : win0_0.index t0_0 1 = 0 := by decide
  rw [h0, h1]; omega

theorem blk1 (c : Dev nD) (t : Fin cfg0.N) (v : Fin 40) :
    (iblk m c 1 t : Vec Ideal S40x1 .f32) (ix2 v (0 : Fin 1)) = m ((c : Thread nD τ).loc main_arg1) (ix1 v) := by
  obtain rfl := fin_N0 t
  unfold iblk
  rw [View.read_apply]
  show (V m c main_v1 : S40x1.Idx → EReal) _ = _
  rw [V_v1]
  refine shapeCast_apply _ _ _ (ix1 v) ?_
  rw [Shape.rowMajor_val_one, Shape.rowMajor_val_two]
  show v.val = (win0_1.index t0_0 0 * 40 + 1 * v.val) * 1 + (win0_1.index t0_0 1 * 1 + 1 * 0)
  have h0 : win0_1.index t0_0 0 = 0 := by decide
  have h1 : win0_1.index t0_0 1 = 0 := by decide
  rw [h0, h1]; omega

theorem blk2 (c : Dev nD) (t : Fin cfg0.N) (j : Fin 8) :
    (iblk m c 2 t : Vec Ideal S1x8 .f32) (ix2 (0 : Fin 1) j) = m ((c : Thread nD τ).loc main_arg3) (ix1 j) := by
  obtain rfl := fin_N0 t
  unfold iblk
  rw [View.read_apply]
  show (V m c main_v2 : S1x8.Idx → EReal) _ = _
  rw [V_v2]
  refine shapeCast_apply _ _ _ (ix1 j) ?_
  rw [Shape.rowMajor_val_one, Shape.rowMajor_val_two]
  show j.val = (win0_2.index t0_0 0 * 1 + 1 * 0) * 8 + (win0_2.index t0_0 1 * 8 + 1 * j.val)
  have h0 : win0_2.index t0_0 0 = 0 := by decide
  have h1 : win0_2.index t0_0 1 = 0 := by decide
  rw [h0, h1]; omega

theorem blk3 (c : Dev nD) (t : Fin cfg0.N) (v : Fin 40) (p : Fin 2) :
    (iblk m c 3 t : Vec Ideal S40x2 .f32) (ix2 v p) = m ((c : Thread nD τ).loc main_arg4) (ix2 v p) := by
  obtain rfl := fin_N0 t
  unfold iblk
  rw [View.read_apply]
  show (V m c main_arg4 : S40x2.Idx → EReal) _ = _
  rw [V_main_arg4]
  refine congrArg _ (funext fun a => Fin.ext ?_)
  have h0 : win0_3.index t0_0 0 = 0 := by decide
  have h1 : win0_3.index t0_0 1 = 0 := by decide
  match a with
  | ⟨0, _⟩ => show win0_3.index t0_0 0 * 40 + 1 * v.val = v.val; rw [h0]; omega
  | ⟨1, _⟩ => show win0_3.index t0_0 1 * 2 + 1 * p.val = p.val; rw [h1]; omega

/-- A marker-table row block: row `k` of the transposed table at marker `mk` is the table at (mk, k). -/
theorem blk4 (c : Dev nD) (t : Fin cfg0.N) (mk : Fin 4) :
    (iblk m c 4 t : Vec Ideal S1x4 .f32) (ix2 (0 : Fin 1) mk) = m ((c : Thread nD τ).loc main_arg2) (ix2 mk (0 : Fin 3)) := by
  obtain rfl := fin_N0 t
  unfold iblk
  rw [View.read_apply]
  show (V m c main_v4 : S1x4.Idx → EReal) _ = _
  rw [V_v4]
  have h0 : win0_4.index t0_0 0 = 0 := by decide
  have h1 : win0_4.index t0_0 1 = 0 := by decide
  refine (extractStridedSlice_apply _ _ _ _ (ix2 (0 : Fin 3) mk) ?_).trans (transpose_ix2_apply _ _ _ _)
  intro a
  match a with
  | ⟨0, _⟩ => show 0 = 0 + (win0_4.index t0_0 0 * 1 + 1 * 0); rw [h0]
  | ⟨1, _⟩ => show mk.val = 0 + (win0_4.index t0_0 1 * 4 + 1 * mk.val); rw [h1]; omega

theorem blk5 (c : Dev nD) (t : Fin cfg0.N) (mk : Fin 4) :
    (iblk m c 5 t : Vec Ideal S1x4 .f32) (ix2 (0 : Fin 1) mk) = m ((c : Thread nD τ).loc main_arg2) (ix2 mk (1 : Fin 3)) := by
  obtain rfl := fin_N0 t
  unfold iblk
  rw [View.read_apply]
  show (V m c main_v5 : S1x4.Idx → EReal) _ = _
  rw [V_v5]
  have h0 : win0_5.index t0_0 0 = 0 := by decide
  have h1 : win0_5.index t0_0 1 = 0 := by decide
  refine (extractStridedSlice_apply _ _ _ _ (ix2 (1 : Fin 3) mk) ?_).trans (transpose_ix2_apply _ _ _ _)
  intro a
  match a with
  | ⟨0, _⟩ => show 1 = 1 + (win0_5.index t0_0 0 * 1 + 1 * 0); rw [h0]
  | ⟨1, _⟩ => show mk.val = 0 + (win0_5.index t0_0 1 * 4 + 1 * mk.val); rw [h1]; omega

theorem blk6 (c : Dev nD) (t : Fin cfg0.N) (mk : Fin 4) :
    (iblk m c 6 t : Vec Ideal S1x4 .f32) (ix2 (0 : Fin 1) mk) = m ((c : Thread nD τ).loc main_arg2) (ix2 mk (2 : Fin 3)) := by
  obtain rfl := fin_N0 t
  unfold iblk
  rw [View.read_apply]
  show (V m c main_v6 : S1x4.Idx → EReal) _ = _
  rw [V_v6]
  have h0 : win0_6.index t0_0 0 = 0 := by decide
  have h1 : win0_6.index t0_0 1 = 0 := by decide
  refine (extractStridedSlice_apply _ _ _ _ (ix2 (2 : Fin 3) mk) ?_).trans (transpose_ix2_apply _ _ _ _)
  intro a
  match a with
  | ⟨0, _⟩ => show 2 = 2 + (win0_6.index t0_0 0 * 1 + 1 * 0); rw [h0]
  | ⟨1, _⟩ => show mk.val = 0 + (win0_6.index t0_0 1 * 4 + 1 * mk.val); rw [h1]; omega

/-- The tables' words: the two knot selectors are one-hot rows, the flags are 0/1 words. -/
theorem lit0_eq : ∀ (v : Fin 40) (j : Fin 8),
    lit0 (S40x8.rowMajor (ix2 v j)) = if j = Cert.Spec.lo v then 0x3F800000#32 else 0x00000000#32 := by decide +kernel
theorem lit1_eq : ∀ (v : Fin 40) (j : Fin 8),
    lit1 (S40x8.rowMajor (ix2 v j)) = if j = Cert.Spec.hi v then 0x3F800000#32 else 0x00000000#32 := by decide +kernel
theorem lit2_eq : ∀ v : Fin 40, lit2 (S40x1.rowMajor (ix2 v (0 : Fin 1))) = Cert.Spec.fracBits v := by decide +kernel
theorem lit3_eq : ∀ v : Fin 40,
    lit3 (S40x1.rowMajor (ix2 v (0 : Fin 1))) = if Cert.Spec.isKnot v = true then 0x3F800000#32 else 0x00000000#32 := by decide +kernel
theorem lit4_eq : ∀ v : Fin 40,
    lit4 (S40x1.rowMajor (ix2 v (0 : Fin 1))) = if v.val = 14 then 0x3F800000#32 else 0x00000000#32 := by decide +kernel
theorem lit5_eq : ∀ v : Fin 40,
    lit5 (S40x1.rowMajor (ix2 v (0 : Fin 1))) = if v.val = 0 then 0x3F800000#32 else 0x00000000#32 := by decide +kernel

/-- A constant table's block entry. -/
theorem blk7 (c : Dev nD) (t : Fin cfg0.N) (v : Fin 40) (j : Fin 8) :
    (iblk m c 7 t : Vec Ideal S40x8 .f32) (ix2 v j) = if j = Cert.Spec.lo v then Cert.Spec.one else Cert.Spec.zero := by
  obtain rfl := fin_N0 t
  unfold iblk
  rw [View.read_apply]
  show (V m c main_cst : S40x8.Idx → EReal) _ = _
  rw [V_cst]
  have h0 : win0_7.index t0_0 0 = 0 := by decide
  have h1 : win0_7.index t0_0 1 = 0 := by decide
  have he : (((cfg0.win 7).blk t0_0).view.emb (ix2 v j) : S40x8.Idx) = ix2 v j := by
    funext a; apply Fin.ext
    match a with
    | ⟨0, _⟩ => show win0_7.index t0_0 0 * 40 + 1 * v.val = v.val; rw [h0]; omega
    | ⟨1, _⟩ => show win0_7.index t0_0 1 * 8 + 1 * j.val = j.val; rw [h1]; omega
  show Ideal.ofBits .f32 (lit0 (S40x8.rowMajor (((cfg0.win 7).blk t0_0).view.emb (ix2 v j)))) = _
  rw [he, lit0_eq]
  split <;> rfl

theorem blk8 (c : Dev nD) (t : Fin cfg0.N) (v : Fin 40) (j : Fin 8) :
    (iblk m c 8 t : Vec Ideal S40x8 .f32) (ix2 v j) = if j = Cert.Spec.hi v then Cert.Spec.one else Cert.Spec.zero := by
  obtain rfl := fin_N0 t
  unfold iblk
  rw [View.read_apply]
  show (V m c main_cst_0 : S40x8.Idx → EReal) _ = _
  rw [V_cst_0]
  have h0 : win0_8.index t0_0 0 = 0 := by decide
  have h1 : win0_8.index t0_0 1 = 0 := by decide
  have he : (((cfg0.win 8).blk t0_0).view.emb (ix2 v j) : S40x8.Idx) = ix2 v j := by
    funext a; apply Fin.ext
    match a with
    | ⟨0, _⟩ => show win0_8.index t0_0 0 * 40 + 1 * v.val = v.val; rw [h0]; omega
    | ⟨1, _⟩ => show win0_8.index t0_0 1 * 8 + 1 * j.val = j.val; rw [h1]; omega
  show Ideal.ofBits .f32 (lit1 (S40x8.rowMajor (((cfg0.win 8).blk t0_0).view.emb (ix2 v j)))) = _
  rw [he, lit1_eq]
  split <;> rfl

theorem blk9 (c : Dev nD) (t : Fin cfg0.N) (v : Fin 40) :
    (iblk m c 9 t : Vec Ideal S40x1 .f32) (ix2 v (0 : Fin 1)) = Ideal.ofBits .f32 (Cert.Spec.fracBits v) := by
  obtain rfl := fin_N0 t
  unfold iblk
  rw [View.read_apply]
  show (V m c main_cst_1 : S40x1.Idx → EReal) _ = _
  rw [V_cst_1]
  have h0 : win0_9.index t0_0 0 = 0 := by decide
  have h1 : win0_9.index t0_0 1 = 0 := by decide
  have he : (((cfg0.win 9).blk t0_0).view.emb (ix2 v (0 : Fin 1)) : S40x1.Idx) = ix2 v (0 : Fin 1) := by
    funext a; apply Fin.ext
    match a with
    | ⟨0, _⟩ => show win0_9.index t0_0 0 * 40 + 1 * v.val = v.val; rw [h0]; omega
    | ⟨1, _⟩ => show win0_9.index t0_0 1 * 1 + 1 * 0 = 0; rw [h1]
  show Ideal.ofBits .f32 (lit2 (S40x1.rowMajor (((cfg0.win 9).blk t0_0).view.emb (ix2 v (0 : Fin 1))))) = _
  rw [he, lit2_eq]

theorem blk10 (c : Dev nD) (t : Fin cfg0.N) (v : Fin 40) :
    (iblk m c 10 t : Vec Ideal S40x1 .f32) (ix2 v (0 : Fin 1)) = if Cert.Spec.isKnot v = true then Cert.Spec.one else Cert.Spec.zero := by
  obtain rfl := fin_N0 t
  unfold iblk
  rw [View.read_apply]
  show (V m c main_cst_2 : S40x1.Idx → EReal) _ = _
  rw [V_cst_2]
  have h0 : win0_10.index t0_0 0 = 0 := by decide
  have h1 : win0_10.index t0_0 1 = 0 := by decide
  have he : (((cfg0.win 10).blk t0_0).view.emb (ix2 v (0 : Fin 1)) : S40x1.Idx) = ix2 v (0 : Fin 1) := by
    funext a; apply Fin.ext
    match a with
    | ⟨0, _⟩ => show win0_10.index t0_0 0 * 40 + 1 * v.val = v.val; rw [h0]; omega
    | ⟨1, _⟩ => show win0_10.index t0_0 1 * 1 + 1 * 0 = 0; rw [h1]
  show Ideal.ofBits .f32 (lit3 (S40x1.rowMajor (((cfg0.win 10).blk t0_0).view.emb (ix2 v (0 : Fin 1))))) = _
  rw [he, lit3_eq]
  split <;> rfl

theorem blk11 (c : Dev nD) (t : Fin cfg0.N) (v : Fin 40) :
    (iblk m c 11 t : Vec Ideal S40x1 .f32) (ix2 v (0 : Fin 1)) = if v.val = 14 then Cert.Spec.one else Cert.Spec.zero := by
  obtain rfl := fin_N0 t
  unfold iblk
  rw [View.read_apply]
  show (V m c main_cst_3 : S40x1.Idx → EReal) _ = _
  rw [V_cst_3]
  have h0 : win0_11.index t0_0 0 = 0 := by decide
  have h1 : win0_11.index t0_0 1 = 0 := by decide
  have he : (((cfg0.win 11).blk t0_0).view.emb (ix2 v (0 : Fin 1)) : S40x1.Idx) = ix2 v (0 : Fin 1) := by
    funext a; apply Fin.ext
    match a with
    | ⟨0, _⟩ => show win0_11.index t0_0 0 * 40 + 1 * v.val = v.val; rw [h0]; omega
    | ⟨1, _⟩ => show win0_11.index t0_0 1 * 1 + 1 * 0 = 0; rw [h1]
  show Ideal.ofBits .f32 (lit4 (S40x1.rowMajor (((cfg0.win 11).blk t0_0).view.emb (ix2 v (0 : Fin 1))))) = _
  rw [he, lit4_eq]
  split <;> rfl

theorem blk12 (c : Dev nD) (t : Fin cfg0.N) (v : Fin 40) :
    (iblk m c 12 t : Vec Ideal S40x1 .f32) (ix2 v (0 : Fin 1)) = if v.val = 0 then Cert.Spec.one else Cert.Spec.zero := by
  obtain rfl := fin_N0 t
  unfold iblk
  rw [View.read_apply]
  show (V m c main_cst_4 : S40x1.Idx → EReal) _ = _
  rw [V_cst_4]
  have h0 : win0_12.index t0_0 0 = 0 := by decide
  have h1 : win0_12.index t0_0 1 = 0 := by decide
  have he : (((cfg0.win 12).blk t0_0).view.emb (ix2 v (0 : Fin 1)) : S40x1.Idx) = ix2 v (0 : Fin 1) := by
    funext a; apply Fin.ext
    match a with
    | ⟨0, _⟩ => show win0_12.index t0_0 0 * 40 + 1 * v.val = v.val; rw [h0]; omega
    | ⟨1, _⟩ => show win0_12.index t0_0 1 * 1 + 1 * 0 = 0; rw [h1]
  show Ideal.ofBits .f32 (lit5 (S40x1.rowMajor (((cfg0.win 12).blk t0_0).view.emb (ix2 v (0 : Fin 1))))) = _
  rw [he, lit5_eq]
  split <;> rfl

/-- All thirteen blocks, as the body's arithmetic wants them described. -/
theorem blocks (c : Dev nD) (t : Fin cfg0.N) :
    Cert.KerBody.Blocks (iblk m c 0 t) (iblk m c 1 t) (iblk m c 2 t)
      (View.ld (iblk m c 3 t : Vec Ideal S40x2 .f32) (Rect.unit ![0, 0] ![40, 1] inb_S40x2_S40x1_0_0))
      (View.ld (iblk m c 3 t : Vec Ideal S40x2 .f32) (Rect.unit ![0, 1] ![40, 1] inb_S40x2_S40x1_0_1))
      (iblk m c 4 t) (iblk m c 5 t) (iblk m c 6 t) (iblk m c 7 t) (iblk m c 8 t) (iblk m c 9 t) (iblk m c 10 t)
      (iblk m c 11 t) (iblk m c 12 t)
      (m ((c : Thread nD τ).loc main_arg0)) (m ((c : Thread nD τ).loc main_arg1)) (m ((c : Thread nD τ).loc main_arg2))
      (m ((c : Thread nD τ).loc main_arg3)) (m ((c : Thread nD τ).loc main_arg4)) where
  rot := blk0 m c t
  mag := blk1 m c t
  tilt := blk2 m c t
  off0 := fun v => by
    refine Eq.trans ?_ (blk3 m c t v 0)
    show (iblk m c 3 t : Vec Ideal S40x2 .f32) _ = (iblk m c 3 t : Vec Ideal S40x2 .f32) (ix2 v (0 : Fin 2))
    refine congrArg _ (funext fun a => Fin.ext ?_)
    match a with
    | ⟨0, _⟩ => show 0 + 1 * v.val = v.val; omega
    | ⟨1, _⟩ => rfl
  off1 := fun v => by
    refine Eq.trans ?_ (blk3 m c t v 1)
    show (iblk m c 3 t : Vec Ideal S40x2 .f32) _ = (iblk m c 3 t : Vec Ideal S40x2 .f32) (ix2 v (1 : Fin 2))
    refine congrArg _ (funext fun a => Fin.ext ?_)
    match a with
    | ⟨0, _⟩ => show 0 + 1 * v.val = v.val; omega
    | ⟨1, _⟩ => rfl
  xs0 := blk4 m c t
  xs1 := blk5 m c t
  xs2 := blk6 m c t
  sel1 := blk7 m c t
  sel2 := blk8 m c t
  frac := blk9 m c t
  knot := blk10 m c t
  is14 := blk11 m c t
  is0 := blk12 m c t

end Blocks

/-! ## The result array, and the run -/

section Run
variable (m : (ℓ : Loc nD τ sig) → Buf (Elt Ideal) ℓ) (ρ : Dev nD → PrngReg)

/-- The specification's function of the arguments as launched. -/
abbrev G (c : Dev nD) : S142x2.Idx → EReal :=
  Cert.Spec.out (m ((c : Thread nD τ).loc main_arg0)) (m ((c : Thread nD τ).loc main_arg1)) (m ((c : Thread nD τ).loc main_arg2))
    (m ((c : Thread nD τ).loc main_arg3)) (m ((c : Thread nD τ).loc main_arg4))

/-- What the one grid point writes back is the whole of it: the block is the array. -/
theorem flushed_eq (c : Dev nD) (t : Fin cfg0.N) :
    (dats m 0 c).flushed 13 t = ((cfg0.win 13).blk t).view.read (Elt Ideal) (G m c) := by
  rw [Cert.KernelIdeal.Value.flushed13]
  unfold outsAt0
  rw [out_A_eq _ _ _ _ _ _ _ _ _ _ _ _ _ _ _ _ _ _ _ _ _ _ _ _ _ _ _ _ _ _ _ _ _ _ _ _ _ _ _ _ _ _ _ _ _ _ _ _ (blocks m c t)]
  obtain rfl := fin_N0 t
  funext j
  show G m c j = G m c (((cfg0.win 13).blk t0_0).view.emb j)
  have h0 : win0_13.index t0_0 0 = 0 := by decide
  have h1 : win0_13.index t0_0 1 = 0 := by decide
  refine congrArg _ (funext fun a => Fin.ext ?_)
  match a with
  | ⟨0, _⟩ => show (j 0).val = win0_13.index t0_0 0 * 142 + 1 * (j 0).val; rw [h0]; omega
  | ⟨1, _⟩ => show (j 1).val = win0_13.index t0_0 1 * 2 + 1 * (j 1).val; rw [h1]; omega

/-- So the result array ends holding the specification's function. -/
theorem final (c : Dev nD) : (dats m 0 c).arrAt 13 cfg0.N = G m c :=
  (dats m 0 c).arrAt_eq_of_cover 13 (G m c) (fun t _ => flushed_eq m c t) fun i =>
    ⟨t0_0, flush0_13 t0_0, by
      show i ∈ ((View.whole main_v7).slice (win0_13.rect t0_0)).set
      rw [View.set_slice_whole, Rect.mem_set_unit]
      intro a
      have h0 : (i 0 : Nat) < 142 := (i 0).isLt
      have h1 : (i 1 : Nat) < 2 := (i 1).isLt
      match a with
      | ⟨0, _⟩ => show win0_13.index t0_0 0 * win0_13.size 0 ≤ (i 0 : Nat) ∧ (i 0 : Nat) < win0_13.index t0_0 0 * win0_13.size 0 + win0_13.xsize (grid0.coords t0_0) 0
                  rw [show win0_13.index t0_0 0 * win0_13.size 0 = 0 from by decide +kernel, show win0_13.xsize (grid0.coords t0_0) 0 = 142 from by decide +kernel]; omega
      | ⟨1, _⟩ => show win0_13.index t0_0 1 * win0_13.size 1 ≤ (i 1 : Nat) ∧ (i 1 : Nat) < win0_13.index t0_0 1 * win0_13.size 1 + win0_13.xsize (grid0.coords t0_0) 1
                  rw [show win0_13.index t0_0 1 * win0_13.size 1 = 0 from by decide +kernel, show win0_13.xsize (grid0.coords t0_0) 1 = 2 from by decide +kernel]; omega⟩

theorem run :
    θ_run defs (onTc (τ := τ) (main (F := Ideal))) ⟨m, fun _ => 0, ρ⟩ fun r => ∀ c : Dev nD,
      r.2.mem ((c : Thread nD τ).loc main_v7)
        = Cert.Spec.out (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Run

end Cert.KerValue

end
-- ==== Proof.Finite.lean ====
/-
  The precondition read back: where the finiteness test answers "all true", every entry of every argument array is
  a real number.
-/
import proofs.«167565_j19318762897522_1_alg».proof.Proof.Gen.Pre_finite_inputs
import proofs.«167565_j19318762897522_1_alg».proof.Proof.Spec
import Idealize.ShloMosaic.Lib.ReduceAll
import Idealize.ShloMosaic.Lib.IdealHost

noncomputable section

namespace Cert.Finite

open Cert.Pre_finite_inputs Cert.Pre_finite_inputs.Gen Idealize.ShloMosaic Idealize.ShloMosaic.ValueIdx

/-- The shape of a scalar has exactly one index. -/
instance : Subsingleton S_.Idx := ⟨fun a b => funext fun d => d.elim0⟩

/-- An extended real whose absolute value max x (-x) lies strictly below +∞ is neither infinity: it is a real. -/
theorem real_of_abs_lt_top (x : EReal) (h : max x (-x) < ⊤) : ∃ r : ℝ, x = (r : EReal) := by
  induction x using EReal.rec with
  | bot => simp at h
  | coe r => exact ⟨r, rfl⟩
  | top => simp at h

/-- One entry of the test |a| < +∞ being true says that entry of a is a real. -/
theorem elem_real {S : Shape} (hb : S_.BroadcastsInDim S (![] : Fin 0 → Fin S.rank)) (a : FVec Ideal S .f32) (i : S.Idx)
    (h : cmpf .olt (Host.absf a) (broadcastInDim S ![] hb (constant (F := Ideal) S_ .f32 0x7F800000#32)) i = 1#1) :
    ∃ r : ℝ, a i = (r : EReal) := by
  rw [cmpf_apply, broadcastInDim_scalar_apply, constant_apply] at h
  have habs : Host.absf a i = max (a i) (-(a i)) := rfl
  have htop : Ideal.ofBits .f32 0x7F800000#32 = (⊤ : EReal) := by simp [Ideal.ofBits, Ideal.ieee]
  rw [habs, htop, Ideal.cmpf_def] at h
  have hb : ∀ b : Bool, BitVec.ofBool b = 1#1 → b = true := by decide
  have hlt : max (a i) (-(a i)) < (⊤ : EReal) := of_decide_eq_true (hb _ h)
  exact real_of_abs_lt_top (a i) hlt

theorem of_fn (a0 a1 : FVec Ideal S40 .f32) (a2 : FVec Ideal S4x3 .f32) (a3 : FVec Ideal S8 .f32) (a4 : FVec Ideal S40x2 .f32)
    (h : Cert.Pre_finite_inputs.fn (F := Ideal) a0 a1 a2 a3 a4 = (fun _ => 1#1)) :
    Cert.Spec.AllReal a0 ∧ Cert.Spec.AllReal a1 ∧ Cert.Spec.AllReal a2 ∧ Cert.Spec.AllReal a3 ∧ Cert.Spec.AllReal a4 := by
  have h0 := congrFun h ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨fun i => elem_real _ a0 i (Host.reduce_andi_all _ _ _ _ _ h0' i),
    fun i => elem_real _ a1 i (Host.reduce_andi_all _ _ _ _ _ h1 i),
    fun i => elem_real _ a2 i (Host.reduce_andi_all _ _ _ _ _ h2 i),
    fun i => elem_real _ a3 i (Host.reduce_andi_all _ _ _ _ _ h3 i),
    fun i => elem_real _ a4 i (Host.reduce_andi_all _ _ _ _ _ h4 i)⟩

end Cert.Finite

end
-- ==== Proof.lean ====
/-
  The certificate's five claims, assembled.

  Both programs compute, for each of the 142 kept (marker, view) pairs, the two coordinates
      mag v . (Rot(rot v) . Tilt(tilt v)) . xyz mk + off v
  of marker mk seen in view v (`Spec.out`).  The kernel's run ends with that function of the arguments in its
  result (`KerValue.run`: its one grid point writes the whole result, four row blocks); the reference's run ends
  with its own composition of array operations (`RefRun.run`), which is the same function entry by entry once
  every argument entry is a real number (`RefAlg.refOut_eq`: the two small matrix products written out, zero
  terms dropped, the products re-associated), and the precondition says exactly that (`Finite.of_fn`).
  The three frames are the runs with the result forgotten; the idealization rewrote nothing.
-/
import proofs.«167565_j19318762897522_1_alg».proof.Defs
import proofs.«167565_j19318762897522_1_alg».proof.Proof.Gen.Kernel
import proofs.«167565_j19318762897522_1_alg».proof.Proof.Gen.Kernel.Skeleton
import proofs.«167565_j19318762897522_1_alg».proof.Proof.Gen.Kernel.Launch
import proofs.«167565_j19318762897522_1_alg».proof.Proof.Gen.Kernel.Points
import proofs.«167565_j19318762897522_1_alg».proof.Proof.Gen.Kernel.Frame
import proofs.«167565_j19318762897522_1_alg».proof.Proof.Gen.KernelIdeal
import proofs.«167565_j19318762897522_1_alg».proof.Proof.Gen.KernelIdeal.Skeleton
import proofs.«167565_j19318762897522_1_alg».proof.Proof.Gen.KernelIdeal.Launch
import proofs.«167565_j19318762897522_1_alg».proof.Proof.Gen.KernelIdeal.Points
import proofs.«167565_j19318762897522_1_alg».proof.Proof.Gen.KernelIdeal.Frame
import proofs.«167565_j19318762897522_1_alg».proof.Proof.Gen.KernelIdeal.Value
import proofs.«167565_j19318762897522_1_alg».proof.Proof.Gen.ReferenceIdeal
import proofs.«167565_j19318762897522_1_alg».proof.Proof.Gen.Pre_finite_inputs
import proofs.«167565_j19318762897522_1_alg».proof.Proof.Spec
import proofs.«167565_j19318762897522_1_alg».proof.Proof.RefTerm
import proofs.«167565_j19318762897522_1_alg».proof.Proof.RefRun
import proofs.«167565_j19318762897522_1_alg».proof.Proof.RefAlg
import proofs.«167565_j19318762897522_1_alg».proof.Proof.KerValue
import proofs.«167565_j19318762897522_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.RefRun.run (F := Ideal) m ρ)

theorem algebraic : Cert.algebraic_KernelIdeal_ReferenceIdeal := by
  intro m ρ m' ρ' hpre hagree
  refine ⟨_, Cert.KerValue.run m ρ, ?_⟩
  refine (θ_run Cert.ReferenceIdeal.defs _ _).mono (fun _ h c => ⟨(h c).1.trans ?_, (h c).2⟩)
    (Cert.RefRun.run (F := Ideal) m' ρ')
  obtain ⟨h0, h1, h2, h3, h4⟩ := Cert.Finite.of_fn _ _ _ _ _ (hpre c)
  rw [(hagree c).1, (hagree c).2.1, (hagree c).2.2.1, (hagree c).2.2.2.1, (hagree c).2.2.2.2]
  exact Cert.RefAlg.refOut_eq _ _ _ _ _ h0 h1 h2 h3 h4

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
